-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S300x784 : Shape := ⟨2, ![300, 784]⟩
abbrev S300 : Shape := ⟨1, ![300]⟩
abbrev S65536x300 : Shape := ⟨2, ![65536, 300]⟩
abbrev S100x300 : Shape := ⟨2, ![100, 300]⟩
abbrev S100 : Shape := ⟨1, ![100]⟩
abbrev S65536x100 : Shape := ⟨2, ![65536, 100]⟩
abbrev S10x100 : Shape := ⟨2, ![10, 100]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S300x784 : S_.BroadcastsInDim S300x784 (![] : Fin 0 → Fin S300x784.rank)
  reducesTo_S300x784_S_d0_1 : S300x784.ReducesTo [0, 1] S_
  bcast_S_S300 : S_.BroadcastsInDim S300 (![] : Fin 0 → Fin S300.rank)
  reducesTo_S300_S_d0 : S300.ReducesTo [0] S_
  bcast_S_S65536x300 : S_.BroadcastsInDim S65536x300 (![] : Fin 0 → Fin S65536x300.rank)
  reducesTo_S65536x300_S_d0_1 : S65536x300.ReducesTo [0, 1] S_
  bcast_S_S100x300 : S_.BroadcastsInDim S100x300 (![] : Fin 0 → Fin S100x300.rank)
  reducesTo_S100x300_S_d0_1 : S100x300.ReducesTo [0, 1] S_
  bcast_S_S100 : S_.BroadcastsInDim S100 (![] : Fin 0 → Fin S100.rank)
  reducesTo_S100_S_d0 : S100.ReducesTo [0] S_
  bcast_S_S65536x100 : S_.BroadcastsInDim S65536x100 (![] : Fin 0 → Fin S65536x100.rank)
  reducesTo_S65536x100_S_d0_1 : S65536x100.ReducesTo [0, 1] S_
  bcast_S_S10x100 : S_.BroadcastsInDim S10x100 (![] : Fin 0 → Fin S10x100.rank)
  reducesTo_S10x100_S_d0_1 : S10x100.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S65536x100 .f32) (main_arg12 : FVec F S65536x100 .f32) (main_arg13 : FVec F S10x100 .f32) (main_arg14 : FVec F S10 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S65536x100 .f32 := Host.absf main_arg11
  let main_cst_20 : FVec F S_ .f32 := constant S_ .f32 0x7F800000#32
  let main_v55 : FVec F S65536x100 .f32 := broadcastInDim S65536x100 ![] bcast_S_S65536x100 main_cst_20
  let main_v56 : IVec S65536x100 1 := cmpf .olt main_v54 main_v55
  let main_c_21 : IVec S_ 1 := constantI S_ 1 1#1
  let main_v57 : IVec S_ 1 := (fun x v => Host.reduce IntOp.andi x v reducesTo_S65536x100_S_d0_1 h_S_) main_v56 main_c_21
  let main_v58 : IVec S_ 1 := andi main_v53 main_v57
  let main_v59 : FVec F S65536x100 .f32 := Host.absf main_arg12
  let main_cst_22 : FVec F S_ .f32 := constant S_ .f32 0x7F800000#32
  let main_v60 : FVec F S65536x100 .f32 := broadcastInDim S65536x100 ![] bcast_S_S65536x100 main_cst_22
  let main_v61 : IVec S65536x100 1 := cmpf .olt main_v59 main_v60
  let main_c_23 : IVec S_ 1 := constantI S_ 1 1#1
  let main_v62 : IVec S_ 1 := (fun x v => Host.reduce IntOp.andi x v reducesTo_S65536x100_S_d0_1 h_S_) main_v61 main_c_23
  let main_v63 : IVec S_ 1 := andi main_v58 main_v62
  let main_v64 : FVec F S10x100 .f32 := Host.absf main_arg13
  let main_cst_24 : FVec F S_ .f32 := constant S_ .f32 0x7F800000#32
  let main_v65 : FVec F S10x100 .f32 := broadcastInDim S10x100 ![] bcast_S_S10x100 main_cst_24
  let main_v66 : IVec S10x100 1 := cmpf .olt main_v64 main_v65
  let main_c_25 : IVec S_ 1 := constantI S_ 1 1#1
  let main_v67 : IVec S_ 1 := (fun x v => Host.reduce IntOp.andi x v reducesTo_S10x100_S_d0_1 h_S_) main_v66 main_c_25
  fn_part4 (F := F) main_arg14 main_v63 main_v67

def fn_part2 {F : FTy → Type} [FloatOps F] (main_arg7 : FVec F S100x300 .f32) (main_arg8 : FVec F S100 .f32) (main_arg9 : FVec F S100 .f32) (main_arg10 : FVec F S100 .f32) (main_arg11 : FVec F S65536x100 .f32) (main_arg12 : FVec F S65536x100 .f32) (main_arg13 : FVec F S10x100 .f32) (main_arg14 : FVec F S10 .f32) (main_v33 : IVec S_ 1) : IVec S_ 1 :=
  let main_v34 : FVec F S100x300 .f32 := Host.absf main_arg7
  let main_cst_12 : FVec F S_ .f32 := constant S_ .f32 0x7F800000#32
  let main_v35 : FVec F S100x300 .f32 := broadcastInDim S100x300 ![] bcast_S_S100x300 main_cst_12
  let main_v36 : IVec S100x300 1 := cmpf .olt main_v34 main_v35
  let main_c_13 : IVec S_ 1 := constantI S_ 1 1#1
  let main_v37 : IVec S_ 1 := (fun x v => Host.reduce IntOp.andi x v reducesTo_S100x300_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100 .f32 := Host.absf main_arg9
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg11 main_arg12 main_arg13 main_arg14 main_v48 main_v49 main_v50

def fn_part1 {F : FTy → Type} [FloatOps F] (main_arg4 : FVec F S300 .f32) (main_arg5 : FVec F S65536x300 .f32) (main_arg6 : FVec F S65536x300 .f32) (main_arg7 : FVec F S100x300 .f32) (main_arg8 : FVec F S100 .f32) (main_arg9 : FVec F S100 .f32) (main_arg10 : FVec F S100 .f32) (main_arg11 : FVec F S65536x100 .f32) (main_arg12 : FVec F S65536x100 .f32) (main_arg13 : FVec F S10x100 .f32) (main_arg14 : FVec F S10 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300 .f32 := Host.absf main_arg4
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  let main_v24 : FVec F S65536x300 .f32 := Host.absf main_arg5
  let main_cst_8 : FVec F S_ .f32 := constant S_ .f32 0x7F800000#32
  let main_v25 : FVec F S65536x300 .f32 := broadcastInDim S65536x300 ![] bcast_S_S65536x300 main_cst_8
  let main_v26 : IVec S65536x300 1 := cmpf .olt main_v24 main_v25
  let main_c_9 : IVec S_ 1 := constantI S_ 1 1#1
  let main_v27 : IVec S_ 1 := (fun x v => Host.reduce IntOp.andi x v reducesTo_S65536x300_S_d0_1 h_S_) main_v26 main_c_9
  let main_v28 : IVec S_ 1 := andi main_v23 main_v27
  let main_v29 : FVec F S65536x300 .f32 := Host.absf main_arg6
  let main_cst_10 : FVec F S_ .f32 := constant S_ .f32 0x7F800000#32
  let main_v30 : FVec F S65536x300 .f32 := broadcastInDim S65536x300 ![] bcast_S_S65536x300 main_cst_10
  let main_v31 : IVec S65536x300 1 := cmpf .olt main_v29 main_v30
  let main_c_11 : IVec S_ 1 := constantI S_ 1 1#1
  let main_v32 : IVec S_ 1 := (fun x v => Host.reduce IntOp.andi x v reducesTo_S65536x300_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x784 .f32) (main_arg1 : FVec F S300x784 .f32) (main_arg2 : FVec F S300 .f32) (main_arg3 : FVec F S300 .f32) (main_arg4 : FVec F S300 .f32) (main_arg5 : FVec F S65536x300 .f32) (main_arg6 : FVec F S65536x300 .f32) (main_arg7 : FVec F S100x300 .f32) (main_arg8 : FVec F S100 .f32) (main_arg9 : FVec F S100 .f32) (main_arg10 : FVec F S100 .f32) (main_arg11 : FVec F S65536x100 .f32) (main_arg12 : FVec F S65536x100 .f32) (main_arg13 : FVec F S10x100 .f32) (main_arg14 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S300x784 .f32 := Host.absf main_arg1
  let main_cst_0 : FVec F S_ .f32 := constant S_ .f32 0x7F800000#32
  let main_v5 : FVec F S300x784 .f32 := broadcastInDim S300x784 ![] bcast_S_S300x784 main_cst_0
  let main_v6 : IVec S300x784 1 := cmpf .olt main_v4 main_v5
  let main_c_1 : IVec S_ 1 := constantI S_ 1 1#1
  let main_v7 : IVec S_ 1 := (fun x v => Host.reduce IntOp.andi x v reducesTo_S300x784_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x784 : Shape := ⟨2, ![65536, 784]⟩
abbrev S300x784 : Shape := ⟨2, ![300, 784]⟩
abbrev S300 : Shape := ⟨1, ![300]⟩
abbrev S65536x300 : Shape := ⟨2, ![65536, 300]⟩
abbrev S100x300 : Shape := ⟨2, ![100, 300]⟩
abbrev S100 : Shape := ⟨1, ![100]⟩
abbrev S65536x100 : Shape := ⟨2, ![65536, 100]⟩
abbrev S10x100 : Shape := ⟨2, ![10, 100]⟩
abbrev S10 : Shape := ⟨1, ![10]⟩
abbrev S1x300 : Shape := ⟨2, ![1, 300]⟩
abbrev S1x100 : Shape := ⟨2, ![1, 100]⟩
abbrev S1x10 : Shape := ⟨2, ![1, 10]⟩
abbrev S2x300 : Shape := ⟨2, ![2, 300]⟩
abbrev S2048x784 : Shape := ⟨2, ![2048, 784]⟩
abbrev S2048x300 : Shape := ⟨2, ![2048, 300]⟩
abbrev S_ : Shape := ⟨0, ![]⟩
abbrev S2x100 : Shape := ⟨2, ![2, 100]⟩
abbrev S2048x100 : Shape := ⟨2, ![2048, 100]⟩
abbrev S65536x10 : Shape := ⟨2, ![65536, 10]⟩
abbrev S2048x10 : Shape := ⟨2, ![2048, 10]⟩

abbrev nBuf : Space → Nat
  | .hbm => 55
  | .vmem => 36
  | .smem => 0
  | _ => 0

abbrev bufTy : (tb : Table) → Fin (tcTables nBuf tb) → BufTy
  | .hbm, ⟨0, _⟩ => ⟨S65536x784, .f32⟩
  | .hbm, ⟨1, _⟩ => ⟨S300x784, .f32⟩
  | .hbm, ⟨2, _⟩ => ⟨S300, .f32⟩
  | .hbm, ⟨3, _⟩ => ⟨S300, .f32⟩
  | .hbm, ⟨4, _⟩ => ⟨S300, .f32⟩
  | .hbm, ⟨5, _⟩ => ⟨S65536x300, .f32⟩
  | .hbm, ⟨6, _⟩ => ⟨S65536x300, .f32⟩
  | .hbm, ⟨7, _⟩ => ⟨S100x300, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S65536x100, .f32⟩
  | .hbm, ⟨12, _⟩ => ⟨S65536x100, .f32⟩
  | .hbm, ⟨13, _⟩ => ⟨S10x100, .f32⟩
  | .hbm, ⟨14, _⟩ => ⟨S10, .f32⟩
  | .hbm, ⟨15, _⟩ => ⟨S1x300, .f32⟩
  | .hbm, ⟨16, _⟩ => ⟨S1x300, .f32⟩
  | .hbm, ⟨17, _⟩ => ⟨S1x300, .f32⟩
  | .hbm, ⟨18, _⟩ => ⟨S1x100, .f32⟩
  | .hbm, ⟨19, _⟩ => ⟨S1x100, .f32⟩
  | .hbm, ⟨20, _⟩ => ⟨S1x100, .f32⟩
  | .hbm, ⟨21, _⟩ => ⟨S1x10, .f32⟩
  | .hbm, ⟨22, _⟩ => ⟨S65536x300, .f32⟩
  | .hbm, ⟨23, _⟩ => ⟨S2x300, .f32⟩
  | .hbm, ⟨24, _⟩ => ⟨S1x300, .f32⟩
  | .hbm, ⟨25, _⟩ => ⟨S300, .f32⟩
  | .hbm, ⟨26, _⟩ => ⟨S_, .f32⟩
  | .hbm, ⟨27, _⟩ => ⟨S300, .f32⟩
  | .hbm, ⟨28, _⟩ => ⟨S300, .f32⟩
  | .hbm, ⟨29, _⟩ => ⟨S1x300, .f32⟩
  | .hbm, ⟨30, _⟩ => ⟨S300, .f32⟩
  | .hbm, ⟨31, _⟩ => ⟨S_, .f32⟩
  | .hbm, ⟨32, _⟩ => ⟨S300, .f32⟩
  | .hbm, ⟨33, _⟩ => ⟨S300, .f32⟩
  | .hbm, ⟨34, _⟩ => ⟨S300, .f32⟩
  | .hbm, ⟨35, _⟩ => ⟨S300, .f32⟩
  | .hbm, ⟨36, _⟩ => ⟨S1x300, .f32⟩
  | .hbm, ⟨37, _⟩ => ⟨S1x300, .f32⟩
  | .hbm, ⟨38, _⟩ => ⟨S65536x100, .f32⟩
  | .hbm, ⟨39, _⟩ => ⟨S2x100, .f32⟩
  | .hbm, ⟨40, _⟩ => ⟨S1x100, .f32⟩
  | .hbm, ⟨41, _⟩ => ⟨S100, .f32⟩
  | .hbm, ⟨42, _⟩ => ⟨S_, .f32⟩
  | .hbm, ⟨43, _⟩ => ⟨S100, .f32⟩
  | .hbm, ⟨44, _⟩ => ⟨S100, .f32⟩
  | .hbm, ⟨45, _⟩ => ⟨S1x100, .f32⟩
  | .hbm, ⟨46, _⟩ => ⟨S100, .f32⟩
  | .hbm, ⟨47, _⟩ => ⟨S_, .f32⟩
  | .hbm, ⟨48, _⟩ => ⟨S100, .f32⟩
  | .hbm, ⟨49, _⟩ => ⟨S100, .f32⟩
  | .hbm, ⟨50, _⟩ => ⟨S100, .f32⟩
  | .hbm, ⟨51, _⟩ => ⟨S100, .f32⟩
  | .hbm, ⟨52, _⟩ => ⟨S1x100, .f32⟩
  | .hbm, ⟨53, _⟩ => ⟨S1x100, .f32⟩
  | .hbm, ⟨54, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S300x784, .f32⟩
  | .local _ .vmem, ⟨3, _⟩ => ⟨S1x300, .f32⟩
  | .local _ .vmem, ⟨4, _⟩ => ⟨S2048x300, .f32⟩
  | .local _ .vmem, ⟨5, _⟩ => ⟨S2048x300, .f32⟩
  | .local _ .vmem, ⟨6, _⟩ => ⟨S2x300, .f32⟩
  | .local _ .vmem, ⟨7, _⟩ => ⟨S2048x300, .f32⟩
  | .local _ .vmem, ⟨8, _⟩ => ⟨S2048x300, .f32⟩
  | .local _ .vmem, ⟨9, _⟩ => ⟨S2048x300, .f32⟩
  | .local _ .vmem, ⟨10, _⟩ => ⟨S2048x300, .f32⟩
  | .local _ .vmem, ⟨11, _⟩ => ⟨S2048x300, .f32⟩
  | .local _ .vmem, ⟨12, _⟩ => ⟨S2048x300, .f32⟩
  | .local _ .vmem, ⟨13, _⟩ => ⟨S1x300, .f32⟩
  | .local _ .vmem, ⟨14, _⟩ => ⟨S1x300, .f32⟩
  | .local _ .vmem, ⟨15, _⟩ => ⟨S1x300, .f32⟩
  | .local _ .vmem, ⟨16, _⟩ => ⟨S1x300, .f32⟩
  | .local _ .vmem, ⟨17, _⟩ => ⟨S100x300, .f32⟩
  | .local _ .vmem, ⟨18, _⟩ => ⟨S1x100, .f32⟩
  | .local _ .vmem, ⟨19, _⟩ => ⟨S2048x100, .f32⟩
  | .local _ .vmem, ⟨20, _⟩ => ⟨S2048x100, .f32⟩
  | .local _ .vmem, ⟨21, _⟩ => ⟨S2x100, .f32⟩
  | .local _ .vmem, ⟨22, _⟩ => ⟨S2048x100, .f32⟩
  | .local _ .vmem, ⟨23, _⟩ => ⟨S2048x100, .f32⟩
  | .local _ .vmem, ⟨24, _⟩ => ⟨S2048x100, .f32⟩
  | .local _ .vmem, ⟨25, _⟩ => ⟨S2048x100, .f32⟩
  | .local _ .vmem, ⟨26, _⟩ => ⟨S2048x100, .f32⟩
  | .local _ .vmem, ⟨27, _⟩ => ⟨S2048x100, .f32⟩
  | .local _ .vmem, ⟨28, _⟩ => ⟨S1x100, .f32⟩
  | .local _ .vmem, ⟨29, _⟩ => ⟨S1x100, .f32⟩
  | .local _ .vmem, ⟨30, _⟩ => ⟨S1x100, .f32⟩
  | .local _ .vmem, ⟨31, _⟩ => ⟨S1x100, .f32⟩
  | .local _ .vmem, ⟨32, _⟩ => ⟨S10x100, .f32⟩
  | .local _ .vmem, ⟨33, _⟩ => ⟨S1x10, .f32⟩
  | .local _ .vmem, ⟨34, _⟩ => ⟨S2048x10, .f32⟩
  | .local _ .vmem, ⟨35, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20_0 : Ref sig .tc := ⟨.hbm, 38, rfl⟩
abbrev main_v20_1 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc1_stg10_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc1_sem10_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x300 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x300 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S100x300 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x100 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S2x100 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x100 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10x100 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x10 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x10 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S300_S1x300 : S300.ShapeCasts S1x300
  shapeCasts_S100_S1x100 : S100.ShapeCasts S1x100
  shapeCasts_S10_S1x10 : S10.ShapeCasts S1x10
  inb_S2x300_S2x300_0_0 : ∀ a, (![0, 0] : Fin 2 → Nat) a + S2x300.size a ≤ S2x300.size a
  h_S2x300 : 0 < S2x300.numel
  inb_S2048x784_S2048x784_0_0 : ∀ a, (![0, 0] : Fin 2 → Nat) a + S2048x784.size a ≤ S2048x784.size a
  h_S2048x784 : 0 < S2048x784.numel
  bitsLt_bf16_f32 : FTy.bits .bf16 < FTy.bits .f32
  inb_S300x784_S300x784_0_0 : ∀ a, (![0, 0] : Fin 2 → Nat) a + S300x784.size a ≤ S300x784.size a
  h_S300x784 : 0 < S300x784.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  inb_S2048x300_S2048x300_0_0 : ∀ a, (![0, 0] : Fin 2 → Nat) a + S2048x300.size a ≤ S2048x300.size a
  h_S2048x300 : 0 < S2048x300.numel
  reduces_S2048x300_S300 : S2048x300.Reduces [0] S300
  shapeCasts_S2x300_S2x300 : S2x300.ShapeCasts S2x300
  concatenates_S1x300_S1x300_S2x300_d0 : Shape.Concatenates [S1x300, S1x300] S2x300 0
  slices_S2x300_S1x300_0_0 : S2x300.Slices ![0, 0] S1x300
  shapeCasts_S1x300_S300 : S1x300.ShapeCasts S300
  bcast_S_S300 : S_.BroadcastsInDim S300 (![] : Fin 0 → Fin S300.rank)
  slices_S2x300_S1x300_1_0 : S2x300.Slices ![1, 0] S1x300
  inb_S2x100_S2x100_0_0 : ∀ a, (![0, 0] : Fin 2 → Nat) a + S2x100.size a ≤ S2x100.size a
  h_S2x100 : 0 < S2x100.numel
  shapeCasts_S2048x300_S2048x300 : S2048x300.ShapeCasts S2048x300
  inb_S100x300_S100x300_0_0 : ∀ a, (![0, 0] : Fin 2 → Nat) a + S100x300.size a ≤ S100x300.size a
  h_S100x300 : 0 < S100x300.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  inb_S2048x100_S2048x100_0_0 : ∀ a, (![0, 0] : Fin 2 → Nat) a + S2048x100.size a ≤ S2048x100.size a
  h_S2048x100 : 0 < S2048x100.numel
  reduces_S2048x100_S100 : S2048x100.Reduces [0] S100
  shapeCasts_S2x100_S2x100 : S2x100.ShapeCasts S2x100
  concatenates_S1x100_S1x100_S2x100_d0 : Shape.Concatenates [S1x100, S1x100] S2x100 0
  slices_S2x100_S1x100_0_0 : S2x100.Slices ![0, 0] S1x100
  shapeCasts_S1x100_S100 : S1x100.ShapeCasts S100
  bcast_S_S100 : S_.BroadcastsInDim S100 (![] : Fin 0 → Fin S100.rank)
  slices_S2x100_S1x100_1_0 : S2x100.Slices ![1, 0] S1x100
  shapeCasts_S2048x100_S2048x100 : S2048x100.ShapeCasts S2048x100
  inb_S10x100_S10x100_0_0 : ∀ a, (![0, 0] : Fin 2 → Nat) a + S10x100.size a ≤ S10x100.size a
  h_S10x100 : 0 < S10x100.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x784_S300x784_S2048x300_1_1_0_0_n_n_wf : DotDims.WF S2048x784 S300x784 S2048x300 [1] [1] [0] [0] [] []
  dot_S2048x300_S100x300_S2048x100_1_1_0_0_n_n_wf : DotDims.WF S2048x300 S100x300 S2048x100 [1] [1] [0] [0] [] []
  dot_S2048x100_S10x100_S2048x10_1_1_0_0_n_n_wf : DotDims.WF S2048x100 S10x100 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x784.size a ≤ S300x784.size a
  hwx0_1 : ∀ i : grid0.Coords, EltTy.bits .f32 = 32 ∨ (Rect.block (s := S300x784) S300x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x300.size a ≤ S65536x300.size a
  hwx0_3 : ∀ i : grid0.Coords, EltTy.bits .f32 = 32 ∨ (Rect.block (s := S65536x300) S2048x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x300.size a ≤ S2x300.size a
  hwx0_4 : ∀ i : grid0.Coords, EltTy.bits .f32 = 32 ∨ (Rect.block (s := S2x300) S2x300.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x300.size a ≤ S65536x300.size a
  hwx1_0 : ∀ i : grid1.Coords, EltTy.bits .f32 = 32 ∨ (Rect.block (s := S65536x300) S2048x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x300.size a ≤ S65536x300.size a
  hwx1_1 : ∀ i : grid1.Coords, EltTy.bits .f32 = 32 ∨ (Rect.block (s := S65536x300) S2048x300.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x300.size a ≤ S65536x300.size a
  hwx1_2 : ∀ i : grid1.Coords, EltTy.bits .f32 = 32 ∨ (Rect.block (s := S65536x300) S2048x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x300.size a ≤ S1x300.size a
  hwx1_3 : ∀ i : grid1.Coords, EltTy.bits .f32 = 32 ∨ (Rect.block (s := S1x300) S1x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x300.size a ≤ S1x300.size a
  hwx1_5 : ∀ i : grid1.Coords, EltTy.bits .f32 = 32 ∨ (Rect.block (s := S1x300) S1x300.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x300.size a ≤ S1x300.size a
  hwx1_6 : ∀ i : grid1.Coords, EltTy.bits .f32 = 32 ∨ (Rect.block (s := S1x300) S1x300.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100x300.size a ≤ S100x300.size a
  hwx1_7 : ∀ i : grid1.Coords, EltTy.bits .f32 = 32 ∨ (Rect.block (s := S100x300) S100x300.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x100.size a ≤ S1x100.size a
  hwx1_8 : ∀ i : grid1.Coords, EltTy.bits .f32 = 32 ∨ (Rect.block (s := S1x100) S1x100.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x100.size a ≤ S65536x100.size a
  hwx1_9 : ∀ i : grid1.Coords, EltTy.bits .f32 = 32 ∨ (Rect.block (s := S65536x100) S2048x100.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S2x100.size a ≤ S2x100.size a
  hwx1_10 : ∀ i : grid1.Coords, EltTy.bits .f32 = 32 ∨ (Rect.block (s := S2x100) S2x100.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x100.size a ≤ S65536x100.size a
  hwx2_0 : ∀ i : grid2.Coords, EltTy.bits .f32 = 32 ∨ (Rect.block (s := S65536x100) S2048x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x100.size a ≤ S65536x100.size a
  hwx2_1 : ∀ i : grid2.Coords, EltTy.bits .f32 = 32 ∨ (Rect.block (s := S65536x100) S2048x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x100.size a ≤ S65536x100.size a
  hwx2_2 : ∀ i : grid2.Coords, EltTy.bits .f32 = 32 ∨ (Rect.block (s := S65536x100) S2048x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x100.size a ≤ S1x100.size a
  hwx2_5 : ∀ i : grid2.Coords, EltTy.bits .f32 = 32 ∨ (Rect.block (s := S1x100) S1x100.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x100.size a ≤ S1x100.size a
  hwx2_6 : ∀ i : grid2.Coords, EltTy.bits .f32 = 32 ∨ (Rect.block (s := S1x100) S1x100.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S10x100.size a ≤ S10x100.size a
  hwx2_7 : ∀ i : grid2.Coords, EltTy.bits .f32 = 32 ∨ (Rect.block (s := S10x100) S10x100.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x10.size a ≤ S1x10.size a
  hwx2_8 : ∀ i : grid2.Coords, EltTy.bits .f32 = 32 ∨ (Rect.block (s := S1x10) S1x10.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x10.size a ≤ S65536x10.size a
  hwx2_9 : ∀ i : grid2.Coords, EltTy.bits .f32 = 32 ∨ (Rect.block (s := S65536x10) S2048x10.size (cc2_transform_9 i) (hinb2_9 i)).WholeWords (EltTy.packing .f32)

variable [Facts₀]

def dot_S2048x784_S300x784_S2048x300_1_1_0_0_n_n : DotDims S2048x784 S300x784 S2048x300 where
  lhsContracting := [1]
  rhsContracting := [1]
  lhsNonContracting := [0]
  rhsNonContracting := [0]
  lhsBatch := []
  rhsBatch := []
  wf := dot_S2048x784_S300x784_S2048x300_1_1_0_0_n_n_wf
def dot_S2048x300_S100x300_S2048x100_1_1_0_0_n_n : DotDims S2048x300 S100x300 S2048x100 where
  lhsContracting := [1]
  rhsContracting := [1]
  lhsNonContracting := [0]
  rhsNonContracting := [0]
  lhsBatch := []
  rhsBatch := []
  wf := dot_S2048x300_S100x300_S2048x100_1_1_0_0_n_n_wf
def dot_S2048x100_S10x100_S2048x10_1_1_0_0_n_n : DotDims S2048x100 S10x100 S2048x10 where
  lhsContracting := [1]
  rhsContracting := [1]
  lhsNonContracting := [0]
  rhsNonContracting := [0]
  lhsBatch := []
  rhsBatch := []
  wf := dot_S2048x100_S10x100_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S300x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S2048x300.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S2x300.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7_0) S2048x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2048x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2048x300.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x300.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x300.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S100x300.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v3) S1x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20_0) S2048x100.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v20_1) S2x100.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v20_0) S2048x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S2048x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S2048x100.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x100.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S10x100.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v6) S1x10.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v33) S2048x10.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S65536x784 : Shape := ⟨2, ![65536, 784]⟩
abbrev S300x784 : Shape := ⟨2, ![300, 784]⟩
abbrev S300 : Shape := ⟨1, ![300]⟩
abbrev S65536x300 : Shape := ⟨2, ![65536, 300]⟩
abbrev S100x300 : Shape := ⟨2, ![100, 300]⟩
abbrev S100 : Shape := ⟨1, ![100]⟩
abbrev S65536x100 : Shape := ⟨2, ![65536, 100]⟩
abbrev S10x100 : Shape := ⟨2, ![10, 100]⟩
abbrev S10 : Shape := ⟨1, ![10]⟩
abbrev S784x300 : Shape := ⟨2, ![784, 300]⟩
abbrev S1x300 : Shape := ⟨2, ![1, 300]⟩
abbrev S_ : Shape := ⟨0, ![]⟩
abbrev S300x100 : Shape := ⟨2, ![300, 100]⟩
abbrev S1x100 : Shape := ⟨2, ![1, 100]⟩
abbrev S100x10 : Shape := ⟨2, ![100, 10]⟩
abbrev S65536x10 : Shape := ⟨2, ![65536, 10]⟩
abbrev S1x10 : Shape := ⟨2, ![1, 10]⟩

abbrev nBuf : Space → Nat
  | .hbm => 128
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S300x784, .f32⟩
  | .hbm, ⟨2, _⟩ => ⟨S300, .f32⟩
  | .hbm, ⟨3, _⟩ => ⟨S300, .f32⟩
  | .hbm, ⟨4, _⟩ => ⟨S300, .f32⟩
  | .hbm, ⟨5, _⟩ => ⟨S65536x300, .f32⟩
  | .hbm, ⟨6, _⟩ => ⟨S65536x300, .f32⟩
  | .hbm, ⟨7, _⟩ => ⟨S100x300, .f32⟩
  | .hbm, ⟨8, _⟩ => ⟨S100, .f32⟩
  | .hbm, ⟨9, _⟩ => ⟨S100, .f32⟩
  | .hbm, ⟨10, _⟩ => ⟨S100, .f32⟩
  | .hbm, ⟨11, _⟩ => ⟨S65536x100, .f32⟩
  | .hbm, ⟨12, _⟩ => ⟨S65536x100, .f32⟩
  | .hbm, ⟨13, _⟩ => ⟨S10x100, .f32⟩
  | .hbm, ⟨14, _⟩ => ⟨S10, .f32⟩
  | .hbm, ⟨15, _⟩ => ⟨S784x300, .f32⟩
  | .hbm, ⟨16, _⟩ => ⟨S65536x300, .f32⟩
  | .hbm, ⟨17, _⟩ => ⟨S1x300, .f32⟩
  | .hbm, ⟨18, _⟩ => ⟨S65536x300, .f32⟩
  | .hbm, ⟨19, _⟩ => ⟨S65536x300, .f32⟩
  | .hbm, ⟨20, _⟩ => ⟨S_, .f32⟩
  | .hbm, ⟨21, _⟩ => ⟨S65536x300, .f32⟩
  | .hbm, ⟨22, _⟩ => ⟨S65536x300, .f32⟩
  | .hbm, ⟨23, _⟩ => ⟨S_, .f32⟩
  | .hbm, ⟨24, _⟩ => ⟨S300, .f32⟩
  | .hbm, ⟨25, _⟩ => ⟨S_, .f32⟩
  | .hbm, ⟨26, _⟩ => ⟨S300, .f32⟩
  | .hbm, ⟨27, _⟩ => ⟨S300, .f32⟩
  | .hbm, ⟨28, _⟩ => ⟨S_, .i32⟩
  | .hbm, ⟨29, _⟩ => ⟨S_, .f32⟩
  | .hbm, ⟨30, _⟩ => ⟨S300, .f32⟩
  | .hbm, ⟨31, _⟩ => ⟨S1x300, .f32⟩
  | .hbm, ⟨32, _⟩ => ⟨S_, .f32⟩
  | .hbm, ⟨33, _⟩ => ⟨S1x300, .f32⟩
  | .hbm, ⟨34, _⟩ => ⟨S1x300, .f32⟩
  | .hbm, ⟨35, _⟩ => ⟨S65536x300, .f32⟩
  | .hbm, ⟨36, _⟩ => ⟨S65536x300, .f32⟩
  | .hbm, ⟨37, _⟩ => ⟨S65536x300, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S300, .f32⟩
  | .hbm, ⟨43, _⟩ => ⟨S300, .f32⟩
  | .hbm, ⟨44, _⟩ => ⟨S300, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S300, .f32⟩
  | .hbm, ⟨50, _⟩ => ⟨S300, .f32⟩
  | .hbm, ⟨51, _⟩ => ⟨S1x300, .f32⟩
  | .hbm, ⟨52, _⟩ => ⟨S65536x300, .f32⟩
  | .hbm, ⟨53, _⟩ => ⟨S65536x300, .f32⟩
  | .hbm, ⟨54, _⟩ => ⟨S1x300, .f32⟩
  | .hbm, ⟨55, _⟩ => ⟨S65536x300, .f32⟩
  | .hbm, ⟨56, _⟩ => ⟨S65536x300, .f32⟩
  | .hbm, ⟨57, _⟩ => ⟨S_, .f32⟩
  | .hbm, ⟨58, _⟩ => ⟨S300, .f32⟩
  | .hbm, ⟨59, _⟩ => ⟨S300, .f32⟩
  | .hbm, ⟨60, _⟩ => ⟨S300, .f32⟩
  | .hbm, ⟨61, _⟩ => ⟨S1x300, .f32⟩
  | .hbm, ⟨62, _⟩ => ⟨S65536x300, .f32⟩
  | .hbm, ⟨63, _⟩ => ⟨S65536x300, .f32⟩
  | .hbm, ⟨64, _⟩ => ⟨S1x300, .f32⟩
  | .hbm, ⟨65, _⟩ => ⟨S65536x300, .f32⟩
  | .hbm, ⟨66, _⟩ => ⟨S65536x300, .f32⟩
  | .hbm, ⟨67, _⟩ => ⟨S65536x300, .f32⟩
  | .hbm, ⟨68, _⟩ => ⟨S65536x300, .f32⟩
  | .hbm, ⟨69, _⟩ => ⟨S300x100, .f32⟩
  | .hbm, ⟨70, _⟩ => ⟨S65536x100, .f32⟩
  | .hbm, ⟨71, _⟩ => ⟨S1x100, .f32⟩
  | .hbm, ⟨72, _⟩ => ⟨S65536x100, .f32⟩
  | .hbm, ⟨73, _⟩ => ⟨S65536x100, .f32⟩
  | .hbm, ⟨74, _⟩ => ⟨S_, .f32⟩
  | .hbm, ⟨75, _⟩ => ⟨S65536x100, .f32⟩
  | .hbm, ⟨76, _⟩ => ⟨S65536x100, .f32⟩
  | .hbm, ⟨77, _⟩ => ⟨S_, .f32⟩
  | .hbm, ⟨78, _⟩ => ⟨S100, .f32⟩
  | .hbm, ⟨79, _⟩ => ⟨S_, .f32⟩
  | .hbm, ⟨80, _⟩ => ⟨S100, .f32⟩
  | .hbm, ⟨81, _⟩ => ⟨S100, .f32⟩
  | .hbm, ⟨82, _⟩ => ⟨S_, .i32⟩
  | .hbm, ⟨83, _⟩ => ⟨S_, .f32⟩
  | .hbm, ⟨84, _⟩ => ⟨S100, .f32⟩
  | .hbm, ⟨85, _⟩ => ⟨S1x100, .f32⟩
  | .hbm, ⟨86, _⟩ => ⟨S_, .f32⟩
  | .hbm, ⟨87, _⟩ => ⟨S1x100, .f32⟩
  | .hbm, ⟨88, _⟩ => ⟨S1x100, .f32⟩
  | .hbm, ⟨89, _⟩ => ⟨S65536x100, .f32⟩
  | .hbm, ⟨90, _⟩ => ⟨S65536x100, .f32⟩
  | .hbm, ⟨91, _⟩ => ⟨S65536x100, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S100, .f32⟩
  | .hbm, ⟨97, _⟩ => ⟨S100, .f32⟩
  | .hbm, ⟨98, _⟩ => ⟨S100, .f32⟩
  | .hbm, ⟨99, _⟩ => ⟨S_, .f32⟩
  | .hbm, ⟨100, _⟩ => ⟨S_, .i1⟩
  | .hbm, ⟨101, _⟩ => ⟨S_, .f32⟩
  | .hbm, ⟨102, _⟩ => ⟨S_, .f32⟩
  | .hbm, ⟨103, _⟩ => ⟨S100, .f32⟩
  | .hbm, ⟨104, _⟩ => ⟨S100, .f32⟩
  | .hbm, ⟨105, _⟩ => ⟨S1x100, .f32⟩
  | .hbm, ⟨106, _⟩ => ⟨S65536x100, .f32⟩
  | .hbm, ⟨107, _⟩ => ⟨S65536x100, .f32⟩
  | .hbm, ⟨108, _⟩ => ⟨S1x100, .f32⟩
  | .hbm, ⟨109, _⟩ => ⟨S65536x100, .f32⟩
  | .hbm, ⟨110, _⟩ => ⟨S65536x100, .f32⟩
  | .hbm, ⟨111, _⟩ => ⟨S_, .f32⟩
  | .hbm, ⟨112, _⟩ => ⟨S100, .f32⟩
  | .hbm, ⟨113, _⟩ => ⟨S100, .f32⟩
  | .hbm, ⟨114, _⟩ => ⟨S100, .f32⟩
  | .hbm, ⟨115, _⟩ => ⟨S1x100, .f32⟩
  | .hbm, ⟨116, _⟩ => ⟨S65536x100, .f32⟩
  | .hbm, ⟨117, _⟩ => ⟨S65536x100, .f32⟩
  | .hbm, ⟨118, _⟩ => ⟨S1x100, .f32⟩
  | .hbm, ⟨119, _⟩ => ⟨S65536x100, .f32⟩
  | .hbm, ⟨120, _⟩ => ⟨S65536x100, .f32⟩
  | .hbm, ⟨121, _⟩ => ⟨S65536x100, .f32⟩
  | .hbm, ⟨122, _⟩ => ⟨S65536x100, .f32⟩
  | .hbm, ⟨123, _⟩ => ⟨S100x10, .f32⟩
  | .hbm, ⟨124, _⟩ => ⟨S65536x10, .f32⟩
  | .hbm, ⟨125, _⟩ => ⟨S1x10, .f32⟩
  | .hbm, ⟨126, _⟩ => ⟨S65536x10, .f32⟩
  | .hbm, ⟨127, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_cst_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_cst_2 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_cst_3 : Ref sig .tc := ⟨.hbm, 45, rfl⟩
abbrev main_call1_v12 : Ref sig .tc := ⟨.hbm, 46, rfl⟩
abbrev main_call1_cst_4 : Ref sig .tc := ⟨.hbm, 47, rfl⟩
abbrev main_call1_call0_v0 : Ref sig .tc := ⟨.hbm, 48, rfl⟩
abbrev main_call1_call0_v1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_call2_cst : Ref sig .tc := ⟨.hbm, 74, rfl⟩
abbrev main_call2_v0 : Ref sig .tc := ⟨.hbm, 75, rfl⟩
abbrev main_v32 : Ref sig .tc := ⟨.hbm, 76, rfl⟩
abbrev main_cst_2 : Ref sig .tc := ⟨.hbm, 77, rfl⟩
abbrev main_v33 : Ref sig .tc := ⟨.hbm, 78, rfl⟩
abbrev main_cst_3 : Ref sig .tc := ⟨.hbm, 79, rfl⟩
abbrev main_v34 : Ref sig .tc := ⟨.hbm, 80, rfl⟩
abbrev main_v35 : Ref sig .tc := ⟨.hbm, 81, rfl⟩
abbrev main_c_4 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_cst_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_cst_1 : Ref sig .tc := ⟨.hbm, 93, rfl⟩
abbrev main_call3_v8 : Ref sig .tc := ⟨.hbm, 94, rfl⟩
abbrev main_call3_cst_2 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_cst_3 : Ref sig .tc := ⟨.hbm, 99, rfl⟩
abbrev main_call3_v12 : Ref sig .tc := ⟨.hbm, 100, rfl⟩
abbrev main_call3_cst_4 : Ref sig .tc := ⟨.hbm, 101, rfl⟩
abbrev main_call3_call0_v0 : Ref sig .tc := ⟨.hbm, 102, rfl⟩
abbrev main_call3_call0_v1 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_5 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩

abbrev nD : Nat := 1
abbrev τ : Topo := Topo.v7x

variable {F : FTy → Type} [FloatOps F]

class Facts₀ : Prop where
  transposes_S300x784_S784x300_1_0 : S300x784.Transposes [1, 0] S784x300
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S65536x300 : S_.BroadcastsInDim S65536x300 (![] : Fin 0 → Fin S65536x300.rank)
  reducesTo_S65536x300_S300_d0 : S65536x300.ReducesTo [0] S300
  h_S_ : 0 < S_.numel
  bcast_S_S300 : S_.BroadcastsInDim S300 (![] : Fin 0 → Fin S300.rank)
  bcast_S_S1x300 : S_.BroadcastsInDim S1x300 (![] : Fin 0 → Fin S1x300.rank)
  transposes_S100x300_S300x100_1_0 : S100x300.Transposes [1, 0] S300x100
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  reducesTo_S65536x100_S100_d0 : S65536x100.ReducesTo [0] S100
  bcast_S_S100 : S_.BroadcastsInDim S100 (![] : Fin 0 → Fin S100.rank)
  bcast_S_S1x100 : S_.BroadcastsInDim S1x100 (![] : Fin 0 → Fin S1x100.rank)
  transposes_S10x100_S100x10_1_0 : S10x100.Transposes [1, 0] S100x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x300_S65536x300_1_0_0_1_n_n_wf : DotDims.WF S65536x784 S784x300 S65536x300 [1] [0] [0] [1] [] []
  dot_S65536x300_S300x100_S65536x100_1_0_0_1_n_n_wf : DotDims.WF S65536x300 S300x100 S65536x100 [1] [0] [0] [1] [] []
  dot_S65536x100_S100x10_S65536x10_1_0_0_1_n_n_wf : DotDims.WF S65536x100 S100x10 S65536x10 [1] [0] [0] [1] [] []

variable [Facts₀]

def dot_S65536x784_S784x300_S65536x300_1_0_0_1_n_n : DotDims S65536x784 S784x300 S65536x300 where
  lhsContracting := [1]
  rhsContracting := [0]
  lhsNonContracting := [0]
  rhsNonContracting := [1]
  lhsBatch := []
  rhsBatch := []
  wf := dot_S65536x784_S784x300_S65536x300_1_0_0_1_n_n_wf
def dot_S65536x300_S300x100_S65536x100_1_0_0_1_n_n : DotDims S65536x300 S300x100 S65536x100 where
  lhsContracting := [1]
  rhsContracting := [0]
  lhsNonContracting := [0]
  rhsNonContracting := [1]
  lhsBatch := []
  rhsBatch := []
  wf := dot_S65536x300_S300x100_S65536x100_1_0_0_1_n_n_wf
def dot_S65536x100_S100x10_S65536x10_1_0_0_1_n_n : DotDims S65536x100 S100x10 S65536x10 where
  lhsContracting := [1]
  rhsContracting := [0]
  lhsNonContracting := [0]
  rhsNonContracting := [1]
  lhsBatch := []
  rhsBatch := []
  wf := dot_S65536x100_S100x10_S65536x10_1_0_0_1_n_n_wf

class Facts : Prop extends Facts₀ where

variable [Facts]
-- ==== Proof.Spec.lean ====
/-
  The network as plain mathematics on extended reals, index by index.

  A dense layer sends a batch a : [B, K], weights w : [N, K] and a bias b : [N] to the [B, N] array whose entry
  (p, q) is Σ over k of a(p, k) · w(q, k), plus b(q); relu is the maximum with zero.  For a [B, N] array h the column
  sum, the column sum of squares and the column mean (the column sum divided by the constant 65536) are rows of
  length N.  The variance of a column is written in two ways: the mean of the squares minus the square of the mean,
  and the mean of the squared deviations from the mean.  Normalising, scaling and shifting a column and then
  applying the per-entry noise gives s · (g · (h - μ) · rsqrt (v + ε) + β) + m.

  The whole network is three dense layers with a relu, a normalisation and the noise after each of the first two;
  `netK` uses the first form of the variance and `netR` the second.
-/
import Idealize.ShloMosaic.Lib.ValueIdx
import Idealize.ShloMosaic.PureOps.Ideal

noncomputable section

open scoped BigOperators

namespace Cert.Spec

open Idealize.ShloMosaic Idealize.ShloMosaic.ValueIdx

/-- A [a, b] array of extended reals. -/
abbrev Mat (a b : ℕ) : Type := (⟨2, ![a, b]⟩ : Shape).Idx → EReal
/-- A length-a row of extended reals. -/
abbrev Row (a : ℕ) : Type := (⟨1, ![a]⟩ : Shape).Idx → EReal

/-- The batch size as the programs write it: the single-precision word of 65536. -/
def cB : EReal := Ideal.ofBits .f32 0x47800000#32
/-- The stabiliser under the square root: the single-precision word nearest 1e-5. -/
def eps : EReal := Ideal.ofBits .f32 0x3727C5AC#32

/-- A [1, n] array read as a row. -/
def rowOf {n : ℕ} (x : Mat 1 n) : Row n := fun j => x (ix2 (0 : Fin 1) (j 0))

/-- a · wᵀ + b. -/
def dense {B K N : ℕ} (a : Mat B K) (w : Mat N K) (b : Row N) : Mat B N :=
  fun j => (∑ k : Fin K, a (ix2 (j 0) k) * w (ix2 (j 1) k)) + b (ix1 (j 1))

/-- The maximum with zero, entry by entry. -/
def relu {B N : ℕ} (x : Mat B N) : Mat B N := fun j => max (x j) 0

/-- Column sums. -/
def colSum {B N : ℕ} (h : Mat B N) : Row N := fun j => ∑ p : Fin B, h (ix2 p (j 0))
/-- Column sums of squares. -/
def colSq {B N : ℕ} (h : Mat B N) : Row N := fun j => ∑ p : Fin B, h (ix2 p (j 0)) * h (ix2 p (j 0))
/-- Row 0 the column sums, row 1 the column sums of squares. -/
def stats {B N : ℕ} (h : Mat B N) : Mat 2 N :=
  fun j => if (j 0).val = 0 then colSum h (ix1 (j 1)) else colSq h (ix1 (j 1))

/-- Column means. -/
def mean {B N : ℕ} (h : Mat B N) : Row N := fun j => Ideal.div (colSum h j) cB
/-- Column variances as the mean of the squares minus the square of the mean. -/
def varK {B N : ℕ} (h : Mat B N) : Row N := fun j => Ideal.div (colSq h j) cB - mean h j * mean h j
/-- Column variances as the mean of the squared deviations from the mean. -/
def varR {B N : ℕ} (h : Mat B N) : Row N :=
  fun j => Ideal.div (∑ p : Fin B, (h (ix2 p (j 0)) - mean h j) * (h (ix2 p (j 0)) - mean h j)) cB

/-- Column means read off a [2, N] array whose row 0 holds the column sums. -/
def meanS {N : ℕ} (st : Mat 2 N) : Row N := fun j => Ideal.div (st (ix2 (0 : Fin 2) (j 0))) cB
/-- Column variances read off a [2, N] array whose row 0 holds the column sums and row 1 the column sums of squares. -/
def varS {N : ℕ} (st : Mat 2 N) : Row N :=
  fun j => Ideal.div (st (ix2 (1 : Fin 2) (j 0))) cB - meanS st j * meanS st j

/-- Every entry is a real number. -/
def Real2 {a b : ℕ} (x : Mat a b) : Prop := ∀ i, ∃ r : ℝ, x i = (r : EReal)
/-- Every entry is a real number. -/
def Real1 {a : ℕ} (x : Row a) : Prop := ∀ i, ∃ r : ℝ, x i = (r : EReal)

/-- s · (g · (h - μ) · rsqrt (v + ε) + β) + m. -/
def noisy {B N : ℕ} (h : Mat B N) (μ v g β : Row N) (s m : Mat B N) : Mat B N :=
  fun j => s j * (g (ix1 (j 1)) * (h j - μ (ix1 (j 1))) * Ideal.rsqrt (v (ix1 (j 1)) + eps) + β (ix1 (j 1))) + m j

/-- The network with a given reading `var` of the column variance. -/
def net (var : ∀ {B N : ℕ}, Mat B N → Row N)
    (x : Mat 65536 784) (W1 : Mat 300 784) (b1 g1 be1 : Row 300) (s1 m1 : Mat 65536 300)
    (W2 : Mat 100 300) (b2 g2 be2 : Row 100) (s2 m2 : Mat 65536 100) (W3 : Mat 10 100) (b3 : Row 10) : Mat 65536 10 :=
  let h1 := relu (dense x W1 b1)
  let n1 := noisy h1 (mean h1) (var h1) g1 be1 s1 m1
  let h2 := relu (dense n1 W2 b2)
  let n2 := noisy h2 (mean h2) (var h2) g2 be2 s2 m2
  dense n2 W3 b3

/-- The network with the variance as the mean of the squares minus the square of the mean. -/
def netK := net (fun {B N} => varK (B := B) (N := N))
/-- The network with the variance as the mean of the squared deviations. -/
def netR := net (fun {B N} => varR (B := B) (N := N))

end Cert.Spec

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.LibDotNT.lean ====
/-
  A matrix product A · Bᵀ read at an index, for any sizes, at the ideal values: for A of shape [M, K] and B of shape
  [N, K], both contracted on their second axis, into a zero accumulator, entry (p, q) is the sum over k < K of
  A(p, k) · B(q, k).
-/
import Idealize.ShloMosaic.Lib.ValueIdx
import Idealize.ShloMosaic.Lib.Pipeline.Value
import Idealize.ShloMosaic.PureOps.Ideal.Laws
import proofs.«142257_j38500086842157_1_alg».proof.Proof.LibOuterDot

noncomputable section

open scoped BigOperators

namespace Cert.LibDotNT

open Idealize.ShloMosaic Idealize.ShloMosaic.ValueIdx

/-- A · Bᵀ into the zero accumulator read at (p, q), given where the dimension numbers send the indices. -/
theorem matmul_zero_ix2_nt_of {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (i 1).val) (r1 : ∀ i q, (d.rhsIdx i q 1).val = (q ⟨0, by omega⟩).val)
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 q k := funext fun a => Fin.ext (by
    match a with
    | ⟨0, _⟩ => exact r0 _ _
    | ⟨1, _⟩ => exact (r1 _ _).trans hk)
  rw [el, er]

/-- A · Bᵀ — both operands contracted on their second axis, no batch axes — into the zero accumulator, read at
    (p, q): the sum over k < K of A(p, k) · B(q, k). -/
theorem matmul_zero_ix2_nt {M K N : ℕ} {φ₁ φ₂ : FTy}
    (d : DotDims ⟨2, ![M, K]⟩ ⟨2, ![N, K]⟩ ⟨2, ![M, N]⟩) (hr : d.contr.rank = 1) (hs : d.contr.size ⟨0, by omega⟩ = K)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂) (p : Fin M) (q : Fin N) :
    matmul d prec A B (constant ⟨2, ![M, N]⟩ .f32 0x00000000#32) (ix2 p q) = ∑ k : Fin K, A (ix2 p k) * B (ix2 q k) :=
  matmul_zero_ix2_nt_of d hr hs
    (fun i q => Cert.LibOuterDot.lhs_free_val d 0 0 hlb hln rfl i q)
    (fun i q => d.lhsIdx_val_of_single hlc i q)
    (fun i q => Cert.LibOuterDot.rhs_free_val d 0 1 0 hlb hrb hln hrn rfl i q)
    (fun i q => d.rhsIdx_val_of_single hrc i q)
    prec A B p q

end Cert.LibDotNT

end
-- ==== Proof.R0Value.lean ====
/-
  The value of the first region: 32 points, one per tile of 2048 batch rows.

  Every point computes its tile of the first layer's activations, relu (x · wᵀ + b), and writes it to its own
  2048 rows of the first output array; the 32 tiles cover the 65536 rows, so that array ends holding the
  activations.  The second output's one [2, 300] block is carried from point to point: the first point zeroes it,
  and every point adds to row 0 the column sums of its tile and to row 1 the column sums of the squares.  By
  induction on the point the block holds, after point n, those sums over the rows of tiles 0 to n; after the last
  point these are the sums over all 65536 rows, and that is what is written to the array.  Sums of extended reals
  regroup freely: addition is commutative and associative.
-/
import proofs.«142257_j38500086842157_1_alg».proof.Proof.Gen.KernelIdeal.Frame
import proofs.«142257_j38500086842157_1_alg».proof.Proof.Spec
import proofs.«142257_j38500086842157_1_alg».proof.Proof.LibDotNT
import Idealize.ShloMosaic.Lib.Pipeline.Value
import Idealize.ShloMosaic.Lib.ValueLayout
import Idealize.ShloMosaic.PureOps.Ideal.Laws
import Idealize.ShloMosaic.Lib.Tactic
set_option maxRecDepth 16384

noncomputable section

open scoped BigOperators

namespace Cert.KernelIdeal.R0

open Cert.KernelIdeal Cert.KernelIdeal.Gen Idealize.ShloMosaic Idealize.ShloMosaic.TcCoe Idealize.SL.Sem Idealize.ShloMosaic.ValueIdx

/-- The first layer's activations, as the first region finds its arrays. -/
abbrev act (V : (c : Dev nD) → (b : Ref sig .tc) → Buf (Elt Ideal) ((c : Thread nD τ).loc b)) (c : Dev nD) : Spec.Mat 65536 300 :=
  Spec.relu (Spec.dense (V c main_arg0) (V c main_arg1) (Spec.rowOf (V c main_v0)))

section Pieces

variable {F : FTy → Type} [FloatOps F]

theorem hz : (![0, 0] : Fin 2 → Nat) = fun _ => 0 := funext fun a => by fin_cases a <;> rfl

/-- At a point that is not the first, the activations' staging buffer is left holding the tile's activations. -/
theorem out_B_3 (c : Dev nD) (i : grid0.Coords) (a1 : Memref sig .tc .vmem S2048x784 .f32) (h1 : a1.IsWhole)
    (a2 : Memref sig .tc .vmem S300x784 .f32) (h2 : a2.IsWhole) (a3 : Memref sig .tc .vmem S1x300 .f32) (h3 : a3.IsWhole)
    (a4 : Memref sig .tc .vmem S2048x300 .f32) (h4 : a4.IsWhole) (a5 : Memref sig .tc .vmem S2x300 .f32) (h5 : a5.IsWhole)
    (hc : ¬cond0_0 i) (x0 : Vec F S2048x784 .f32) (x1 : Vec F S300x784 .f32) (x2 : Vec F S1x300 .f32) (xo : Vec F S2x300 .f32) :
    out0_B_3 c i a1 h1 a2 h2 a3 h3 a4 h4 a5 h5 hc x0 x1 x2 xo = k0_pay2 x0 x1 x2 := by
  unfold out0_B_3
  rw [View.read_writes_eq_canon _ _ _ (cover0_B_3 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, View.ld_unit_zero (S := S2048x784) hz,
    View.ld_unit_zero (S := S300x784) hz, View.ld_unit_zero (S := S1x300) hz]

/-- At the first point likewise. -/
theorem out_A_3 (c : Dev nD) (i : grid0.Coords) (a1 : Memref sig .tc .vmem S2048x784 .f32) (h1 : a1.IsWhole)
    (a2 : Memref sig .tc .vmem S300x784 .f32) (h2 : a2.IsWhole) (a3 : Memref sig .tc .vmem S1x300 .f32) (h3 : a3.IsWhole)
    (a4 : Memref sig .tc .vmem S2048x300 .f32) (h4 : a4.IsWhole) (a5 : Memref sig .tc .vmem S2x300 .f32) (h5 : a5.IsWhole)
    (hc : cond0_0 i) (x0 : Vec F S2048x784 .f32) (x1 : Vec F S300x784 .f32) (x2 : Vec F S1x300 .f32) :
    out0_A_3 c i a1 h1 a2 h2 a3 h3 a4 h4 a5 h5 hc x0 x1 x2 = k0_pay2 x0 x1 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.ld_unit_zero (S := S2048x784) hz,
    View.ld_unit_zero (S := S300x784) hz, View.ld_unit_zero (S := S1x300) hz]

/-- At a point that is not the first, the statistics' staging buffer, holding xo, is left holding xo plus the tile's
    column sums and column sums of squares. -/
theorem out_B_4 (c : Dev nD) (i : grid0.Coords) (a1 : Memref sig .tc .vmem S2048x784 .f32) (h1 : a1.IsWhole)
    (a2 : Memref sig .tc .vmem S300x784 .f32) (h2 : a2.IsWhole) (a3 : Memref sig .tc .vmem S1x300 .f32) (h3 : a3.IsWhole)
    (a4 : Memref sig .tc .vmem S2048x300 .f32) (h4 : a4.IsWhole) (a5 : Memref sig .tc .vmem S2x300 .f32) (h5 : a5.IsWhole)
    (hc : ¬cond0_0 i) (x0 : Vec F S2048x784 .f32) (x1 : Vec F S300x784 .f32) (x2 : Vec F S1x300 .f32) (xo : Vec F S2x300 .f32) :
    out0_B_4 c i a1 h1 a2 h2 a3 h3 a4 h4 a5 h5 hc x0 x1 x2 xo = k0_pay3 x0 x1 x2 xo := by
  unfold out0_B_4
  rw [View.read_writes_eq_canon _ _ _ (cover0_B_4 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, h5.read_unread, View.ld_unit_zero (S := S2048x784) hz,
    View.ld_unit_zero (S := S300x784) hz, View.ld_unit_zero (S := S1x300) hz, View.ld_unit_zero (S := S2x300) hz]

/-- At the first point the buffer is zeroed first, so it is left holding zero plus the tile's sums. -/
theorem out_A_4 (c : Dev nD) (i : grid0.Coords) (a1 : Memref sig .tc .vmem S2048x784 .f32) (h1 : a1.IsWhole)
    (a2 : Memref sig .tc .vmem S300x784 .f32) (h2 : a2.IsWhole) (a3 : Memref sig .tc .vmem S1x300 .f32) (h3 : a3.IsWhole)
    (a4 : Memref sig .tc .vmem S2048x300 .f32) (h4 : a4.IsWhole) (a5 : Memref sig .tc .vmem S2x300 .f32) (h5 : a5.IsWhole)
    (hc : cond0_0 i) (x0 : Vec F S2048x784 .f32) (x1 : Vec F S300x784 .f32) (x2 : Vec F S1x300 .f32) :
    out0_A_4 c i a1 h1 a2 h2 a3 h3 a4 h4 a5 h5 hc x0 x1 x2 = k0_pay3 x0 x1 x2 (k0_pay1 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S2x300) hz]
  simp only [View.readAt_eq_ld, h1.read_unread, h2.read_unread, h3.read_unread, View.ld_unit_zero (S := S2048x784) hz,
    View.ld_unit_zero (S := S300x784) hz, View.ld_unit_zero (S := S1x300) hz, View.ld_unit_zero (S := S2x300) hz,
    View.readCov_unit_zero (S := S2x300) _ hz]

end Pieces

section Arith

abbrev dot1 := dot_S2048x784_S300x784_S2048x300_1_1_0_0_n_n

/-- One tile's activations at (p, q): the maximum with zero of the row of x against the row of w, plus the bias. -/
theorem pay2_apply (x : Vec Ideal S2048x784 .f32) (w : Vec Ideal S300x784 .f32) (b : Vec Ideal S1x300 .f32) (p : Fin 2048) (q : Fin 300) :
    k0_pay2 (F := Ideal) x w b (ix2 p q) = max ((∑ k : Fin 784, x (ix2 p k) * w (ix2 q k)) + b (ix2 (0 : Fin 1) q)) 0 := by
  unfold k0_pay2
  refine (congrArg₂ max (congrArg₂ (· + ·)
      (Cert.LibDotNT.matmul_zero_ix2_nt dot1 rfl rfl rfl rfl rfl rfl rfl rfl none (truncf .bf16 x bitsLt_bf16_f32) (truncf .bf16 w bitsLt_bf16_f32) p q)
      ((broadcastTo_1b_ab_apply (shapeCast S1x300 b shapeCasts_S1x300_S1x300) broadcasts_S1x300_S2048x300 p q).trans
        (congrFun (shapeCast_self b shapeCasts_S1x300_S1x300) (ix2 (0 : Fin 1) q))))
      Ideal.ofBits_zero_f32).trans ?_
  rfl

/-- The zero block. -/
theorem pay1_apply (r : Fin 2) (q : Fin 300) : k0_pay1 (F := Ideal) (ix2 r q) = 0 := by
  unfold k0_pay1
  exact Ideal.ofBits_zero_f32

/-- The lane sum of a [2048, 300] tile at column q: the sum over the tile's rows. -/
theorem colsum_apply (P : FVec Ideal S2048x300 .f32) (hφ : FKind.Formats .f32)
    (hacc : (0x00000000#32 : BitVec 32) = FKind.add.neutral .f32 hφ) (q : Fin 300) :
    multiReduction .add [0] S300 P 0x00000000#32 reduces_S2048x300_S300 hφ hacc (ix1 q) = ∑ p : Fin 2048, P (ix2 p q) := by
  refine (Ideal.multiReduction_add_single P 0x00000000#32 reduces_S2048x300_S300 hφ hacc (ix1 q)).trans ?_
  refine Finset.sum_congr rfl fun p _ => congrArg P ?_
  funext a
  apply Fin.ext
  match a with
  | ⟨0, _⟩ => rfl
  | ⟨1, _⟩ => rfl

/-- What a point adds to the carried statistics at (r, q): row 0 takes the tile's column sum, row 1 the tile's
    column sum of squares. -/
theorem pay3_apply (x : Vec Ideal S2048x784 .f32) (w : Vec Ideal S300x784 .f32) (b : Vec Ideal S1x300 .f32)
    (acc : Vec Ideal S2x300 .f32) (r : Fin 2) (q : Fin 300) :
    k0_pay3 (F := Ideal) x w b acc (ix2 r q)
      = acc (ix2 r q) + (if r.val = 0 then ∑ p : Fin 2048, k0_pay2 (F := Ideal) x w b (ix2 p q)
          else ∑ p : Fin 2048, k0_pay2 (F := Ideal) x w b (ix2 p q) * k0_pay2 (F := Ideal) x w b (ix2 p q)) := by
  unfold k0_pay3
  refine congrArg₂ (· + ·) (congrFun (shapeCast_self acc shapeCasts_S2x300_S2x300) (ix2 r q)) ?_
  match r with
  | ⟨0, _⟩ =>
    rw [if_pos rfl]
    refine (concatenate_pair_apply_left (t := S2x300) (s₁ := S1x300) (s₂ := S1x300) (0 : Fin 2) _ _ concatenates_S1x300_S1x300_S2x300_d0 (ix2 (⟨0, by omega⟩ : Fin 2) q) rfl
      (ix2 (0 : Fin 1) q) (fun a => by match a with | ⟨0, _⟩ => rfl | ⟨1, _⟩ => rfl)).trans ?_
    refine (shapeCast_a_1a_apply _ shapeCasts_S300_S1x300 (0 : Fin 1) q).trans ?_
    exact colsum_apply _ _ _ q
  | ⟨1, _⟩ =>
    rw [if_neg (Nat.succ_ne_zero 0)]
    refine (concatenate_pair_apply_right (t := S2x300) (s₁ := S1x300) (s₂ := S1x300) (0 : Fin 2) _ _ concatenates_S1x300_S1x300_S2x300_d0 (ix2 (⟨1, by omega⟩ : Fin 2) q) rfl rfl
      (ix2 (0 : Fin 1) q) (fun a ha => by match a with | ⟨0, _⟩ => exact absurd rfl ha | ⟨1, _⟩ => rfl) rfl).trans ?_
    refine (shapeCast_a_1a_apply _ shapeCasts_S300_S1x300 (0 : Fin 1) q).trans ?_
    exact colsum_apply _ _ _ q

end Arith

section Blocks

variable (V : (c : Dev nD) → (b : Ref sig .tc) → Buf (Elt Ideal) ((c : Thread nD τ).loc b)) (c : Dev nD)

/-- The three input blocks of a point and the three input arrays, typed by their literal shapes. -/
abbrev xblk (t : Fin cfg0.N) : Vec Ideal S2048x784 .f32 := iblk0 (F := Ideal) V c 0 t
abbrev wblk (t : Fin cfg0.N) : Vec Ideal S300x784 .f32 := iblk0 (F := Ideal) V c 1 t
abbrev bblk (t : Fin cfg0.N) : Vec Ideal S1x300 .f32 := iblk0 (F := Ideal) V c 2 t
abbrev xarr : Vec Ideal S65536x784 .f32 := V c main_arg0
abbrev warr : Vec Ideal S300x784 .f32 := V c main_arg1
abbrev barr : Vec Ideal S1x300 .f32 := V c main_v0

/-- The block index of each window at each point: the batch window's and the activations' follow the point, the
    others stay at the origin. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

theorem tlt (t : Fin cfg0.N) : t.val < 32 := lt_of_lt_of_eq t.isLt (show cfg0.N = 32 from N_0)

/-- Row p of the batch block at point t is row t·2048 + p of the batch. -/
theorem xblk_apply (t : Fin cfg0.N) (p : Fin 2048) (k : Fin 784) (hb : t.val * 2048 + p.val < 65536) :
    xblk V c t (ix2 p k) = xarr V c (ix2 ⟨t.val * 2048 + p.val, hb⟩ k) := by
  unfold xblk xarr iblk0
  rw [View.read_apply]
  show V c main_arg0 _ = V c main_arg0 _
  congr 1
  funext a
  apply Fin.ext
  match a with
  | ⟨0, _⟩ => show win0_0.index t 0 * 2048 + 1 * p.val = t.val * 2048 + p.val; rw [(idx0 t).1]; omega
  | ⟨1, _⟩ => show win0_0.index t 1 * 784 + 1 * k.val = k.val; rw [(idx0 t).2]; omega

/-- The weight block is the weight array, -/
theorem wblk_apply (t : Fin cfg0.N) (q : Fin 300) (k : Fin 784) : wblk V c t (ix2 q k) = warr V c (ix2 q k) := by
  unfold wblk warr iblk0
  rw [View.read_apply]
  show V c main_arg1 _ = V c main_arg1 _
  congr 1
  funext a
  apply Fin.ext
  match a with
  | ⟨0, _⟩ => show win0_1.index t 0 * 300 + 1 * q.val = q.val; rw [(idx1 t).1]; omega
  | ⟨1, _⟩ => show win0_1.index t 1 * 784 + 1 * k.val = k.val; rw [(idx1 t).2]; omega

/-- and the bias block the bias array. -/
theorem bblk_apply (t : Fin cfg0.N) (u : Fin 1) (q : Fin 300) : bblk V c t (ix2 u q) = barr V c (ix2 u q) := by
  unfold bblk barr iblk0
  rw [View.read_apply]
  show V c main_v0 _ = V c main_v0 _
  congr 1
  funext a
  apply Fin.ext
  match a with
  | ⟨0, _⟩ => show win0_2.index t 0 * 1 + 1 * u.val = u.val; rw [(idx2 t).1]; omega
  | ⟨1, _⟩ => show win0_2.index t 1 * 300 + 1 * q.val = q.val; rw [(idx2 t).2]; omega

end Blocks

section Value

variable (V : (c : Dev nD) → (b : Ref sig .tc) → Buf (Elt Ideal) ((c : Thread nD τ).loc b)) (c : Dev nD)

/-- After every point the activations' staging buffer holds the point's tile of activations. -/
theorem outs3_eq (t : Fin cfg0.N) :
    (outsAt0 (F := Ideal) V c t.val t.isLt).1 = k0_pay2 (F := Ideal) (xblk V c t) (wblk V c t) (bblk V c t) := by
  by_cases h0 : t.val % 32 = 0
  · rw [outsAt0_A V c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t) (iblk0 V c 2 t)
  · rw [outsAt0_B V c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (iblk0 V c 2 t) (outsAt0 V c (t.val - 1) (Nat.lt_of_le_of_lt (Nat.sub_le _ _) t.isLt)).2

/-- A tile's activations are the layer's activations at the tile's rows. -/
theorem tile_act (t : Fin cfg0.N) (p : Fin 2048) (q : Fin 300) (hb : t.val * 2048 + p.val < 65536) :
    k0_pay2 (F := Ideal) (xblk V c t) (wblk V c t) (bblk V c t) (ix2 p q) = act V c (ix2 ⟨t.val * 2048 + p.val, hb⟩ q) := by
  refine (pay2_apply (xblk V c t) (wblk V c t) (bblk V c t) p q).trans ?_
  show _ = max ((∑ k : Fin 784, xarr V c (ix2 ⟨t.val * 2048 + p.val, hb⟩ k) * warr V c (ix2 q k)) + barr V c (ix2 (0 : Fin 1) q)) 0
  rw [bblk_apply V c t 0 q]
  refine congrArg (fun z => max (z + barr V c (ix2 (0 : Fin 1) q)) 0) ?_
  exact Finset.sum_congr rfl fun k _ => by rw [xblk_apply V c t p k hb, wblk_apply V c t q k]

/-- The block a point writes back to the activations' array is that block of the layer's activations. -/
theorem flushed3_eq (t : Fin cfg0.N) (hf : (cfg0.win 3).flush t = true) :
    (dat0 (F := Ideal) V c).flushed 3 t = ((cfg0.win 3).blk t).view.read (Elt Ideal) (act V c) := by
  show (cfg0.win 3).cut (grid0.coords t) ((dat0 (F := Ideal) V c).after 3 t) = _
  rw [after0_3, outs3_eq]
  funext j
  obtain ⟨p, q, rfl⟩ : ∃ (p : Fin 2048) (q : Fin 300), j = ix2 p q := ⟨j 0, j 1, eq_ix2 j⟩
  have hb : t.val * 2048 + p.val < 65536 := by have := tlt t; have := p.isLt; omega
  rw [View.read_apply]
  refine (tile_act V c t p q hb).trans ?_
  show act V c _ = act V c _
  congr 1
  funext a
  apply Fin.ext
  match a with
  | ⟨0, _⟩ => show t.val * 2048 + p.val = win0_3.index t 0 * 2048 + 1 * p.val; rw [(idx3 t).1]; omega
  | ⟨1, _⟩ => show q.val = win0_3.index t 1 * 300 + 1 * q.val; rw [(idx3 t).2]; omega

/-- Every row of the activations' array lies in the block of the point its tile belongs to. -/
theorem cover3 (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 65536 := (i 0).isLt
  have h1 : (i 1 : Nat) < 300 := (i 1).isLt
  have hN : cfg0.N = 32 := N_0
  have hlt : (i 0 : Nat) / 2048 < cfg0.N := by rw [hN]; omega
  refine ⟨⟨(i 0 : Nat) / 2048, hlt⟩, flush0_3 _, ?_⟩
  show i ∈ ((View.whole main_v7_0).slice (win0_3.rect ⟨(i 0 : Nat) / 2048, hlt⟩)).set
  rw [View.set_slice_whole, Rect.mem_set_unit]
  intro a
  match a with
  | ⟨0, _⟩ =>
    show win0_3.index ⟨(i 0 : Nat) / 2048, hlt⟩ 0 * 2048 ≤ (i 0 : Nat) ∧ (i 0 : Nat) < win0_3.index ⟨(i 0 : Nat) / 2048, hlt⟩ 0 * 2048 + 2048
    rw [(idx3 ⟨(i 0 : Nat) / 2048, hlt⟩).1]; dsimp only; omega
  | ⟨1, _⟩ =>
    show win0_3.index ⟨(i 0 : Nat) / 2048, hlt⟩ 1 * 300 ≤ (i 1 : Nat) ∧ (i 1 : Nat) < win0_3.index ⟨(i 0 : Nat) / 2048, hlt⟩ 1 * 300 + 300
    rw [(idx3 ⟨(i 0 : Nat) / 2048, hlt⟩).2]; omega

/-- Column q of the layer's activations as a sequence of rows, zero past the last row, -/
def colN (q : Fin 300) (i : ℕ) : EReal := if h : i < 65536 then act V c (ix2 ⟨i, h⟩ q) else 0
/-- and, by the statistics' row: the entries themselves, or their squares. -/
def colR (r : Fin 2) (q : Fin 300) (i : ℕ) : EReal := if r.val = 0 then colN V c q i else colN V c q i * colN V c q i

/-- What point t adds to the carried statistics is the sum of that sequence over the tile's 2048 rows. -/
theorem tile_term (t : Fin cfg0.N) (r : Fin 2) (q : Fin 300) :
    (if r.val = 0 then ∑ p : Fin 2048, k0_pay2 (F := Ideal) (xblk V c t) (wblk V c t) (bblk V c t) (ix2 p q)
      else ∑ p : Fin 2048, k0_pay2 (F := Ideal) (xblk V c t) (wblk V c t) (bblk V c t) (ix2 p q) * k0_pay2 (F := Ideal) (xblk V c t) (wblk V c t) (bblk V c t) (ix2 p q))
    = ∑ p ∈ Finset.range 2048, colR V c r q (t.val * 2048 + p) := by
  have key : ∀ p : Fin 2048, k0_pay2 (F := Ideal) (xblk V c t) (wblk V c t) (bblk V c t) (ix2 p q) = colN V c q (t.val * 2048 + p.val) := fun p => by
    have hb : t.val * 2048 + p.val < 65536 := by have := tlt t; have := p.isLt; omega
    rw [tile_act V c t p q hb]; unfold colN; rw [dif_pos hb]
  rw [← Fin.sum_univ_eq_sum_range (fun p => colR V c r q (t.val * 2048 + p)) 2048]
  unfold colR
  by_cases hr : r.val = 0
  · simp only [if_pos hr]
    exact Finset.sum_congr rfl fun p _ => key p
  · simp only [if_neg hr]
    exact Finset.sum_congr rfl fun p _ => by rw [key p]

/-- After point n the carried block holds the sums over the rows of tiles 0 to n: the first point zeroes the block
    before it adds its tile, every later point adds its tile to what the point before left. -/
theorem carried_eq : ∀ (n : ℕ) (h : n < cfg0.N) (r : Fin 2) (q : Fin 300),
    (outsAt0 (F := Ideal) V c n h).2 (ix2 r q) = ∑ i ∈ Finset.range ((n + 1) * 2048), colR V c r q i
  | 0, h, r, q => by
    rw [outsAt0_A V c ⟨0, h⟩ rfl]
    dsimp only
    refine (congrFun (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr (Nat.zero_mod _)) (iblk0 V c 0 ⟨0, h⟩) (iblk0 V c 1 ⟨0, h⟩) (iblk0 V c 2 ⟨0, h⟩)) (ix2 r q)).trans ?_
    refine (pay3_apply (xblk V c ⟨0, h⟩) (wblk V c ⟨0, h⟩) (bblk V c ⟨0, h⟩) (k0_pay1 (F := Ideal)) r q).trans ?_
    rw [pay1_apply, zero_add, tile_term V c ⟨0, h⟩ r q]
    refine Finset.sum_congr (by norm_num) fun p _ => ?_
    show colR V c r q (0 * 2048 + p) = _
    rw [Nat.zero_mul, Nat.zero_add]
  | n + 1, h, r, q => by
    have hB : ¬(⟨n + 1, h⟩ : Fin cfg0.N).val % 32 = 0 := by have := tlt ⟨n + 1, h⟩; dsimp only at this ⊢; omega
    rw [outsAt0_B V c ⟨n + 1, h⟩ hB]
    dsimp only
    refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h' => hB ((hcond0_0 ⟨n + 1, h⟩).mp h')) (iblk0 V c 0 ⟨n + 1, h⟩) (iblk0 V c 1 ⟨n + 1, h⟩) (iblk0 V c 2 ⟨n + 1, h⟩) (outsAt0 V c n (Nat.lt_of_succ_lt h)).2) (ix2 r q)).trans ?_
    refine (pay3_apply (xblk V c ⟨n + 1, h⟩) (wblk V c ⟨n + 1, h⟩) (bblk V c ⟨n + 1, h⟩) (outsAt0 V c n (Nat.lt_of_succ_lt h)).2 r q).trans ?_
    rw [tile_term V c ⟨n + 1, h⟩ r q, carried_eq n (Nat.lt_of_succ_lt h) r q, Nat.succ_mul (n + 1) 2048, Finset.sum_range_add]

/-- The one write-back of the statistics, after the last point, writes the column sums and column sums of squares of
    all 65536 rows. -/
theorem flushed4_eq (t : Fin cfg0.N) (hf : (cfg0.win 4).flush t = true) :
    (dat0 (F := Ideal) V c).flushed 4 t = ((cfg0.win 4).blk t).view.read (Elt Ideal) (Spec.stats (act V c)) := by
  have h31 : t.val = 31 := by have := (flush0_4 t).mp hf; have := tlt t; omega
  show (cfg0.win 4).cut (grid0.coords t) ((dat0 (F := Ideal) V c).after 4 t) = _
  rw [after0_4]
  funext j
  obtain ⟨r, q, rfl⟩ : ∃ (r : Fin 2) (q : Fin 300), j = ix2 r q := ⟨j 0, j 1, eq_ix2 j⟩
  rw [View.read_apply]
  refine (carried_eq V c t.val t.isLt r q).trans ?_
  have e : Spec.stats (act V c) (ix2 r q) = ∑ i ∈ Finset.range ((t.val + 1) * 2048), colR V c r q i := by
    rw [h31, ← Fin.sum_univ_eq_sum_range (fun i => colR V c r q i) ((31 + 1) * 2048)]
    unfold Spec.stats Spec.colSum Spec.colSq colR
    by_cases hr : r.val = 0
    · simp only [if_pos hr]
      exact Finset.sum_congr rfl fun i _ => by unfold colN; rw [dif_pos i.isLt]
    · simp only [if_neg hr]
      exact Finset.sum_congr rfl fun i _ => by unfold colN; rw [dif_pos i.isLt]
  refine e.symm.trans ?_
  show Spec.stats (act V c) _ = Spec.stats (act V c) _
  congr 1
  funext a
  apply Fin.ext
  match a with
  | ⟨0, _⟩ => show r.val = win0_4.index t 0 * 2 + 1 * r.val; rw [(idx4 t).1]; omega
  | ⟨1, _⟩ => show q.val = win0_4.index t 1 * 300 + 1 * q.val; rw [(idx4 t).2]; omega

/-- The statistics' one block is the whole array. -/
theorem cover4 (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 2 := (i 0).isLt
  have h1 : (i 1 : Nat) < 300 := (i 1).isLt
  have hN : cfg0.N = 32 := N_0
  have hlt : 31 < cfg0.N := by rw [hN]; omega
  refine ⟨⟨31, hlt⟩, (flush0_4 ⟨31, hlt⟩).mpr rfl, ?_⟩
  show i ∈ ((View.whole main_v7_1).slice (win0_4.rect ⟨31, hlt⟩)).set
  rw [View.set_slice_whole, Rect.mem_set_unit]
  intro a
  match a with
  | ⟨0, _⟩ =>
    show win0_4.index ⟨31, hlt⟩ 0 * 2 ≤ (i 0 : Nat) ∧ (i 0 : Nat) < win0_4.index ⟨31, hlt⟩ 0 * 2 + 2
    rw [(idx4 ⟨31, hlt⟩).1]; omega
  | ⟨1, _⟩ =>
    show win0_4.index ⟨31, hlt⟩ 1 * 300 ≤ (i 1 : Nat) ∧ (i 1 : Nat) < win0_4.index ⟨31, hlt⟩ 1 * 300 + 300
    rw [(idx4 ⟨31, hlt⟩).2]; omega

end Value

variable (V : (c : Dev nD) → (b : Ref sig .tc) → Buf (Elt Ideal) ((c : Thread nD τ).loc b)) (c : Dev nD)

/-- After the first region its first output array holds the first layer's activations. -/
theorem h1_eq : ((dat0 (F := Ideal) V c).arrAt 3 cfg0.N : Spec.Mat 65536 300) = act V c :=
  (dat0 (F := Ideal) V c).arrAt_eq_of_cover 3 (act V c) (flushed3_eq V c) (cover3 c)

/-- After the first region its second output array holds the activations' column sums and column sums of squares. -/
theorem st1_eq : ((dat0 (F := Ideal) V c).arrAt 4 cfg0.N : Spec.Mat 2 300) = Spec.stats (act V c) :=
  (dat0 (F := Ideal) V c).arrAt_eq_of_cover 4 (Spec.stats (act V c)) (flushed4_eq V c) (cover4 c)

end Cert.KernelIdeal.R0

end
-- ==== Proof.R1Value.lean ====
/-
  The value of the second region: the second layer on the normalised, scaled, shifted and noised first-layer activations.

  The region visits the 65536 batch rows in 32 tiles of 2048 rows.  At tile t it reads rows 2048·t … 2048·t + 2047 of the
  first-layer activations and of the two noise arrays, and the whole of the mean, variance, gain, shift, weight and bias
  arrays; it forms s · (g · (h - μ) · rsqrt (v + ε) + β) + m entry by entry, multiplies by the transposed weights, adds
  the bias and takes the maximum with zero.  The [2048, 100] tile it gets is rows 2048·t … of the first output.  The second
  output, a [2, 100] block that stays in place from tile to tile, is zeroed at tile 0 and at every tile receives the tile's
  column sums (row 0) and column sums of squares (row 1); it is written back once, after tile 31.

  So the first output ends holding the second layer's activations (the tiles' blocks cover the array), and the second
  output their column sums and column sums of squares: by induction on the tile the carried block holds the sums over the
  tiles so far, and a sum over the 65536 rows is the sum over the 32 tiles of the sums over each tile's 2048 rows (row
  2048·t + r is row r of tile t).  Sums on the extended reals are regrouped freely: addition there is commutative and
  associative.
-/
import proofs.«142257_j38500086842157_1_alg».proof.Proof.Gen.KernelIdeal.Frame
import proofs.«142257_j38500086842157_1_alg».proof.Proof.Spec
import proofs.«142257_j38500086842157_1_alg».proof.Proof.LibDotNT
import Idealize.ShloMosaic.Lib.Pipeline.Value
import Idealize.ShloMosaic.Lib.ValueLayout
import Idealize.ShloMosaic.Lib.Tactic
import Mathlib.Algebra.BigOperators.Fin
import Mathlib.Data.Fintype.BigOperators
import Mathlib.Logic.Equiv.Fin.Basic
set_option maxRecDepth 16384

noncomputable section

open scoped BigOperators

namespace Cert.KernelIdeal.R1

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- The normalised, scaled, shifted and noised first-layer activations, as the second region finds its arrays. -/
abbrev inp (V : (c : Dev nD) → (b : Ref sig .tc) → Buf (Elt Ideal) ((c : Thread nD τ).loc b)) (c : Dev nD) : Spec.Mat 65536 300 :=
  Spec.noisy (V c main_v7_0) (Spec.rowOf (V c main_v18)) (Spec.rowOf (V c main_v19)) (Spec.rowOf (V c main_v1))
    (Spec.rowOf (V c main_v2)) (V c main_arg5) (V c main_arg6)

/-- The second layer's activations, as the second region finds its arrays. -/
abbrev act (V : (c : Dev nD) → (b : Ref sig .tc) → Buf (Elt Ideal) ((c : Thread nD τ).loc b)) (c : Dev nD) : Spec.Mat 65536 100 :=
  Spec.relu (Spec.dense (inp V c) (V c main_arg7) (Spec.rowOf (V c main_v3)))

section Pieces

variable {F : FTy → Type} [FloatOps F]

/-- The offset pair (0, 0) is the constant-zero offset. -/
theorem hz : (![0, 0] : Fin 2 → Nat) = fun _ => 0 := funext fun a => by fin_cases a <;> rfl

/-- At a point other than the first, the body leaves in the first output's buffer the maximum with zero of the tile's
    pre-activations: one store over the whole buffer, its operands the nine input buffers read whole. -/
theorem out_B_9 (c : Dev nD) (i : grid1.Coords) (a1 : Memref sig .tc .vmem S2048x300 .f32) (h1 : a1.IsWhole) (a2 : Memref sig .tc .vmem S2048x300 .f32) (h2 : a2.IsWhole) (a3 : Memref sig .tc .vmem S2048x300 .f32) (h3 : a3.IsWhole) (a4 : Memref sig .tc .vmem S1x300 .f32) (h4 : a4.IsWhole) (a5 : Memref sig .tc .vmem S1x300 .f32) (h5 : a5.IsWhole) (a6 : Memref sig .tc .vmem S1x300 .f32) (h6 : a6.IsWhole) (a7 : Memref sig .tc .vmem S1x300 .f32) (h7 : a7.IsWhole) (a8 : Memref sig .tc .vmem S100x300 .f32) (h8 : a8.IsWhole) (a9 : Memref sig .tc .vmem S1x100 .f32) (h9 : a9.IsWhole) (a10 : Memref sig .tc .vmem S2048x100 .f32) (h10 : a10.IsWhole) (a11 : Memref sig .tc .vmem S2x100 .f32) (h11 : a11.IsWhole) (hc : ¬cond1_0 i) (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) (xo : Vec F S2x100 .f32) :
    out1_B_9 c i a1 h1 a2 h2 a3 h3 a4 h4 a5 h5 a6 h6 a7 h7 a8 h8 a9 h9 a10 h10 a11 h11 hc x0 x1 x2 x3 x4 x5 x6 x7 x8 xo = k1_pay1 (k1_pay4 x0 x4 x5 x3 x6 x1 x2 x7 x8) := by
  unfold out1_B_9
  rw [View.read_writes_eq_canon _ _ _ (cover1_B_9 c i a1 h1 a2 h2 a3 h3 a4 h4 a5 h5 a6 h6 a7 h7 a8 h8 a9 h9 a10 h10 a11 h11 hc x0 x1 x2 x3 x4 x5 x6 x7 x8 xo)]
  unfold kernelRun1_B
  dsimp only
  sl_unfold_words
  rw [View.canon_unit_zero (S := S2048x100) hz]
  simp only [View.readAt_eq_ld, h1.read_unread, h2.read_unread, h3.read_unread, h4.read_unread, h5.read_unread, h6.read_unread,
    h7.read_unread, h8.read_unread, h9.read_unread, View.ld_unit_zero (S := S2048x300) hz, View.ld_unit_zero (S := S1x300) hz,
    View.ld_unit_zero (S := S100x300) hz, View.ld_unit_zero (S := S1x100) hz]

/-- At a point other than the first, the body leaves in the second output's buffer what it held before plus the tile's column
    sums and column sums of squares: one store over the whole buffer. -/
theorem out_B_10 (c : Dev nD) (i : grid1.Coords) (a1 : Memref sig .tc .vmem S2048x300 .f32) (h1 : a1.IsWhole) (a2 : Memref sig .tc .vmem S2048x300 .f32) (h2 : a2.IsWhole) (a3 : Memref sig .tc .vmem S2048x300 .f32) (h3 : a3.IsWhole) (a4 : Memref sig .tc .vmem S1x300 .f32) (h4 : a4.IsWhole) (a5 : Memref sig .tc .vmem S1x300 .f32) (h5 : a5.IsWhole) (a6 : Memref sig .tc .vmem S1x300 .f32) (h6 : a6.IsWhole) (a7 : Memref sig .tc .vmem S1x300 .f32) (h7 : a7.IsWhole) (a8 : Memref sig .tc .vmem S100x300 .f32) (h8 : a8.IsWhole) (a9 : Memref sig .tc .vmem S1x100 .f32) (h9 : a9.IsWhole) (a10 : Memref sig .tc .vmem S2048x100 .f32) (h10 : a10.IsWhole) (a11 : Memref sig .tc .vmem S2x100 .f32) (h11 : a11.IsWhole) (hc : ¬cond1_0 i) (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) (xo : Vec F S2x100 .f32) :
    out1_B_10 c i a1 h1 a2 h2 a3 h3 a4 h4 a5 h5 a6 h6 a7 h7 a8 h8 a9 h9 a10 h10 a11 h11 hc x0 x1 x2 x3 x4 x5 x6 x7 x8 xo = k1_pay2 (k1_pay4 x0 x4 x5 x3 x6 x1 x2 x7 x8) xo := by
  unfold out1_B_10
  rw [View.read_writes_eq_canon _ _ _ (cover1_B_10 c i a1 h1 a2 h2 a3 h3 a4 h4 a5 h5 a6 h6 a7 h7 a8 h8 a9 h9 a10 h10 a11 h11 hc x0 x1 x2 x3 x4 x5 x6 x7 x8 xo)]
  unfold kernelRun1_B
  dsimp only
  sl_unfold_words
  rw [View.canon_unit_zero (S := S2x100) hz]
  simp only [View.readAt_eq_ld, h1.read_unread, h2.read_unread, h3.read_unread, h4.read_unread, h5.read_unread, h6.read_unread,
    h7.read_unread, h8.read_unread, h9.read_unread, h11.read_unread, View.ld_unit_zero (S := S2048x300) hz,
    View.ld_unit_zero (S := S1x300) hz, View.ld_unit_zero (S := S100x300) hz, View.ld_unit_zero (S := S1x100) hz,
    View.ld_unit_zero (S := S2x100) hz]

/-- At the first point the first output's buffer is left as at every other point. -/
theorem out_A_9 (c : Dev nD) (i : grid1.Coords) (a1 : Memref sig .tc .vmem S2048x300 .f32) (h1 : a1.IsWhole) (a2 : Memref sig .tc .vmem S2048x300 .f32) (h2 : a2.IsWhole) (a3 : Memref sig .tc .vmem S2048x300 .f32) (h3 : a3.IsWhole) (a4 : Memref sig .tc .vmem S1x300 .f32) (h4 : a4.IsWhole) (a5 : Memref sig .tc .vmem S1x300 .f32) (h5 : a5.IsWhole) (a6 : Memref sig .tc .vmem S1x300 .f32) (h6 : a6.IsWhole) (a7 : Memref sig .tc .vmem S1x300 .f32) (h7 : a7.IsWhole) (a8 : Memref sig .tc .vmem S100x300 .f32) (h8 : a8.IsWhole) (a9 : Memref sig .tc .vmem S1x100 .f32) (h9 : a9.IsWhole) (a10 : Memref sig .tc .vmem S2048x100 .f32) (h10 : a10.IsWhole) (a11 : Memref sig .tc .vmem S2x100 .f32) (h11 : a11.IsWhole) (hc : cond1_0 i) (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) :
    out1_A_9 c i a1 h1 a2 h2 a3 h3 a4 h4 a5 h5 a6 h6 a7 h7 a8 h8 a9 h9 a10 h10 a11 h11 hc x0 x1 x2 x3 x4 x5 x6 x7 x8 = k1_pay1 (k1_pay4 x0 x4 x5 x3 x6 x1 x2 x7 x8) := by
  unfold out1_A_9
  rw [View.read_writes_eq_canon _ _ _ (cover1_A_9 c i a1 h1 a2 h2 a3 h3 a4 h4 a5 h5 a6 h6 a7 h7 a8 h8 a9 h9 a10 h10 a11 h11 hc x0 x1 x2 x3 x4 x5 x6 x7 x8)]
  unfold kernelRun1_A
  dsimp only
  sl_unfold_words
  rw [View.canon_unit_zero (S := S2048x100) hz]
  simp only [View.readAt_eq_ld, h1.read_unread, h2.read_unread, h3.read_unread, h4.read_unread, h5.read_unread, h6.read_unread,
    h7.read_unread, h8.read_unread, h9.read_unread, View.ld_unit_zero (S := S2048x300) hz, View.ld_unit_zero (S := S1x300) hz,
    View.ld_unit_zero (S := S100x300) hz, View.ld_unit_zero (S := S1x100) hz]

/-- At the first point the second output's buffer is first filled with zeros, read back, and then left holding the zeros plus
    the tile's column sums and column sums of squares: the later of the two whole-buffer stores decides. -/
theorem out_A_10 (c : Dev nD) (i : grid1.Coords) (a1 : Memref sig .tc .vmem S2048x300 .f32) (h1 : a1.IsWhole) (a2 : Memref sig .tc .vmem S2048x300 .f32) (h2 : a2.IsWhole) (a3 : Memref sig .tc .vmem S2048x300 .f32) (h3 : a3.IsWhole) (a4 : Memref sig .tc .vmem S1x300 .f32) (h4 : a4.IsWhole) (a5 : Memref sig .tc .vmem S1x300 .f32) (h5 : a5.IsWhole) (a6 : Memref sig .tc .vmem S1x300 .f32) (h6 : a6.IsWhole) (a7 : Memref sig .tc .vmem S1x300 .f32) (h7 : a7.IsWhole) (a8 : Memref sig .tc .vmem S100x300 .f32) (h8 : a8.IsWhole) (a9 : Memref sig .tc .vmem S1x100 .f32) (h9 : a9.IsWhole) (a10 : Memref sig .tc .vmem S2048x100 .f32) (h10 : a10.IsWhole) (a11 : Memref sig .tc .vmem S2x100 .f32) (h11 : a11.IsWhole) (hc : cond1_0 i) (x0 : Vec F S2048x300 .f32) (x1 : Vec F S2048x300 .f32) (x2 : Vec F S2048x300 .f32) (x3 : Vec F S1x300 .f32) (x4 : Vec F S1x300 .f32) (x5 : Vec F S1x300 .f32) (x6 : Vec F S1x300 .f32) (x7 : Vec F S100x300 .f32) (x8 : Vec F S1x100 .f32) :
    out1_A_10 c i a1 h1 a2 h2 a3 h3 a4 h4 a5 h5 a6 h6 a7 h7 a8 h8 a9 h9 a10 h10 a11 h11 hc x0 x1 x2 x3 x4 x5 x6 x7 x8 = k1_pay2 (k1_pay4 x0 x4 x5 x3 x6 x1 x2 x7 x8) (k1_pay3 (F := F)) := by
  unfold out1_A_10
  rw [View.read_writes_eq_canon _ _ _ (cover1_A_10 c i a1 h1 a2 h2 a3 h3 a4 h4 a5 h5 a6 h6 a7 h7 a8 h8 a9 h9 a10 h10 a11 h11 hc x0 x1 x2 x3 x4 x5 x6 x7 x8)]
  unfold kernelRun1_A
  dsimp only
  sl_unfold_words
  rw [View.canon_cons_unit_zero (S := S2x100) hz, View.readCov_unit_zero (S := S2x100) _ hz]
  simp only [View.readAt_eq_ld, h1.read_unread, h2.read_unread, h3.read_unread, h4.read_unread, h5.read_unread, h6.read_unread,
    h7.read_unread, h8.read_unread, h9.read_unread, View.ld_unit_zero (S := S2048x300) hz, View.ld_unit_zero (S := S1x300) hz,
    View.ld_unit_zero (S := S100x300) hz, View.ld_unit_zero (S := S1x100) hz]

end Pieces

section Arith

/-- The noised, normalised entry (p, k) of a tile, from the tile's blocks. -/
abbrev nz (x0 x1 x2 : Vec Ideal S2048x300 .f32) (x3 x4 x5 x6 : Vec Ideal S1x300 .f32) (p : Fin 2048) (k : Fin 300) : EReal :=
  x1 (ix2 p k) * (x5 (ix2 (0 : Fin 1) k) * (x0 (ix2 p k) - x3 (ix2 (0 : Fin 1) k)) * Ideal.rsqrt (x4 (ix2 (0 : Fin 1) k) + Spec.eps)
    + x6 (ix2 (0 : Fin 1) k)) + x2 (ix2 p k)

/-- A [1, 300] row copied down 2048 rows reads, at (p, k), the row's entry k. -/
theorem row_bcast300 (x : Vec Ideal S1x300 .f32) (p : Fin 2048) (k : Fin 300) :
    broadcastTo S2048x300 (shapeCast S1x300 x shapeCasts_S1x300_S1x300) broadcasts_S1x300_S2048x300 (ix2 p k) = x (ix2 (0 : Fin 1) k) :=
  (broadcastTo_1b_ab_apply _ _ p k).trans (congrFun (shapeCast_self x _) _)

/-- The tile's pre-activation at (p, q): the sum over k of the noised, normalised input (p, k) times the weight (q, k), plus
    the bias q. Subtraction, the products, the sums and the reciprocal square root are taken entry by entry on the extended
    reals; narrowing the operands of the product changes nothing there; the product accumulates from zero. -/
theorem pay4_apply (x0 x1 x2 : Vec Ideal S2048x300 .f32) (x3 x4 x5 x6 : Vec Ideal S1x300 .f32)
    (x7 : Vec Ideal S100x300 .f32) (x8 : Vec Ideal S1x100 .f32) (p : Fin 2048) (q : Fin 100) :
    (k1_pay4 x0 x4 x5 x3 x6 x1 x2 x7 x8 : FVec Ideal S2048x100 .f32) (ix2 p q)
      = (∑ k : Fin 300, nz x0 x1 x2 x3 x4 x5 x6 p k * x7 (ix2 q k)) + x8 (ix2 (0 : Fin 1) q) := by
  unfold k1_pay4
  refine (addf_apply _ _ _).trans ?_
  refine congrArg₂ (· + ·) ?_ ?_
  · refine (Cert.LibDotNT.matmul_zero_ix2_nt dot_S2048x300_S100x300_S2048x100_1_1_0_0_n_n rfl rfl rfl rfl rfl rfl rfl rfl none _ _ p q).trans ?_
    refine Finset.sum_congr rfl fun k _ => ?_
    refine congrArg₂ (· * ·) ?_ rfl
    simp only [truncf_apply, addf_apply, mulf_apply, subf_apply]
    rw [row_bcast300 x5 p k, row_bcast300 x3 p k, row_bcast300 x6 p k, shapeCast_self x0, shapeCast_self x4,
      broadcastTo_1b_ab_apply _ _ p k]
    rfl
  · exact (broadcastTo_1b_ab_apply _ _ p q).trans (congrFun (shapeCast_self x8 _) _)

end Arith

section Arith2

/-- The stored tile is the maximum with zero, entry by entry. -/
theorem pay1_apply (v : FVec Ideal S2048x100 .f32) (j : S2048x100.Idx) :
    (k1_pay1 v : FVec Ideal S2048x100 .f32) j = max (v j) 0 := by
  unfold k1_pay1
  show max (v j) (Ideal.ofBits .f32 0x00000000#32) = _
  rw [Ideal.ofBits_zero_f32]

/-- The reset block is zero everywhere. -/
theorem pay3_apply (j : S2x100.Idx) : (k1_pay3 (F := Ideal)) j = 0 := by
  unfold k1_pay3
  show Ideal.ofBits .f32 0x00000000#32 = _
  rw [Ideal.ofBits_zero_f32]

/-- Putting row r back in front of column index q gives the index (r, q). -/
theorem lift_eq (h : S2048x100.Reduces [0] S100) (q : Fin 100) (r : Fin 2048) : h.lift (ix1 q) r = ix2 r q :=
  funext fun b => Fin.ext (by
    match b with
    | ⟨0, _⟩ => rfl
    | ⟨1, _⟩ => rfl)

/-- Summing a [2048, 100] tile down its rows gives, at column q, the sum over r of the entries (r, q). -/
theorem colsum_apply (P : FVec Ideal S2048x100 .f32) (q : Fin 100) :
    multiReduction .add [0] S100 P 0x00000000#32 reduces_S2048x100_S100 (.inl rfl) rfl (ix1 q) = ∑ r : Fin 2048, P (ix2 r q) := by
  refine (Ideal.multiReduction_add_single P _ reduces_S2048x100_S100 _ _ (ix1 q)).trans ?_
  exact Finset.sum_congr rfl fun r _ => congrArg P (lift_eq _ q r)

/-- Row 0 of the updated block: what it held plus the stored tile's column sums. -/
theorem pay2_row0 (v : FVec Ideal S2048x100 .f32) (w : Vec Ideal S2x100 .f32) (q : Fin 100) :
    (k1_pay2 v w : FVec Ideal S2x100 .f32) (ix2 (0 : Fin 2) q) = w (ix2 (0 : Fin 2) q) + ∑ r : Fin 2048, k1_pay1 v (ix2 r q) := by
  unfold k1_pay2
  refine (addf_apply _ _ _).trans ?_
  refine congrArg₂ (· + ·) (congrFun (shapeCast_self w _) _) ?_
  refine (concatenate_pair_apply_left (t := S2x100) (s₁ := S1x100) (s₂ := S1x100) (0 : Fin 2) _ _ concatenates_S1x100_S1x100_S2x100_d0 (ix2 (0 : Fin 2) q) rfl (ix2 (0 : Fin 1) q)
    (fun b => by
      match b with
      | ⟨0, _⟩ => rfl
      | ⟨1, _⟩ => rfl)).trans ?_
  refine (shapeCast_a_1a_apply _ _ (0 : Fin 1) q).trans ?_
  exact colsum_apply _ q

/-- Row 1 of the updated block: what it held plus the stored tile's column sums of squares. -/
theorem pay2_row1 (v : FVec Ideal S2048x100 .f32) (w : Vec Ideal S2x100 .f32) (q : Fin 100) :
    (k1_pay2 v w : FVec Ideal S2x100 .f32) (ix2 (1 : Fin 2) q)
      = w (ix2 (1 : Fin 2) q) + ∑ r : Fin 2048, k1_pay1 v (ix2 r q) * k1_pay1 v (ix2 r q) := by
  unfold k1_pay2
  refine (addf_apply _ _ _).trans ?_
  refine congrArg₂ (· + ·) (congrFun (shapeCast_self w _) _) ?_
  refine (concatenate_pair_apply_right (t := S2x100) (s₁ := S1x100) (s₂ := S1x100) (0 : Fin 2) _ _ concatenates_S1x100_S1x100_S2x100_d0 (ix2 (1 : Fin 2) q) rfl rfl (ix2 (0 : Fin 1) q)
    (fun b hb => by
      match b with
      | ⟨0, _⟩ => exact absurd rfl hb
      | ⟨1, _⟩ => rfl) rfl).trans ?_
  refine (shapeCast_a_1a_apply _ _ (0 : Fin 1) q).trans ?_
  exact colsum_apply _ q

end Arith2

section Blocks

/-- The grid has 32 points. -/
theorem N1 : cfg1.N = 32 := N_1

/-- Row r of tile t is row 2048·t + r of the batch. -/
def rowIx (t : Fin cfg1.N) (r : Fin 2048) : Fin 65536 :=
  ⟨t.val * 2048 + r.val, by have := t.isLt; have := N1; have := r.isLt; omega⟩

/-- The block index of each window at point t: (t, 0) for the four arrays tiled by rows, (0, 0) for the arrays held whole. -/
theorem idx_0 : ∀ t : Fin cfg1.N, win1_0.index t 0 = t.val ∧ win1_0.index t 1 = 0 :=
  (by decide +kernel : ∀ t : Fin grid1.N, win1_0.index t 0 = t.val ∧ win1_0.index t 1 = 0)
theorem idx_1 : ∀ t : Fin cfg1.N, win1_1.index t 0 = t.val ∧ win1_1.index t 1 = 0 :=
  (by decide +kernel : ∀ t : Fin grid1.N, win1_1.index t 0 = t.val ∧ win1_1.index t 1 = 0)
theorem idx_2 : ∀ t : Fin cfg1.N, win1_2.index t 0 = t.val ∧ win1_2.index t 1 = 0 :=
  (by decide +kernel : ∀ t : Fin grid1.N, win1_2.index t 0 = t.val ∧ win1_2.index t 1 = 0)
theorem idx_9 : ∀ t : Fin cfg1.N, win1_9.index t 0 = t.val ∧ win1_9.index t 1 = 0 :=
  (by decide +kernel : ∀ t : Fin grid1.N, win1_9.index t 0 = t.val ∧ win1_9.index t 1 = 0)
theorem idx_3 : ∀ t : Fin cfg1.N, win1_3.index t 0 = 0 ∧ win1_3.index t 1 = 0 :=
  (by decide +kernel : ∀ t : Fin grid1.N, win1_3.index t 0 = 0 ∧ win1_3.index t 1 = 0)
theorem idx_4 : ∀ t : Fin cfg1.N, win1_4.index t 0 = 0 ∧ win1_4.index t 1 = 0 :=
  (by decide +kernel : ∀ t : Fin grid1.N, win1_4.index t 0 = 0 ∧ win1_4.index t 1 = 0)
theorem idx_5 : ∀ t : Fin cfg1.N, win1_5.index t 0 = 0 ∧ win1_5.index t 1 = 0 :=
  (by decide +kernel : ∀ t : Fin grid1.N, win1_5.index t 0 = 0 ∧ win1_5.index t 1 = 0)
theorem idx_6 : ∀ t : Fin cfg1.N, win1_6.index t 0 = 0 ∧ win1_6.index t 1 = 0 :=
  (by decide +kernel : ∀ t : Fin grid1.N, win1_6.index t 0 = 0 ∧ win1_6.index t 1 = 0)
theorem idx_7 : ∀ t : Fin cfg1.N, win1_7.index t 0 = 0 ∧ win1_7.index t 1 = 0 :=
  (by decide +kernel : ∀ t : Fin grid1.N, win1_7.index t 0 = 0 ∧ win1_7.index t 1 = 0)
theorem idx_8 : ∀ t : Fin cfg1.N, win1_8.index t 0 = 0 ∧ win1_8.index t 1 = 0 :=
  (by decide +kernel : ∀ t : Fin grid1.N, win1_8.index t 0 = 0 ∧ win1_8.index t 1 = 0)
theorem idx_10 : ∀ t : Fin cfg1.N, win1_10.index t 0 = 0 ∧ win1_10.index t 1 = 0 :=
  (by decide +kernel : ∀ t : Fin grid1.N, win1_10.index t 0 = 0 ∧ win1_10.index t 1 = 0)

/-- The nine input blocks at point t. -/
abbrev b0 (t : Fin cfg1.N) : Vec Ideal S2048x300 .f32 := iblk1 V c 0 t
abbrev b1 (t : Fin cfg1.N) : Vec Ideal S2048x300 .f32 := iblk1 V c 1 t
abbrev b2 (t : Fin cfg1.N) : Vec Ideal S2048x300 .f32 := iblk1 V c 2 t
abbrev b3 (t : Fin cfg1.N) : Vec Ideal S1x300 .f32 := iblk1 V c 3 t
abbrev b4 (t : Fin cfg1.N) : Vec Ideal S1x300 .f32 := iblk1 V c 4 t
abbrev b5 (t : Fin cfg1.N) : Vec Ideal S1x300 .f32 := iblk1 V c 5 t
abbrev b6 (t : Fin cfg1.N) : Vec Ideal S1x300 .f32 := iblk1 V c 6 t
abbrev b7 (t : Fin cfg1.N) : Vec Ideal S100x300 .f32 := iblk1 V c 7 t
abbrev b8 (t : Fin cfg1.N) : Vec Ideal S1x100 .f32 := iblk1 V c 8 t

/-- Entry (r, k) of a row-tiled input's block at point t is entry (2048·t + r, k) of its array; an input held whole is read
    at the same index at every point. -/
theorem blk0_apply (t : Fin cfg1.N) (r : Fin 2048) (k : Fin 300) :
    b0 V c t (ix2 r k) = (V c main_v7_0 : Spec.Mat 65536 300) (ix2 (rowIx t r) k) := by
  unfold b0 iblk1
  rw [View.read_apply]
  show V c main_v7_0 _ = V c main_v7_0 _
  congr 1
  funext a
  apply Fin.ext
  match a with
  | ⟨0, _⟩ => show win1_0.index t 0 * 2048 + 1 * r.val = t.val * 2048 + r.val; rw [(idx_0 t).1]; omega
  | ⟨1, _⟩ => show win1_0.index t 1 * 300 + 1 * k.val = k.val; rw [(idx_0 t).2]; omega
theorem blk1_apply (t : Fin cfg1.N) (r : Fin 2048) (k : Fin 300) :
    b1 V c t (ix2 r k) = (V c main_arg5 : Spec.Mat 65536 300) (ix2 (rowIx t r) k) := by
  unfold b1 iblk1
  rw [View.read_apply]
  show V c main_arg5 _ = V c main_arg5 _
  congr 1
  funext a
  apply Fin.ext
  match a with
  | ⟨0, _⟩ => show win1_1.index t 0 * 2048 + 1 * r.val = t.val * 2048 + r.val; rw [(idx_1 t).1]; omega
  | ⟨1, _⟩ => show win1_1.index t 1 * 300 + 1 * k.val = k.val; rw [(idx_1 t).2]; omega
theorem blk2_apply (t : Fin cfg1.N) (r : Fin 2048) (k : Fin 300) :
    b2 V c t (ix2 r k) = (V c main_arg6 : Spec.Mat 65536 300) (ix2 (rowIx t r) k) := by
  unfold b2 iblk1
  rw [View.read_apply]
  show V c main_arg6 _ = V c main_arg6 _
  congr 1
  funext a
  apply Fin.ext
  match a with
  | ⟨0, _⟩ => show win1_2.index t 0 * 2048 + 1 * r.val = t.val * 2048 + r.val; rw [(idx_2 t).1]; omega
  | ⟨1, _⟩ => show win1_2.index t 1 * 300 + 1 * k.val = k.val; rw [(idx_2 t).2]; omega
theorem blk3_apply (t : Fin cfg1.N) (u : Fin 1) (k : Fin 300) :
    b3 V c t (ix2 u k) = (V c main_v18 : Spec.Mat 1 300) (ix2 u k) := by
  unfold b3 iblk1
  rw [View.read_apply]
  show V c main_v18 _ = V c main_v18 _
  congr 1
  funext a
  apply Fin.ext
  match a with
  | ⟨0, _⟩ => show win1_3.index t 0 * 1 + 1 * u.val = u.val; rw [(idx_3 t).1]; omega
  | ⟨1, _⟩ => show win1_3.index t 1 * 300 + 1 * k.val = k.val; rw [(idx_3 t).2]; omega
theorem blk4_apply (t : Fin cfg1.N) (u : Fin 1) (k : Fin 300) :
    b4 V c t (ix2 u k) = (V c main_v19 : Spec.Mat 1 300) (ix2 u k) := by
  unfold b4 iblk1
  rw [View.read_apply]
  show V c main_v19 _ = V c main_v19 _
  congr 1
  funext a
  apply Fin.ext
  match a with
  | ⟨0, _⟩ => show win1_4.index t 0 * 1 + 1 * u.val = u.val; rw [(idx_4 t).1]; omega
  | ⟨1, _⟩ => show win1_4.index t 1 * 300 + 1 * k.val = k.val; rw [(idx_4 t).2]; omega
theorem blk5_apply (t : Fin cfg1.N) (u : Fin 1) (k : Fin 300) :
    b5 V c t (ix2 u k) = (V c main_v1 : Spec.Mat 1 300) (ix2 u k) := by
  unfold b5 iblk1
  rw [View.read_apply]
  show V c main_v1 _ = V c main_v1 _
  congr 1
  funext a
  apply Fin.ext
  match a with
  | ⟨0, _⟩ => show win1_5.index t 0 * 1 + 1 * u.val = u.val; rw [(idx_5 t).1]; omega
  | ⟨1, _⟩ => show win1_5.index t 1 * 300 + 1 * k.val = k.val; rw [(idx_5 t).2]; omega
theorem blk6_apply (t : Fin cfg1.N) (u : Fin 1) (k : Fin 300) :
    b6 V c t (ix2 u k) = (V c main_v2 : Spec.Mat 1 300) (ix2 u k) := by
  unfold b6 iblk1
  rw [View.read_apply]
  show V c main_v2 _ = V c main_v2 _
  congr 1
  funext a
  apply Fin.ext
  match a with
  | ⟨0, _⟩ => show win1_6.index t 0 * 1 + 1 * u.val = u.val; rw [(idx_6 t).1]; omega
  | ⟨1, _⟩ => show win1_6.index t 1 * 300 + 1 * k.val = k.val; rw [(idx_6 t).2]; omega
theorem blk7_apply (t : Fin cfg1.N) (u : Fin 100) (k : Fin 300) :
    b7 V c t (ix2 u k) = (V c main_arg7 : Spec.Mat 100 300) (ix2 u k) := by
  unfold b7 iblk1
  rw [View.read_apply]
  show V c main_arg7 _ = V c main_arg7 _
  congr 1
  funext a
  apply Fin.ext
  match a with
  | ⟨0, _⟩ => show win1_7.index t 0 * 100 + 1 * u.val = u.val; rw [(idx_7 t).1]; omega
  | ⟨1, _⟩ => show win1_7.index t 1 * 300 + 1 * k.val = k.val; rw [(idx_7 t).2]; omega
theorem blk8_apply (t : Fin cfg1.N) (u : Fin 1) (k : Fin 100) :
    b8 V c t (ix2 u k) = (V c main_v3 : Spec.Mat 1 100) (ix2 u k) := by
  unfold b8 iblk1
  rw [View.read_apply]
  show V c main_v3 _ = V c main_v3 _
  congr 1
  funext a
  apply Fin.ext
  match a with
  | ⟨0, _⟩ => show win1_8.index t 0 * 1 + 1 * u.val = u.val; rw [(idx_8 t).1]; omega
  | ⟨1, _⟩ => show win1_8.index t 1 * 100 + 1 * k.val = k.val; rw [(idx_8 t).2]; omega

end Blocks

section Value

/-- The tile's second-layer pre-activations, from the blocks at point t. -/
abbrev pre (t : Fin cfg1.N) : FVec Ideal S2048x100 .f32 :=
  k1_pay4 (b0 V c t) (b4 V c t) (b5 V c t) (b3 V c t) (b6 V c t) (b1 V c t) (b2 V c t) (b7 V c t) (b8 V c t)

/-- Entry (r, k) of tile t's noised, normalised input is entry (2048·t + r, k) of the whole batch's. -/
theorem nz_eq (t : Fin cfg1.N) (r : Fin 2048) (k : Fin 300) :
    nz (b0 V c t) (b1 V c t) (b2 V c t) (b3 V c t) (b4 V c t) (b5 V c t) (b6 V c t) r k = inp V c (ix2 (rowIx t r) k) := by
  unfold nz
  rw [blk0_apply, blk1_apply, blk2_apply, blk3_apply, blk4_apply, blk5_apply, blk6_apply]
  rfl

/-- Entry (r, q) of what tile t stores is entry (2048·t + r, q) of the second layer's activations. -/
theorem tile_val (t : Fin cfg1.N) (r : Fin 2048) (q : Fin 100) :
    (k1_pay1 (pre V c t) : FVec Ideal S2048x100 .f32) (ix2 r q) = act V c (ix2 (rowIx t r) q) := by
  refine (pay1_apply _ _).trans ?_
  show max _ 0 = max ((∑ k : Fin 300, inp V c (ix2 (rowIx t r) k) * (V c main_arg7 : Spec.Mat 100 300) (ix2 q k))
    + (V c main_v3 : Spec.Mat 1 100) (ix2 (0 : Fin 1) q)) 0
  refine congrArg (fun z => max z 0) ?_
  refine (pay4_apply (b0 V c t) (b1 V c t) (b2 V c t) (b3 V c t) (b4 V c t) (b5 V c t) (b6 V c t) (b7 V c t) (b8 V c t) r q).trans ?_
  exact congrArg₂ (· + ·) (Finset.sum_congr rfl fun k _ => congrArg₂ (· * ·) (nz_eq V c t r k) (blk7_apply V c t q k))
    (blk8_apply V c t 0 q)

/-- After any point the first output's staging buffer holds the tile's activations. -/
theorem out9_eq (t : Fin cfg1.N) : (outsAt1 V c t.val t.isLt).1 = k1_pay1 (pre V c t) := by
  by_cases h0 : t.val % 32 = 0
  · rw [outsAt1_A V c t h0]
    dsimp only
    exact out_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)
  · rw [outsAt1_B V c t h0]
    dsimp only
    exact out_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2

/-- What each point writes back to the first output is its block of the second layer's activations. -/
theorem flushed9 (t : Fin cfg1.N) (hf : (cfg1.win 9).flush t = true) :
    (dat1 (F := Ideal) V c).flushed 9 t = ((cfg1.win 9).blk t).view.read (Elt Ideal) (act V c) := by
  show (cfg1.win 9).cut (grid1.coords t) ((dat1 V c).after 9 t) = _
  rw [after1_9, out9_eq]
  funext y
  obtain ⟨r, q, rfl⟩ : ∃ (r : Fin 2048) (q : Fin 100), y = ix2 r q := ⟨y 0, y 1, eq_ix2 y⟩
  rw [View.read_apply]
  show (k1_pay1 (pre V c t) : FVec Ideal S2048x100 .f32) (ix2 r q) = act V c _
  refine (tile_val V c t r q).trans (congrArg (act V c) ?_)
  funext a
  apply Fin.ext
  match a with
  | ⟨0, _⟩ => show t.val * 2048 + r.val = win1_9.index t 0 * 2048 + 1 * r.val; rw [(idx_9 t).1]; omega
  | ⟨1, _⟩ => show q.val = win1_9.index t 1 * 100 + 1 * q.val; rw [(idx_9 t).2]; omega

end Value

section Stats

/-- Column q of the activations summed over the rows of tile s (zero past the last tile). -/
def tile1 (s : ℕ) (q : Fin 100) : EReal :=
  if h : s < cfg1.N then ∑ r : Fin 2048, act V c (ix2 (rowIx ⟨s, h⟩ r) q) else 0

/-- Column q of the squared activations summed over the rows of tile s (zero past the last tile). -/
def tile2 (s : ℕ) (q : Fin 100) : EReal :=
  if h : s < cfg1.N then ∑ r : Fin 2048, act V c (ix2 (rowIx ⟨s, h⟩ r) q) * act V c (ix2 (rowIx ⟨s, h⟩ r) q) else 0

/-- The column sums and column sums of squares over the tiles 0, …, n. -/
def part (n : ℕ) : Spec.Mat 2 100 := fun j =>
  if (j 0).val = 0 then ∑ s ∈ Finset.range (n + 1), tile1 V c s (j 1) else ∑ s ∈ Finset.range (n + 1), tile2 V c s (j 1)

/-- One point adds its tile's column sums and column sums of squares to what the carried block held. -/
theorem step (t : Fin cfg1.N) (w : Vec Ideal S2x100 .f32) (j : S2x100.Idx) :
    (k1_pay2 (pre V c t) w : FVec Ideal S2x100 .f32) j
      = w j + (if (j 0).val = 0 then tile1 V c t.val (j 1) else tile2 V c t.val (j 1)) := by
  obtain ⟨a, q, rfl⟩ : ∃ (a : Fin 2) (q : Fin 100), j = ix2 a q := ⟨j 0, j 1, eq_ix2 j⟩
  match a with
  | ⟨0, _⟩ =>
    refine (pay2_row0 _ _ q).trans (congrArg₂ (· + ·) rfl ?_)
    rw [if_pos rfl]
    unfold tile1
    rw [dif_pos t.isLt]
    exact Finset.sum_congr rfl fun r _ => tile_val V c t r q
  | ⟨1, h1⟩ =>
    refine (pay2_row1 _ _ q).trans (congrArg₂ (· + ·) rfl ?_)
    rw [if_neg (show ¬((ix2 (⟨1, h1⟩ : Fin 2) q : S2x100.Idx) 0).val = 0 from Nat.one_ne_zero)]
    unfold tile2
    rw [dif_pos t.isLt]
    exact Finset.sum_congr rfl fun r _ => congrArg₂ (· * ·) (tile_val V c t r q) (tile_val V c t r q)

/-- After point n the carried block holds the sums over the tiles 0, …, n. -/
theorem outs10_eq : ∀ (n : ℕ) (h : n < cfg1.N), (outsAt1 V c n h).2 = part V c n
  | 0, h => by
    rw [outsAt1_A V c ⟨0, h⟩ rfl]
    dsimp only
    refine (out_A_10 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) ((hcond1_0 ⟨0, h⟩).mpr rfl) (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)).trans ?_
    funext j
    refine (step V c ⟨0, h⟩ _ j).trans ?_
    rw [pay3_apply, zero_add]
    unfold part
    rw [Finset.sum_range_one, Finset.sum_range_one]
  | n + 1, h => by
    have hB : ¬(⟨n + 1, h⟩ : Fin cfg1.N).val % 32 = 0 := by have := N1; dsimp only; omega
    rw [outsAt1_B V c ⟨n + 1, h⟩ hB]
    dsimp only
    refine (out_B_10 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (fun h' => hB ((hcond1_0 ⟨n + 1, h⟩).mp h')) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (outsAt1 V c ((⟨n + 1, h⟩ : Fin cfg1.N).val - 1) (Nat.lt_of_le_of_lt (Nat.sub_le _ _) (⟨n + 1, h⟩ : Fin cfg1.N).isLt)).2).trans ?_
    show k1_pay2 (pre V c ⟨n + 1, h⟩) (outsAt1 V c n _).2 = _
    rw [outs10_eq n]
    funext j
    refine (step V c ⟨n + 1, h⟩ _ j).trans ?_
    unfold part
    by_cases hj : (j 0).val = 0
    · rw [if_pos hj, if_pos hj, if_pos hj, Finset.sum_range_succ _ (n + 1)]
    · rw [if_neg hj, if_neg hj, if_neg hj, Finset.sum_range_succ _ (n + 1)]

/-- A sum over the 65536 rows is the sum over the 32 tiles of the sums over each tile's 2048 rows. -/
theorem sum_tiles (g : Fin 65536 → EReal) :
    ∑ s ∈ Finset.range 32, (if h : s < cfg1.N then ∑ r : Fin 2048, g (rowIx ⟨s, h⟩ r) else 0) = ∑ p : Fin 65536, g p := by
  rw [Finset.sum_range]
  have e : ∀ i : Fin 32, (if h : i.val < cfg1.N then ∑ r : Fin 2048, g (rowIx ⟨i.val, h⟩ r) else 0)
      = ∑ r : Fin 2048, g (finProdFinEquiv (i, r)) := fun i => by
    rw [dif_pos (by rw [N1]; exact i.isLt)]
    refine Finset.sum_congr rfl fun r _ => congrArg g (Fin.ext ?_)
    show i.val * 2048 + r.val = r.val + 2048 * i.val
    omega
  rw [Fintype.sum_congr _ _ e, ← Fintype.sum_prod_type (fun x : Fin 32 × Fin 2048 => g (finProdFinEquiv x))]
  exact Fintype.sum_equiv finProdFinEquiv _ _ fun _ => rfl

/-- After the last point the carried block holds the column sums and column sums of squares of all the activations. -/
theorem part_last : part V c 31 = Spec.stats (act V c) := by
  funext j
  unfold part Spec.stats
  by_cases hj : (j 0).val = 0
  · rw [if_pos hj, if_pos hj]
    exact sum_tiles (fun p => act V c (ix2 p (j 1)))
  · rw [if_neg hj, if_neg hj]
    exact sum_tiles (fun p => act V c (ix2 p (j 1)) * act V c (ix2 p (j 1)))

/-- The one write-back of the second output, at the last point, writes the statistics of all the activations. -/
theorem flushed10 (t : Fin cfg1.N) (hf : (cfg1.win 10).flush t = true) :
    (dat1 (F := Ideal) V c).flushed 10 t = ((cfg1.win 10).blk t).view.read (Elt Ideal) (Spec.stats (act V c)) := by
  have h31 : t.val = 31 := by have := (flush1_10 t).mp hf; have := t.isLt; have := N1; omega
  show (cfg1.win 10).cut (grid1.coords t) ((dat1 V c).after 10 t) = _
  rw [after1_10, outs10_eq, h31, part_last]
  funext y
  obtain ⟨a, q, rfl⟩ : ∃ (a : Fin 2) (q : Fin 100), y = ix2 a q := ⟨y 0, y 1, eq_ix2 y⟩
  rw [View.read_apply]
  show Spec.stats (act V c) (ix2 a q) = Spec.stats (act V c) _
  refine congrArg (Spec.stats (act V c)) ?_
  funext b
  apply Fin.ext
  match b with
  | ⟨0, _⟩ => show a.val = win1_10.index t 0 * 2 + 1 * a.val; rw [(idx_10 t).1]; omega
  | ⟨1, _⟩ => show q.val = win1_10.index t 1 * 100 + 1 * q.val; rw [(idx_10 t).2]; omega

end Stats

/-- After the second region its first output array holds the second layer's activations. -/
theorem h2_eq : ((dat1 (F := Ideal) V c).arrAt 9 cfg1.N : Spec.Mat 65536 100) = act V c :=
  (dat1 (F := Ideal) V c).arrAt_eq_of_cover 9 (act V c) (flushed9 V c) fun i => by
    have h0 : (i 0 : Nat) < 65536 := (i 0).isLt
    have h1 : (i 1 : Nat) < 100 := (i 1).isLt
    have hT : (i 0 : Nat) / 2048 < cfg1.N := by rw [N1]; omega
    refine ⟨⟨(i 0 : Nat) / 2048, hT⟩, flush1_9 _, ?_⟩
    show i ∈ ((View.whole main_v20_0).slice (win1_9.rect ⟨(i 0 : Nat) / 2048, hT⟩)).set
    rw [View.set_slice_whole, Rect.mem_set_unit]
    intro a
    match a with
    | ⟨0, _⟩ =>
      show win1_9.index ⟨(i 0 : Nat) / 2048, hT⟩ 0 * 2048 ≤ (i 0 : Nat)
        ∧ (i 0 : Nat) < win1_9.index ⟨(i 0 : Nat) / 2048, hT⟩ 0 * 2048 + 2048
      rw [(idx_9 ⟨(i 0 : Nat) / 2048, hT⟩).1]
      dsimp only
      omega
    | ⟨1, _⟩ =>
      show win1_9.index ⟨(i 0 : Nat) / 2048, hT⟩ 1 * 100 ≤ (i 1 : Nat)
        ∧ (i 1 : Nat) < win1_9.index ⟨(i 0 : Nat) / 2048, hT⟩ 1 * 100 + 100
      rw [(idx_9 ⟨(i 0 : Nat) / 2048, hT⟩).2]
      omega

/-- After the second region its second output array holds the activations' column sums and column sums of squares. -/
theorem st2_eq : ((dat1 (F := Ideal) V c).arrAt 10 cfg1.N : Spec.Mat 2 100) = Spec.stats (act V c) :=
  (dat1 (F := Ideal) V c).arrAt_eq_of_cover 10 (Spec.stats (act V c)) (flushed10 V c) fun i => by
    have h0 : (i 0 : Nat) < 2 := (i 0).isLt
    have h1 : (i 1 : Nat) < 100 := (i 1).isLt
    have hT : 31 < cfg1.N := by rw [N1]; decide
    refine ⟨⟨31, hT⟩, (flush1_10 _).mpr rfl, ?_⟩
    show i ∈ ((View.whole main_v20_1).slice (win1_10.rect ⟨31, hT⟩)).set
    rw [View.set_slice_whole, Rect.mem_set_unit]
    intro a
    match a with
    | ⟨0, _⟩ =>
      show win1_10.index ⟨31, hT⟩ 0 * 2 ≤ (i 0 : Nat) ∧ (i 0 : Nat) < win1_10.index ⟨31, hT⟩ 0 * 2 + 2
      rw [(idx_10 ⟨31, hT⟩).1]
      omega
    | ⟨1, _⟩ =>
      show win1_10.index ⟨31, hT⟩ 1 * 100 ≤ (i 1 : Nat) ∧ (i 1 : Nat) < win1_10.index ⟨31, hT⟩ 1 * 100 + 100
      rw [(idx_10 ⟨31, hT⟩).2]
      omega

end Cert.KernelIdeal.R1

end
-- ==== Proof.R2Value.lean ====
import proofs.«142257_j38500086842157_1_alg».proof.Proof.Gen.KernelIdeal.Frame
import proofs.«142257_j38500086842157_1_alg».proof.Proof.Spec
import proofs.«142257_j38500086842157_1_alg».proof.Proof.LibDotNT
import Idealize.ShloMosaic.Lib.ValueLayout
set_option maxRecDepth 16384

noncomputable section

open scoped BigOperators

namespace Cert.KernelIdeal.R2

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b)) (c : Dev nD)

/-- The normalised, scaled, shifted and noised second-layer activations, as the third region finds its arrays. -/
abbrev inp (V : (c : Dev nD) → (b : Ref sig .tc) → Buf (Elt Ideal) ((c : Thread nD τ).loc b)) (c : Dev nD) : Spec.Mat 65536 100 :=
  Spec.noisy (V c main_v20_0) (Spec.rowOf (V c main_v31)) (Spec.rowOf (V c main_v32)) (Spec.rowOf (V c main_v4))
    (Spec.rowOf (V c main_v5)) (V c main_arg11) (V c main_arg12)

/-- The pair of zero offsets, however it is spelt. -/
theorem zeros2 : (![0, 0] : Fin 2 → Nat) = fun _ => 0 :=
  funext fun a => by match a with | ⟨0, _⟩ => rfl | ⟨1, _⟩ => rfl

/-- The body's stored value at row p and column q of a batch tile: the tile's rows normalised with the column mean
    and variance, scaled, shifted and noised, then multiplied into the transposed third weight matrix, plus the bias. -/
theorem pay_apply (h s m : Vec Ideal S2048x100 .f32) (va g mu be : Vec Ideal S1x100 .f32) (W : Vec Ideal S10x100 .f32)
    (b : Vec Ideal S1x10 .f32) (p : Fin 2048) (q : Fin 10) :
    k2_pay1 h va g mu be s m W b (ix2 p q)
      = (∑ k : Fin 100, (s (ix2 p k) * (g (ix2 (0 : Fin 1) k) * (h (ix2 p k) - mu (ix2 (0 : Fin 1) k))
            * Ideal.rsqrt (va (ix2 (0 : Fin 1) k) + Spec.eps) + be (ix2 (0 : Fin 1) k)) + m (ix2 p k)) * W (ix2 q k))
        + b (ix2 (0 : Fin 1) q) := by
  unfold k2_pay1
  simp only [shapeCast_self]
  rw [addf_apply, broadcastTo_1b_ab_apply]
  rw [Cert.LibDotNT.matmul_zero_ix2_nt dot_S2048x100_S10x100_S2048x10_1_1_0_0_n_n (by decide) (by decide) rfl rfl rfl rfl rfl rfl]
  congr 1
  refine Finset.sum_congr rfl fun k _ => ?_
  rw [truncf_apply, truncf_apply, addf_apply, mulf_apply, addf_apply, mulf_apply, mulf_apply, subf_apply,
    broadcastTo_1b_ab_apply, broadcastTo_1b_ab_apply, broadcastTo_1b_ab_apply, broadcastTo_1b_ab_apply]
  rfl

/-- The third layer's values as one function of the arrays the region finds. -/
abbrev out (V : (c : Dev nD) → (b : Ref sig .tc) → Buf (Elt Ideal) ((c : Thread nD τ).loc b)) (c : Dev nD) : Spec.Mat 65536 10 :=
  Spec.dense (inp V c) (V c main_arg13) (Spec.rowOf (V c main_v6))

/-- The grid has 32 points. -/
theorem npts : cfg2.N = 32 := N_2

/-- Where the index maps send grid point t: the three batch-tiled inputs and the output sit on tile t of the rows
    and on the only tile of the columns; the six whole-array inputs sit on their only tile. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row p of tile t is row 2048 t + p of the batch. -/
def row (t : Fin cfg2.N) (p : Fin 2048) : Fin 65536 :=
  ⟨2048 * t.val + p.val, by have h1 : t.val < 32 := lt_of_lt_of_eq t.isLt npts; have h2 := p.isLt; omega⟩

theorem row_val (t : Fin cfg2.N) (p : Fin 2048) : (row t p).val = 2048 * t.val + p.val := rfl

/-- The tile of the second-layer activations at point t. -/
theorem blk_h (t : Fin cfg2.N) (p : Fin 2048) (k : Fin 100) :
    (iblk2 V c 0 t : Vec Ideal S2048x100 .f32) (ix2 p k) = (V c main_v20_0 : Spec.Mat 65536 100) (ix2 (row t p) k) := by
  obtain ⟨e0, e1, -⟩ := idx_facts t
  show V c main_v20_0 (((cfg2.win 0).blk t).view.emb (ix2 p k)) = V c main_v20_0 (ix2 (row t p) k)
  refine congrArg _ (funext fun a => Fin.ext ?_)
  match a with
  | ⟨0, _⟩ => show win2_0.index t (0 : Fin 2) * 2048 + 1 * p.val = 2048 * t.val + p.val; rw [e0]; omega
  | ⟨1, _⟩ => show win2_0.index t (1 : Fin 2) * 100 + 1 * k.val = k.val; rw [e1]; omega

/-- The tile of the noise scale at point t. -/
theorem blk_s (t : Fin cfg2.N) (p : Fin 2048) (k : Fin 100) :
    (iblk2 V c 1 t : Vec Ideal S2048x100 .f32) (ix2 p k) = (V c main_arg11 : Spec.Mat 65536 100) (ix2 (row t p) k) := by
  obtain ⟨-, -, e0, e1, -⟩ := idx_facts t
  show V c main_arg11 (((cfg2.win 1).blk t).view.emb (ix2 p k)) = V c main_arg11 (ix2 (row t p) k)
  refine congrArg _ (funext fun a => Fin.ext ?_)
  match a with
  | ⟨0, _⟩ => show win2_1.index t (0 : Fin 2) * 2048 + 1 * p.val = 2048 * t.val + p.val; rw [e0]; omega
  | ⟨1, _⟩ => show win2_1.index t (1 : Fin 2) * 100 + 1 * k.val = k.val; rw [e1]; omega

/-- The tile of the noise offset at point t. -/
theorem blk_m (t : Fin cfg2.N) (p : Fin 2048) (k : Fin 100) :
    (iblk2 V c 2 t : Vec Ideal S2048x100 .f32) (ix2 p k) = (V c main_arg12 : Spec.Mat 65536 100) (ix2 (row t p) k) := by
  obtain ⟨-, -, -, -, e0, e1, -⟩ := idx_facts t
  show V c main_arg12 (((cfg2.win 2).blk t).view.emb (ix2 p k)) = V c main_arg12 (ix2 (row t p) k)
  refine congrArg _ (funext fun a => Fin.ext ?_)
  match a with
  | ⟨0, _⟩ => show win2_2.index t (0 : Fin 2) * 2048 + 1 * p.val = 2048 * t.val + p.val; rw [e0]; omega
  | ⟨1, _⟩ => show win2_2.index t (1 : Fin 2) * 100 + 1 * k.val = k.val; rw [e1]; omega

/-- The column means, whole at every point. -/
theorem blk_mean (t : Fin cfg2.N) (x : Fin 1) (k : Fin 100) :
    (iblk2 V c 3 t : Vec Ideal S1x100 .f32) (ix2 x k) = (V c main_v31 : Spec.Mat 1 100) (ix2 x k) := by
  obtain ⟨-, -, -, -, -, -, e0, e1, -⟩ := idx_facts t
  show V c main_v31 (((cfg2.win 3).blk t).view.emb (ix2 x k)) = V c main_v31 (ix2 x k)
  refine congrArg _ (funext fun a => Fin.ext ?_)
  match a with
  | ⟨0, _⟩ => show win2_3.index t (0 : Fin 2) * 1 + 1 * x.val = x.val; rw [e0]; omega
  | ⟨1, _⟩ => show win2_3.index t (1 : Fin 2) * 100 + 1 * k.val = k.val; rw [e1]; omega

/-- The column variances, whole at every point. -/
theorem blk_var (t : Fin cfg2.N) (x : Fin 1) (k : Fin 100) :
    (iblk2 V c 4 t : Vec Ideal S1x100 .f32) (ix2 x k) = (V c main_v32 : Spec.Mat 1 100) (ix2 x k) := by
  obtain ⟨-, -, -, -, -, -, -, -, e0, e1, -⟩ := idx_facts t
  show V c main_v32 (((cfg2.win 4).blk t).view.emb (ix2 x k)) = V c main_v32 (ix2 x k)
  refine congrArg _ (funext fun a => Fin.ext ?_)
  match a with
  | ⟨0, _⟩ => show win2_4.index t (0 : Fin 2) * 1 + 1 * x.val = x.val; rw [e0]; omega
  | ⟨1, _⟩ => show win2_4.index t (1 : Fin 2) * 100 + 1 * k.val = k.val; rw [e1]; omega

/-- The gains, whole at every point. -/
theorem blk_g (t : Fin cfg2.N) (x : Fin 1) (k : Fin 100) :
    (iblk2 V c 5 t : Vec Ideal S1x100 .f32) (ix2 x k) = (V c main_v4 : Spec.Mat 1 100) (ix2 x k) := by
  obtain ⟨-, -, -, -, -, -, -, -, -, -, e0, e1, -⟩ := idx_facts t
  show V c main_v4 (((cfg2.win 5).blk t).view.emb (ix2 x k)) = V c main_v4 (ix2 x k)
  refine congrArg _ (funext fun a => Fin.ext ?_)
  match a with
  | ⟨0, _⟩ => show win2_5.index t (0 : Fin 2) * 1 + 1 * x.val = x.val; rw [e0]; omega
  | ⟨1, _⟩ => show win2_5.index t (1 : Fin 2) * 100 + 1 * k.val = k.val; rw [e1]; omega

/-- The shifts, whole at every point. -/
theorem blk_be (t : Fin cfg2.N) (x : Fin 1) (k : Fin 100) :
    (iblk2 V c 6 t : Vec Ideal S1x100 .f32) (ix2 x k) = (V c main_v5 : Spec.Mat 1 100) (ix2 x k) := by
  obtain ⟨-, -, -, -, -, -, -, -, -, -, -, -, e0, e1, -⟩ := idx_facts t
  show V c main_v5 (((cfg2.win 6).blk t).view.emb (ix2 x k)) = V c main_v5 (ix2 x k)
  refine congrArg _ (funext fun a => Fin.ext ?_)
  match a with
  | ⟨0, _⟩ => show win2_6.index t (0 : Fin 2) * 1 + 1 * x.val = x.val; rw [e0]; omega
  | ⟨1, _⟩ => show win2_6.index t (1 : Fin 2) * 100 + 1 * k.val = k.val; rw [e1]; omega

/-- The third weight matrix, whole at every point. -/
theorem blk_W (t : Fin cfg2.N) (q : Fin 10) (k : Fin 100) :
    (iblk2 V c 7 t : Vec Ideal S10x100 .f32) (ix2 q k) = (V c main_arg13 : Spec.Mat 10 100) (ix2 q k) := by
  obtain ⟨-, -, -, -, -, -, -, -, -, -, -, -, -, -, e0, e1, -⟩ := idx_facts t
  show V c main_arg13 (((cfg2.win 7).blk t).view.emb (ix2 q k)) = V c main_arg13 (ix2 q k)
  refine congrArg _ (funext fun a => Fin.ext ?_)
  match a with
  | ⟨0, _⟩ => show win2_7.index t (0 : Fin 2) * 10 + 1 * q.val = q.val; rw [e0]; omega
  | ⟨1, _⟩ => show win2_7.index t (1 : Fin 2) * 100 + 1 * k.val = k.val; rw [e1]; omega

/-- The third bias, whole at every point. -/
theorem blk_b (t : Fin cfg2.N) (x : Fin 1) (q : Fin 10) :
    (iblk2 V c 8 t : Vec Ideal S1x10 .f32) (ix2 x q) = (V c main_v6 : Spec.Mat 1 10) (ix2 x q) := by
  obtain ⟨-, -, -, -, -, -, -, -, -, -, -, -, -, -, -, -, e0, e1, -⟩ := idx_facts t
  show V c main_v6 (((cfg2.win 8).blk t).view.emb (ix2 x q)) = V c main_v6 (ix2 x q)
  refine congrArg _ (funext fun a => Fin.ext ?_)
  match a with
  | ⟨0, _⟩ => show win2_8.index t (0 : Fin 2) * 1 + 1 * x.val = x.val; rw [e0]; omega
  | ⟨1, _⟩ => show win2_8.index t (1 : Fin 2) * 10 + 1 * q.val = q.val; rw [e1]; omega

/-- What grid point t writes back is tile t of the third layer's values. -/
theorem flushed_eq (t : Fin cfg2.N) :
    (dat2 (F := Ideal) V c).flushed 9 t = ((cfg2.win 9).blk t).view.read (Elt Ideal) (out V c) := by
  show (cfg2.win 9).cut (grid2.coords t) ((dat2 V c).after 9 t) = _
  rw [after2_9]
  unfold out2_9
  rw [View.canon_unit_zero zeros2]
  simp only [View.ld_unit_zero (S := S2048x100) zeros2, View.ld_unit_zero (S := S1x100) zeros2,
    View.ld_unit_zero (S := S10x100) zeros2, View.ld_unit_zero (S := S1x10) zeros2]
  funext j
  obtain ⟨p, q, rfl⟩ : ∃ (p : Fin 2048) (q : Fin 10), j = ix2 p q := ⟨j 0, j 1, eq_ix2 j⟩
  show k2_pay1 (F := Ideal) _ _ _ _ _ _ _ _ _ (ix2 p q) = out V c (((cfg2.win 9).blk t).view.emb (ix2 p q))
  rw [pay_apply]
  have he : ((cfg2.win 9).blk t).view.emb (ix2 p q) = (ix2 (row t p) q : S65536x10.Idx) := by
    obtain ⟨-, -, -, -, -, -, -, -, -, -, -, -, -, -, -, -, -, -, e0, e1⟩ := idx_facts t
    refine funext fun a => Fin.ext ?_
    match a with
    | ⟨0, _⟩ => show win2_9.index t (0 : Fin 2) * 2048 + 1 * p.val = 2048 * t.val + p.val; rw [e0]; omega
    | ⟨1, _⟩ => show win2_9.index t (1 : Fin 2) * 10 + 1 * q.val = q.val; rw [e1]; omega
  rw [he]
  simp only [blk_h, blk_s, blk_m, blk_mean, blk_var, blk_g, blk_be, blk_W, blk_b]
  rfl

/-- An index of the output array lies in point t's tile exactly when each coordinate lies in the tile's range. -/
theorem mem_blk (t : Fin cfg2.N) (i : S65536x10.Idx) :
    i ∈ ((cfg2.win 9).blk t).view.set ↔ ∀ a : Fin 2, win2_9.index t a * S2048x10.size a ≤ (i a).val
      ∧ (i a).val < win2_9.index t a * S2048x10.size a + S2048x10.size a := by
  show i ∈ ((View.whole main_v33).slice (win2_9.rect t)).set ↔ _
  rw [View.set_slice_whole, Rect.mem_set_unit]
  exact Iff.rfl

/-- Every row r of the output lies in the tile of point r / 2048, which is written back. -/
theorem cover (i : S65536x10.Idx) :
    ∃ t : Fin cfg2.N, (cfg2.win 9).flush t = true ∧ i ∈ ((cfg2.win 9).blk t).view.set := by
  have hi0 : (i 0).val < 65536 := (i 0).isLt
  have hi1 : (i 1).val < 10 := (i 1).isLt
  obtain ⟨t, ht⟩ : ∃ t : Fin cfg2.N, t.val = (i 0).val / 2048 := ⟨⟨(i 0).val / 2048, by rw [npts]; omega⟩, rfl⟩
  obtain ⟨-, -, -, -, -, -, -, -, -, -, -, -, -, -, -, -, -, -, e0, e1⟩ := idx_facts t
  refine ⟨t, flush2_9 t, ?_⟩
  rw [mem_blk]
  intro a
  match a with
  | ⟨0, _⟩ =>
    show win2_9.index t (0 : Fin 2) * 2048 ≤ (i 0).val ∧ (i 0).val < win2_9.index t (0 : Fin 2) * 2048 + 2048
    rw [e0, ht]; omega
  | ⟨1, _⟩ =>
    show win2_9.index t (1 : Fin 2) * 10 ≤ (i 1).val ∧ (i 1).val < win2_9.index t (1 : Fin 2) * 10 + 10
    rw [e1]; omega

/-- After the third region its output array holds the third layer's values. -/
theorem out_eq : ((dat2 (F := Ideal) V c).arrAt 9 cfg2.N : Spec.Mat 65536 10)
    = Spec.dense (inp V c) (V c main_arg13) (Spec.rowOf (V c main_v6)) :=
  (dat2 V c).arrAt_eq_of_cover 9 (out V c) (fun t _ => flushed_eq V c t) cover

end Cert.KernelIdeal.R2

end
-- ==== Proof.Glue01.lean ====
import proofs.«142257_j38500086842157_1_alg».proof.Proof.Gen.KernelIdeal.Frame
import proofs.«142257_j38500086842157_1_alg».proof.Proof.Spec
import Idealize.ShloMosaic.Lib.ValueLayout
import Idealize.ShloMosaic.Lib.Pipeline.Value

set_option maxRecDepth 16384

noncomputable section

open scoped BigOperators

namespace Cert.KernelIdeal.Glue

open Cert.KernelIdeal Cert.KernelIdeal.Gen Idealize.ShloMosaic Idealize.ShloMosaic.TcCoe Idealize.SL.Sem Idealize.ShloMosaic.ValueIdx

/-! ## Rows read through the host's layout operations -/

/-- A length-n row cast to a [1, n] array and read back as a row is the row. -/
theorem rowOf_cast {n : ℕ} (x : Spec.Row n) (h : (⟨1, ![n]⟩ : Shape).ShapeCasts ⟨2, ![1, n]⟩) :
    Spec.rowOf (shapeCast ⟨2, ![1, n]⟩ x h) = x := by
  funext j
  obtain ⟨i, rfl⟩ : ∃ i : Fin n, j = ix1 i := ⟨j 0, eq_ix1 j⟩
  exact shapeCast_a_1a_apply x h 0 i

/-- Row r of a [2, n] array, cut out as a [1, n] array and flattened, reads at j the array at (r, j). -/
theorem cutRow_apply {n : ℕ} (r : ℕ) (st : Spec.Mat 2 n)
    (hs : (⟨2, ![2, n]⟩ : Shape).Slices ![r, 0] ⟨2, ![1, n]⟩) (hc : (⟨2, ![1, n]⟩ : Shape).ShapeCasts ⟨1, ![n]⟩)
    (k : Fin 2) (hk : k.val = r) (j : (⟨1, ![n]⟩ : Shape).Idx) :
    shapeCast ⟨1, ![n]⟩ (extractStridedSlice ⟨2, ![1, n]⟩ ![r, 0] st hs) hc j = st (ix2 k (j 0)) := by
  obtain ⟨i, rfl⟩ : ∃ i : Fin n, j = ix1 i := ⟨j 0, eq_ix1 j⟩
  rw [shapeCast_1a_a_apply, slice2_axis0_apply r st hs 0 i k (by rw [hk]; rfl)]
  rfl

/-- The batch size spread over a row reads the batch size everywhere. -/
theorem spreadB_apply {n : ℕ} (hb : (⟨0, ![]⟩ : Shape).BroadcastsInDim ⟨1, ![n]⟩ ![]) (j : (⟨1, ![n]⟩ : Shape).Idx) :
    broadcastInDim ⟨1, ![n]⟩ ![] hb (constant (F := Ideal) ⟨0, ![]⟩ .f32 0x47800000#32) j = Spec.cB :=
  broadcastInDim_apply _ hb _ j ix0 (fun a => a.elim0)

/-- The quotient of row 0 by the batch size is the mean read off the two-row array. -/
theorem meanS_read {n : ℕ} (st : Spec.Mat 2 n)
    (hs0 : (⟨2, ![2, n]⟩ : Shape).Slices ![0, 0] ⟨2, ![1, n]⟩) (hc : (⟨2, ![1, n]⟩ : Shape).ShapeCasts ⟨1, ![n]⟩)
    (hb : (⟨0, ![]⟩ : Shape).BroadcastsInDim ⟨1, ![n]⟩ ![]) :
    (Host.divf (F := Ideal) (φ := .f32) (shapeCast ⟨1, ![n]⟩ (extractStridedSlice ⟨2, ![1, n]⟩ ![0, 0] st hs0) hc)
      (broadcastInDim ⟨1, ![n]⟩ ![] hb (constant (F := Ideal) ⟨0, ![]⟩ .f32 0x47800000#32)) : Spec.Row n) = Spec.meanS st := by
  funext j
  show Ideal.div _ _ = Ideal.div _ _
  rw [cutRow_apply 0 st hs0 hc 0 rfl j, spreadB_apply hb j]

/-- The quotient of row 1 by the batch size, less the square of the mean, is the variance read off the two-row array. -/
theorem varS_read {n : ℕ} (st : Spec.Mat 2 n)
    (hs0 : (⟨2, ![2, n]⟩ : Shape).Slices ![0, 0] ⟨2, ![1, n]⟩) (hs1 : (⟨2, ![2, n]⟩ : Shape).Slices ![1, 0] ⟨2, ![1, n]⟩)
    (hc : (⟨2, ![1, n]⟩ : Shape).ShapeCasts ⟨1, ![n]⟩) (hb : (⟨0, ![]⟩ : Shape).BroadcastsInDim ⟨1, ![n]⟩ ![])
    (μ : Spec.Row n) (hμ : μ = Spec.meanS st) :
    (subf (F := Ideal) (φ := .f32)
      (Host.divf (F := Ideal) (φ := .f32) (shapeCast ⟨1, ![n]⟩ (extractStridedSlice ⟨2, ![1, n]⟩ ![1, 0] st hs1) hc)
        (broadcastInDim ⟨1, ![n]⟩ ![] hb (constant (F := Ideal) ⟨0, ![]⟩ .f32 0x47800000#32)))
      (mulf (F := Ideal) (φ := .f32) μ μ) : Spec.Row n) = Spec.varS st := by
  subst hμ
  funext j
  show Ideal.div _ _ - _ * _ = Ideal.div _ _ - _ * _
  rw [cutRow_apply 1 st hs1 hc 1 rfl j, spreadB_apply hb j]

variable (m : (ℓ : Loc nD τ sig) → Buf (Elt Ideal) ℓ) (ρ : Dev nD → PrngReg) (c : Dev nD)

/-- Closes "the buffer holds after the stretch what it held before": no operation of the stretch writes it. -/
local macro "unwritten" : tactic => `(tactic| (
  refine StableHlo.after_of_forall_not_mem _ _ (List.forall_iff_forall_mem.mp ?_)
  simp only [hostOps0, hostOps1, List.Forall, StableHlo.nullary_writes, StableHlo.unary_writes, StableHlo.binary_writes,
    StableHlo.reshape_writes, Finset.mem_singleton]
  repeat' apply And.intro
  all_goals exact StableHlo.devRef_ne_of_ne (by decide)))

/-! ## What the first region finds: the launch memory, the first bias as a [1, 300] array -/

theorem e0_x : (V1 m ρ c main_arg0 : Spec.Mat 65536 784) = m ((c.tc : Thread nD τ).loc main_arg0) :=
  calc W1 m ρ c (Proc.devRef .tc main_arg0)
    _ = W0 m ρ c (Proc.devRef .tc main_arg0) := by unwritten
    _ = m ((c.tc : Thread nD τ).loc main_arg0) := rfl
theorem e0_W1 : (V1 m ρ c main_arg1 : Spec.Mat 300 784) = m ((c.tc : Thread nD τ).loc main_arg1) :=
  calc W1 m ρ c (Proc.devRef .tc main_arg1)
    _ = W0 m ρ c (Proc.devRef .tc main_arg1) := by unwritten
    _ = m ((c.tc : Thread nD τ).loc main_arg1) := rfl
theorem e0_b1 : Spec.rowOf (V1 m ρ c main_v0) = (m ((c.tc : Thread nD τ).loc main_arg2) : Spec.Row 300) := by
  have e : (V1 m ρ c main_v0 : Spec.Mat 1 300)
      = shapeCast S1x300 (m ((c.tc : Thread nD τ).loc main_arg2) : Spec.Row 300) shapeCasts_S300_S1x300 := by
    dsimp only [V1, W1, hostOps0]; after_results; rfl
  rw [e]; exact rowOf_cast _ _

/-! ## What the second region finds: the first region's two outputs (the statistics through the host's slices,
    quotients, product and difference), the launch memory elsewhere -/

theorem e1_h1 : (V3 m ρ c main_v7_0 : Spec.Mat 65536 300) = V2 m ρ c main_v7_0 :=
  calc W3 m ρ c (Proc.devRef .tc main_v7_0)
    _ = W2 m ρ c (Proc.devRef .tc main_v7_0) := by unwritten
theorem e1_s1 : (V3 m ρ c main_arg5 : Spec.Mat 65536 300) = m ((c.tc : Thread nD τ).loc main_arg5) :=
  calc W3 m ρ c (Proc.devRef .tc main_arg5)
    _ = W2 m ρ c (Proc.devRef .tc main_arg5) := by unwritten
    _ = W1 m ρ c (Proc.devRef .tc main_arg5) := W2_of_ne m ρ c main_arg5 (by decide)
    _ = W0 m ρ c (Proc.devRef .tc main_arg5) := by unwritten
    _ = m ((c.tc : Thread nD τ).loc main_arg5) := rfl
theorem e1_m1 : (V3 m ρ c main_arg6 : Spec.Mat 65536 300) = m ((c.tc : Thread nD τ).loc main_arg6) :=
  calc W3 m ρ c (Proc.devRef .tc main_arg6)
    _ = W2 m ρ c (Proc.devRef .tc main_arg6) := by unwritten
    _ = W1 m ρ c (Proc.devRef .tc main_arg6) := W2_of_ne m ρ c main_arg6 (by decide)
    _ = W0 m ρ c (Proc.devRef .tc main_arg6) := by unwritten
    _ = m ((c.tc : Thread nD τ).loc main_arg6) := rfl

theorem e1_mean : Spec.rowOf (V3 m ρ c main_v18) = Spec.meanS (V2 m ρ c main_v7_1) := by
  have e : (V3 m ρ c main_v18 : Spec.Mat 1 300)
      = shapeCast S1x300 (Host.divf (F := Ideal) (φ := .f32)
          (shapeCast S300 (extractStridedSlice S1x300 ![0, 0] (V2 m ρ c main_v7_1 : Spec.Mat 2 300) slices_S2x300_S1x300_0_0) shapeCasts_S1x300_S300)
          (broadcastInDim S300 ![] bcast_S_S300 (constant (F := Ideal) S_ .f32 0x47800000#32))) shapeCasts_S300_S1x300 := by
    dsimp only [V3, W3, hostOps1]; after_results; rfl
  rw [e, rowOf_cast]; exact meanS_read _ _ _ _

theorem e1_var : Spec.rowOf (V3 m ρ c main_v19) = Spec.varS (V2 m ρ c main_v7_1) := by
  have e : (V3 m ρ c main_v19 : Spec.Mat 1 300)
      = shapeCast S1x300 (subf (F := Ideal) (φ := .f32)
          (Host.divf (F := Ideal) (φ := .f32)
            (shapeCast S300 (extractStridedSlice S1x300 ![1, 0] (V2 m ρ c main_v7_1 : Spec.Mat 2 300) slices_S2x300_S1x300_1_0) shapeCasts_S1x300_S300)
            (broadcastInDim S300 ![] bcast_S_S300 (constant (F := Ideal) S_ .f32 0x47800000#32)))
          (mulf (F := Ideal) (φ := .f32)
            (Host.divf (F := Ideal) (φ := .f32)
              (shapeCast S300 (extractStridedSlice S1x300 ![0, 0] (V2 m ρ c main_v7_1 : Spec.Mat 2 300) slices_S2x300_S1x300_0_0) shapeCasts_S1x300_S300)
              (broadcastInDim S300 ![] bcast_S_S300 (constant (F := Ideal) S_ .f32 0x47800000#32)))
            (Host.divf (F := Ideal) (φ := .f32)
              (shapeCast S300 (extractStridedSlice S1x300 ![0, 0] (V2 m ρ c main_v7_1 : Spec.Mat 2 300) slices_S2x300_S1x300_0_0) shapeCasts_S1x300_S300)
              (broadcastInDim S300 ![] bcast_S_S300 (constant (F := Ideal) S_ .f32 0x47800000#32))))) shapeCasts_S300_S1x300 := by
    dsimp only [V3, W3, hostOps1]; after_results; rfl
  rw [e, rowOf_cast]
  exact varS_read _ slices_S2x300_S1x300_0_0 _ _ _ _ (meanS_read _ _ _ _)

theorem e1_g1 : Spec.rowOf (V3 m ρ c main_v1) = (m ((c.tc : Thread nD τ).loc main_arg3) : Spec.Row 300) := by
  have e : (V3 m ρ c main_v1 : Spec.Mat 1 300)
      = shapeCast S1x300 (m ((c.tc : Thread nD τ).loc main_arg3) : Spec.Row 300) shapeCasts_S300_S1x300 :=
    calc W3 m ρ c (Proc.devRef .tc main_v1)
      _ = W2 m ρ c (Proc.devRef .tc main_v1) := by unwritten
      _ = W1 m ρ c (Proc.devRef .tc main_v1) := W2_of_ne m ρ c main_v1 (by decide)
      _ = shapeCast S1x300 (m ((c.tc : Thread nD τ).loc main_arg3) : Spec.Row 300) shapeCasts_S300_S1x300 := by
        dsimp only [W1, hostOps0]; after_results; rfl
  rw [e]; exact rowOf_cast _ _
theorem e1_be1 : Spec.rowOf (V3 m ρ c main_v2) = (m ((c.tc : Thread nD τ).loc main_arg4) : Spec.Row 300) := by
  have e : (V3 m ρ c main_v2 : Spec.Mat 1 300)
      = shapeCast S1x300 (m ((c.tc : Thread nD τ).loc main_arg4) : Spec.Row 300) shapeCasts_S300_S1x300 :=
    calc W3 m ρ c (Proc.devRef .tc main_v2)
      _ = W2 m ρ c (Proc.devRef .tc main_v2) := by unwritten
      _ = W1 m ρ c (Proc.devRef .tc main_v2) := W2_of_ne m ρ c main_v2 (by decide)
      _ = shapeCast S1x300 (m ((c.tc : Thread nD τ).loc main_arg4) : Spec.Row 300) shapeCasts_S300_S1x300 := by
        dsimp only [W1, hostOps0]; after_results; rfl
  rw [e]; exact rowOf_cast _ _
theorem e1_W2 : (V3 m ρ c main_arg7 : Spec.Mat 100 300) = m ((c.tc : Thread nD τ).loc main_arg7) :=
  calc W3 m ρ c (Proc.devRef .tc main_arg7)
    _ = W2 m ρ c (Proc.devRef .tc main_arg7) := by unwritten
    _ = W1 m ρ c (Proc.devRef .tc main_arg7) := W2_of_ne m ρ c main_arg7 (by decide)
    _ = W0 m ρ c (Proc.devRef .tc main_arg7) := by unwritten
    _ = m ((c.tc : Thread nD τ).loc main_arg7) := rfl
theorem e1_b2 : Spec.rowOf (V3 m ρ c main_v3) = (m ((c.tc : Thread nD τ).loc main_arg8) : Spec.Row 100) := by
  have e : (V3 m ρ c main_v3 : Spec.Mat 1 100)
      = shapeCast S1x100 (m ((c.tc : Thread nD τ).loc main_arg8) : Spec.Row 100) shapeCasts_S100_S1x100 :=
    calc W3 m ρ c (Proc.devRef .tc main_v3)
      _ = W2 m ρ c (Proc.devRef .tc main_v3) := by unwritten
      _ = W1 m ρ c (Proc.devRef .tc main_v3) := W2_of_ne m ρ c main_v3 (by decide)
      _ = shapeCast S1x100 (m ((c.tc : Thread nD τ).loc main_arg8) : Spec.Row 100) shapeCasts_S100_S1x100 := by
        dsimp only [W1, hostOps0]; after_results; rfl
  rw [e]; exact rowOf_cast _ _

end Cert.KernelIdeal.Glue

end
-- ==== Proof.Glue2.lean ====
import proofs.«142257_j38500086842157_1_alg».proof.Proof.Gen.KernelIdeal.Frame
import proofs.«142257_j38500086842157_1_alg».proof.Proof.Spec
import proofs.«142257_j38500086842157_1_alg».proof.Proof.Glue01

set_option maxRecDepth 16384

noncomputable section

open scoped BigOperators

namespace Cert.KernelIdeal.Glue2

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- Closes "a buffer holds after a stretch of host operations what it held before it": none of them writes it. -/
local macro "untouched" : tactic => `(tactic| (
  refine StableHlo.after_of_forall_not_mem _ _ (List.forall_iff_forall_mem.mp ?_)
  simp only [hostOps0, hostOps1, hostOps2, List.Forall, StableHlo.nullary_writes, StableHlo.unary_writes,
    StableHlo.binary_writes, StableHlo.reshape_writes, Finset.mem_singleton]
  repeat' apply And.intro
  all_goals exact StableHlo.devRef_ne_of_ne (by decide)))

/-- Row r of the second region's two-row statistics divided by the batch size, as the host computes it: the row cut
    out, flattened, and divided entry by entry by the batch size spread over the row. -/
abbrev quot (r : ℕ) (hs : S2x100.Slices ![r, 0] S1x100) : Spec.Row 100 :=
  Host.divf (F := Ideal) (φ := .f32)
    (shapeCast S100 (extractStridedSlice S1x100 ![r, 0] (V4 m ρ c main_v20_1 : Spec.Mat 2 100) hs) shapeCasts_S1x100_S100)
    (broadcastInDim S100 ![] bcast_S_S100 (constant (F := Ideal) S_ .f32 0x47800000#32))

/-! ## What the third region finds: the second region's two outputs (the statistics through the host's slices,
    quotients, product and difference), the launch memory elsewhere -/

theorem e2_h2 : (V5 m ρ c main_v20_0 : Spec.Mat 65536 100) = V4 m ρ c main_v20_0 :=
  calc W5 m ρ c (Proc.devRef .tc main_v20_0)
    _ = W4 m ρ c (Proc.devRef .tc main_v20_0) := by untouched
theorem e2_s2 : (V5 m ρ c main_arg11 : Spec.Mat 65536 100) = m ((c.tc : Thread nD τ).loc main_arg11) :=
  calc W5 m ρ c (Proc.devRef .tc main_arg11)
    _ = W4 m ρ c (Proc.devRef .tc main_arg11) := by untouched
    _ = W3 m ρ c (Proc.devRef .tc main_arg11) := W4_of_ne m ρ c main_arg11 (by decide)
    _ = W2 m ρ c (Proc.devRef .tc main_arg11) := by untouched
    _ = W1 m ρ c (Proc.devRef .tc main_arg11) := W2_of_ne m ρ c main_arg11 (by decide)
    _ = W0 m ρ c (Proc.devRef .tc main_arg11) := by untouched
    _ = m ((c.tc : Thread nD τ).loc main_arg11) := rfl
theorem e2_m2 : (V5 m ρ c main_arg12 : Spec.Mat 65536 100) = m ((c.tc : Thread nD τ).loc main_arg12) :=
  calc W5 m ρ c (Proc.devRef .tc main_arg12)
    _ = W4 m ρ c (Proc.devRef .tc main_arg12) := by untouched
    _ = W3 m ρ c (Proc.devRef .tc main_arg12) := W4_of_ne m ρ c main_arg12 (by decide)
    _ = W2 m ρ c (Proc.devRef .tc main_arg12) := by untouched
    _ = W1 m ρ c (Proc.devRef .tc main_arg12) := W2_of_ne m ρ c main_arg12 (by decide)
    _ = W0 m ρ c (Proc.devRef .tc main_arg12) := by untouched
    _ = m ((c.tc : Thread nD τ).loc main_arg12) := rfl

theorem e2_mean : Spec.rowOf (V5 m ρ c main_v31) = Spec.meanS (V4 m ρ c main_v20_1) := by
  have e : (V5 m ρ c main_v31 : Spec.Mat 1 100)
      = shapeCast S1x100 (quot m ρ c 0 slices_S2x100_S1x100_0_0) shapeCasts_S100_S1x100 := by
    dsimp only [V5, W5, hostOps2]; after_results; rfl
  rw [e, Glue.rowOf_cast]; exact Glue.meanS_read _ _ _ _

theorem e2_var : Spec.rowOf (V5 m ρ c main_v32) = Spec.varS (V4 m ρ c main_v20_1) := by
  have e : (V5 m ρ c main_v32 : Spec.Mat 1 100)
      = shapeCast S1x100 (subf (F := Ideal) (φ := .f32) (quot m ρ c 1 slices_S2x100_S1x100_1_0)
          (mulf (F := Ideal) (φ := .f32) (quot m ρ c 0 slices_S2x100_S1x100_0_0) (quot m ρ c 0 slices_S2x100_S1x100_0_0)))
          shapeCasts_S100_S1x100 := by
    dsimp only [V5, W5, hostOps2]; after_results; rfl
  rw [e, Glue.rowOf_cast]
  exact Glue.varS_read _ slices_S2x100_S1x100_0_0 _ _ _ _ (Glue.meanS_read _ _ _ _)

theorem e2_g2 : Spec.rowOf (V5 m ρ c main_v4) = (m ((c.tc : Thread nD τ).loc main_arg9) : Spec.Row 100) := by
  have e : (V5 m ρ c main_v4 : Spec.Mat 1 100)
      = shapeCast S1x100 (m ((c.tc : Thread nD τ).loc main_arg9) : Spec.Row 100) shapeCasts_S100_S1x100 :=
    calc W5 m ρ c (Proc.devRef .tc main_v4)
      _ = W4 m ρ c (Proc.devRef .tc main_v4) := by untouched
      _ = W3 m ρ c (Proc.devRef .tc main_v4) := W4_of_ne m ρ c main_v4 (by decide)
      _ = W2 m ρ c (Proc.devRef .tc main_v4) := by untouched
      _ = W1 m ρ c (Proc.devRef .tc main_v4) := W2_of_ne m ρ c main_v4 (by decide)
      _ = shapeCast S1x100 (m ((c.tc : Thread nD τ).loc main_arg9) : Spec.Row 100) shapeCasts_S100_S1x100 := by
        dsimp only [W1, hostOps0]; after_results; rfl
  rw [e]; exact Glue.rowOf_cast _ _
theorem e2_be2 : Spec.rowOf (V5 m ρ c main_v5) = (m ((c.tc : Thread nD τ).loc main_arg10) : Spec.Row 100) := by
  have e : (V5 m ρ c main_v5 : Spec.Mat 1 100)
      = shapeCast S1x100 (m ((c.tc : Thread nD τ).loc main_arg10) : Spec.Row 100) shapeCasts_S100_S1x100 :=
    calc W5 m ρ c (Proc.devRef .tc main_v5)
      _ = W4 m ρ c (Proc.devRef .tc main_v5) := by untouched
      _ = W3 m ρ c (Proc.devRef .tc main_v5) := W4_of_ne m ρ c main_v5 (by decide)
      _ = W2 m ρ c (Proc.devRef .tc main_v5) := by untouched
      _ = W1 m ρ c (Proc.devRef .tc main_v5) := W2_of_ne m ρ c main_v5 (by decide)
      _ = shapeCast S1x100 (m ((c.tc : Thread nD τ).loc main_arg10) : Spec.Row 100) shapeCasts_S100_S1x100 := by
        dsimp only [W1, hostOps0]; after_results; rfl
  rw [e]; exact Glue.rowOf_cast _ _
theorem e2_W3 : (V5 m ρ c main_arg13 : Spec.Mat 10 100) = m ((c.tc : Thread nD τ).loc main_arg13) :=
  calc W5 m ρ c (Proc.devRef .tc main_arg13)
    _ = W4 m ρ c (Proc.devRef .tc main_arg13) := by untouched
    _ = W3 m ρ c (Proc.devRef .tc main_arg13) := W4_of_ne m ρ c main_arg13 (by decide)
    _ = W2 m ρ c (Proc.devRef .tc main_arg13) := by untouched
    _ = W1 m ρ c (Proc.devRef .tc main_arg13) := W2_of_ne m ρ c main_arg13 (by decide)
    _ = W0 m ρ c (Proc.devRef .tc main_arg13) := by untouched
    _ = m ((c.tc : Thread nD τ).loc main_arg13) := rfl
theorem e2_b3 : Spec.rowOf (V5 m ρ c main_v6) = (m ((c.tc : Thread nD τ).loc main_arg14) : Spec.Row 10) := by
  have e : (V5 m ρ c main_v6 : Spec.Mat 1 10)
      = shapeCast S1x10 (m ((c.tc : Thread nD τ).loc main_arg14) : Spec.Row 10) shapeCasts_S10_S1x10 :=
    calc W5 m ρ c (Proc.devRef .tc main_v6)
      _ = W4 m ρ c (Proc.devRef .tc main_v6) := by untouched
      _ = W3 m ρ c (Proc.devRef .tc main_v6) := W4_of_ne m ρ c main_v6 (by decide)
      _ = W2 m ρ c (Proc.devRef .tc main_v6) := by untouched
      _ = W1 m ρ c (Proc.devRef .tc main_v6) := W2_of_ne m ρ c main_v6 (by decide)
      _ = shapeCast S1x10 (m ((c.tc : Thread nD τ).loc main_arg14) : Spec.Row 10) shapeCasts_S10_S1x10 := by
        dsimp only [W1, hostOps0]; after_results; rfl
  rw [e]; exact Glue.rowOf_cast _ _

end Cert.KernelIdeal.Glue2

end
-- ==== Proof.KValue.lean ====
/-
  The idealized kernel's result as one function of its argument arrays.

  The third region writes the last dense layer of what it finds; what it finds is the second region's activations and
  their column statistics (through the host's slices and quotients: the mean, and the mean of the squares minus the
  square of the mean), the launch memory elsewhere; the second region likewise over the first.  A [2, N] array whose
  rows are the column sums and the column sums of squares of h gives back the mean and that variance of h.  Chaining
  the three regions, the result array is the network read with the variance as the mean of the squares minus the
  square of the mean.
-/
import proofs.«142257_j38500086842157_1_alg».proof.Proof.Gen.KernelIdeal.Frame
import proofs.«142257_j38500086842157_1_alg».proof.Proof.Spec
import proofs.«142257_j38500086842157_1_alg».proof.Proof.R0Value
import proofs.«142257_j38500086842157_1_alg».proof.Proof.R1Value
import proofs.«142257_j38500086842157_1_alg».proof.Proof.R2Value
import proofs.«142257_j38500086842157_1_alg».proof.Proof.Glue01
import proofs.«142257_j38500086842157_1_alg».proof.Proof.Glue2

set_option maxRecDepth 16384

noncomputable section

open scoped BigOperators

namespace Cert.KernelIdeal.KValue

open Cert.KernelIdeal Cert.KernelIdeal.Gen Idealize.ShloMosaic Idealize.ShloMosaic.TcCoe Idealize.SL.Sem Idealize.ShloMosaic.ValueIdx

/-- Row 0 of the statistics of h holds its column sums. -/
theorem stats_row0 {B N : ℕ} (h : Spec.Mat B N) (q : Fin N) : Spec.stats h (ix2 (0 : Fin 2) q) = Spec.colSum h (ix1 q) := by
  unfold Spec.stats
  exact if_pos rfl

/-- Row 1 of the statistics of h holds its column sums of squares. -/
theorem stats_row1 {B N : ℕ} (h : Spec.Mat B N) (q : Fin N) : Spec.stats h (ix2 (1 : Fin 2) q) = Spec.colSq h (ix1 q) := by
  unfold Spec.stats
  exact if_neg (fun h0 => absurd h0 (by decide : ¬ ((1 : Fin 2).val = 0)))

/-- The mean read off the statistics of h is the mean of h. -/
theorem meanS_stats {B N : ℕ} (h : Spec.Mat B N) : Spec.meanS (Spec.stats h) = Spec.mean h := by
  funext j
  have e : Spec.stats h (ix2 (0 : Fin 2) (j 0)) = Spec.colSum h j :=
    (stats_row0 h (j 0)).trans (congrArg (Spec.colSum h) (eq_ix1 j).symm)
  exact congrArg (fun z => Ideal.div z Spec.cB) e

/-- The variance read off the statistics of h is the mean of the squares minus the square of the mean of h. -/
theorem varS_stats {B N : ℕ} (h : Spec.Mat B N) : Spec.varS (Spec.stats h) = Spec.varK h := by
  funext j
  have e : Spec.stats h (ix2 (1 : Fin 2) (j 0)) = Spec.colSq h j :=
    (stats_row1 h (j 0)).trans (congrArg (Spec.colSq h) (eq_ix1 j).symm)
  have em : Spec.meanS (Spec.stats h) j = Spec.mean h j := congrFun (meanS_stats h) j
  exact congrArg₂ (fun a b => Ideal.div a Spec.cB - b * b) e em

variable (m : (ℓ : Loc nD τ sig) → Buf (Elt Ideal) ℓ) (ρ : Dev nD → PrngReg) (c : Dev nD)

/-- The result array after the run is the network of the launch memory's argument arrays, the variance read as the mean
    of the squares minus the square of the mean. -/
theorem result_eq : (W6 m ρ c (Proc.devRef .tc main_v33) : Spec.Mat 65536 10)
    = Spec.netK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have E2 : (W6 m ρ c (Proc.devRef .tc main_v33) : Spec.Mat 65536 10) = _ := (W6_arr m ρ c 9).trans (R2.out_eq (V5 m ρ) c)
  have H2 : (V4 m ρ c main_v20_0 : Spec.Mat 65536 100) = R1.act (V3 m ρ) c := (W4_arr m ρ c 9).trans (R1.h2_eq (V3 m ρ) c)
  have S2 : (V4 m ρ c main_v20_1 : Spec.Mat 2 100) = Spec.stats (R1.act (V3 m ρ) c) :=
    (W4_arr m ρ c 10).trans (R1.st2_eq (V3 m ρ) c)
  have H1 : (V2 m ρ c main_v7_0 : Spec.Mat 65536 300) = R0.act (V1 m ρ) c := (W2_arr m ρ c 3).trans (R0.h1_eq (V1 m ρ) c)
  have S1 : (V2 m ρ c main_v7_1 : Spec.Mat 2 300) = Spec.stats (R0.act (V1 m ρ) c) :=
    (W2_arr m ρ c 4).trans (R0.st1_eq (V1 m ρ) c)
  refine E2.trans ?_
  unfold R2.inp
  rw [Glue2.e2_h2, Glue2.e2_s2, Glue2.e2_m2, Glue2.e2_mean, Glue2.e2_var, Glue2.e2_g2, Glue2.e2_be2, Glue2.e2_W3, Glue2.e2_b3,
    H2, S2, meanS_stats, varS_stats]
  unfold R1.act R1.inp
  rw [Glue.e1_h1, Glue.e1_s1, Glue.e1_m1, Glue.e1_mean, Glue.e1_var, Glue.e1_g1, Glue.e1_be1, Glue.e1_W2, Glue.e1_b2,
    H1, S1, meanS_stats, varS_stats]
  unfold R0.act
  rw [Glue.e0_x, Glue.e0_W1, Glue.e0_b1]
  rfl

end Cert.KernelIdeal.KValue

end
-- ==== Proof.Consts.lean ====
/-
  The two single-precision words the programs spell, as the extended reals they denote at the ideal values: the batch
  size is the real 65536, and the stabiliser under the square root is a positive real.
-/
import proofs.«142257_j38500086842157_1_alg».proof.Proof.Spec

noncomputable section

namespace Cert.Consts

open Idealize.ShloMosaic

/-- The word 0x47800000 denotes the real 65536. -/
theorem cB_eq : Cert.Spec.cB = ((65536 : ℝ) : EReal) := by
  unfold Cert.Spec.cB
  simp [Ideal.ofBits, Ideal.ieee, -EReal.coe_mul]; norm_num

/-- The word 0x3727C5AC denotes a positive real. -/
theorem eps_real : ∃ e : ℝ, 0 < e ∧ Cert.Spec.eps = (e : EReal) := by
  unfold Cert.Spec.eps
  simp [Ideal.ofBits, Ideal.ieee, -EReal.coe_mul]

end Cert.Consts

end
-- ==== Proof.Algebra.lean ====
/-
  With every input entry a real number the two readings of the network agree: on a column of reals the mean of the
  squares minus the square of the mean is the mean of the squared deviations from the mean, and every intermediate
  array is again an array of reals (a variance is not negative and the stabiliser is positive, so the reciprocal square
  root is taken at a positive real).
-/
import proofs.«142257_j38500086842157_1_alg».proof.Proof.Spec
import proofs.«142257_j38500086842157_1_alg».proof.Proof.Consts
import Mathlib.Data.EReal.Basic
import Mathlib.Data.EReal.Operations
import Mathlib.Tactic.Ring
import Mathlib.Tactic.FieldSimp
import Mathlib.Tactic.Linarith
import Mathlib.Tactic.Positivity

noncomputable section

open scoped BigOperators

namespace Cert.Algebra

open Idealize.ShloMosaic Idealize.ShloMosaic.ValueIdx Cert.Spec

/-! ## Real numbers inside the extended reals -/

/-- An extended real that is a real number. -/
def IsR (x : EReal) : Prop := ∃ r : ℝ, x = (r : EReal)

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isR_add {x y : EReal} (hx : IsR x) (hy : IsR y) : IsR (x + y) := by
  obtain ⟨a, rfl⟩ := hx; obtain ⟨b, rfl⟩ := hy; exact ⟨a + b, (EReal.coe_add a b).symm⟩

theorem isR_sub {x y : EReal} (hx : IsR x) (hy : IsR y) : IsR (x - y) := by
  obtain ⟨a, rfl⟩ := hx; obtain ⟨b, rfl⟩ := hy; exact ⟨a - b, (EReal.coe_sub a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

/-- The maximum of a real and zero is a real: the inclusion of the reals is monotone. -/
theorem isR_max0 {x : EReal} (hx : IsR x) : IsR (max x 0) := by
  obtain ⟨a, rfl⟩ := hx
  exact ⟨max a 0, (EReal.coe_strictMono.monotone.map_max (a := a) (b := 0)).symm⟩

theorem isR_sum {ι : Type} (s : Finset ι) (f : ι → EReal) (hf : ∀ i, IsR (f i)) : IsR (∑ i ∈ s, f i) := by
  unfold IsR at hf
  choose g hg using hf
  exact ⟨∑ i ∈ s, g i, by simp only [hg, coe_sum]⟩

/-- A real divided by the batch size is the real times 1/65536. -/
theorem isR_divB {x : EReal} (hx : IsR x) : IsR (Ideal.div x cB) := by
  obtain ⟨a, rfl⟩ := hx
  rw [Cert.Consts.cB_eq, Ideal.div_coe (by norm_num), ← EReal.coe_mul]
  exact ⟨_, rfl⟩

/-- The reciprocal square root of a positive real is a real. -/
theorem isR_rsqrt {r : ℝ} (hr : 0 < r) : IsR (Ideal.rsqrt (r : EReal)) := by
  rw [Ideal.rsqrt_coe, if_neg (not_lt.mpr hr.le), if_neg hr.ne']
  exact ⟨_, rfl⟩

/-! ## The two forms of the variance -/

/-- The sum of the squared deviations from any number μ, expanded. -/
theorem sum_sq_dev {B : ℕ} (f : Fin B → ℝ) (μ : ℝ) :
    ∑ p, (f p - μ) * (f p - μ) = (∑ p, f p * f p) - 2 * μ * (∑ p, f p) + (B : ℝ) * (μ * μ) := by
  have e : ∀ p, (f p - μ) * (f p - μ) = f p * f p - 2 * μ * f p + μ * μ := fun p => by ring
  simp only [e, Finset.sum_add_distrib, Finset.sum_sub_distrib, ← Finset.mul_sum, Finset.sum_const,
    Finset.card_univ, Fintype.card_fin, nsmul_eq_mul]
  ring

/-- For n real numbers, the mean of the squares minus the square of the mean is the mean of the squared deviations
    from the mean. -/
theorem real_var {B : ℕ} (n : ℝ) (hn : (B : ℝ) = n) (hn0 : n ≠ 0) (f : Fin B → ℝ) :
    (∑ p, f p * f p) * (1 / n) - ((∑ p, f p) * (1 / n)) * ((∑ p, f p) * (1 / n))
      = (∑ p, (f p - (∑ q, f q) * (1 / n)) * (f p - (∑ q, f q) * (1 / n))) * (1 / n) := by
  rw [sum_sq_dev, hn]
  field_simp
  ring

/-- On a batch of 65536 rows of reals the two forms of the column variance agree. -/
theorem var_eq {B N : ℕ} (hB : B = 65536) (h : Mat B N) (hh : Real2 h) : varK h = varR h := by
  unfold Real2 at hh
  choose f hf using hh
  funext j
  have hn : ((B : ℕ) : ℝ) = 65536 := by subst hB; norm_num
  have hn0 : (65536 : ℝ) ≠ 0 := by norm_num
  unfold varK varR mean colSq colSum
  simp only [Cert.Consts.cB_eq, Ideal.div_coe hn0, hf, ← EReal.coe_mul, ← EReal.coe_sub, coe_sum]
  exact congrArg Real.toEReal (real_var 65536 hn hn0 (fun p => f (ix2 p (j 0))))

/-! ## Every intermediate array is real -/

theorem real_dense {B K N : ℕ} {a : Mat B K} {w : Mat N K} {b : Row N}
    (ha : Real2 a) (hw : Real2 w) (hb : Real1 b) : Real2 (dense a w b) :=
  fun _ => isR_add (isR_sum _ _ fun _ => isR_mul (ha _) (hw _)) (hb _)

theorem real_relu {B N : ℕ} {x : Mat B N} (hx : Real2 x) : Real2 (relu x) :=
  fun j => isR_max0 (hx j)

theorem real_mean {B N : ℕ} {h : Mat B N} (hh : Real2 h) : Real1 (mean h) :=
  fun _ => isR_divB (isR_sum _ _ fun _ => hh _)

/-- The mean of the squared deviations of a real column is a real that is not negative. -/
theorem varR_nonneg {B N : ℕ} {h : Mat B N} (hh : Real2 h) :
    ∀ j, ∃ r : ℝ, 0 ≤ r ∧ varR h j = (r : EReal) := by
  intro j
  obtain ⟨μ, hμ⟩ := real_mean hh j
  unfold Real2 at hh
  choose f hf using hh
  refine ⟨(∑ p : Fin B, (f (ix2 p (j 0)) - μ) * (f (ix2 p (j 0)) - μ)) * (1 / 65536), ?_, ?_⟩
  · exact mul_nonneg (Finset.sum_nonneg fun p _ => mul_self_nonneg _) (by norm_num)
  · unfold varR
    simp only [hμ, hf, Cert.Consts.cB_eq, Ideal.div_coe (show (65536 : ℝ) ≠ 0 by norm_num), ← EReal.coe_sub,
      ← EReal.coe_mul, coe_sum]

/-- Normalising, scaling, shifting and adding the noise keeps an array real when the variance is a real that is
    not negative: the stabiliser makes the argument of the reciprocal square root positive. -/
theorem real_noisy {B N : ℕ} {h : Mat B N} {μ v g β : Row N} {s m : Mat B N}
    (hh : Real2 h) (hμ : Real1 μ) (hv : ∀ j, ∃ r : ℝ, 0 ≤ r ∧ v j = (r : EReal)) (hg : Real1 g) (hβ : Real1 β)
    (hs : Real2 s) (hm : Real2 m) : Real2 (noisy h μ v g β s m) := by
  intro j
  obtain ⟨e, he0, he⟩ := Cert.Consts.eps_real
  obtain ⟨r, hr0, hr⟩ := hv (ix1 (j 1))
  have hrs : IsR (Ideal.rsqrt (v (ix1 (j 1)) + eps)) := by
    rw [hr, he, ← EReal.coe_add]; exact isR_rsqrt (by linarith)
  exact isR_add (isR_mul (hs j) (isR_add (isR_mul (isR_mul (hg _) (isR_sub (hh j) (hμ _))) hrs) (hβ _))) (hm j)

/-! ## The network -/

/-- The two readings of the network agree on real inputs. -/
theorem netK_eq_netR (x : Mat 65536 784) (W1 : Mat 300 784) (b1 g1 be1 : Row 300) (s1 m1 : Mat 65536 300)
    (W2 : Mat 100 300) (b2 g2 be2 : Row 100) (s2 m2 : Mat 65536 100) (W3 : Mat 10 100) (b3 : Row 10)
    (hx : Real2 x) (hW1 : Real2 W1) (hb1 : Real1 b1) (hg1 : Real1 g1) (hbe1 : Real1 be1) (hs1 : Real2 s1) (hm1 : Real2 m1)
    (hW2 : Real2 W2) (hb2 : Real1 b2) (hg2 : Real1 g2) (hbe2 : Real1 be2) (hs2 : Real2 s2) (hm2 : Real2 m2)
    (hW3 : Real2 W3) (hb3 : Real1 b3) :
    netK x W1 b1 g1 be1 s1 m1 W2 b2 g2 be2 s2 m2 W3 b3 = netR x W1 b1 g1 be1 s1 m1 W2 b2 g2 be2 s2 m2 W3 b3 := by
  have hh1 : Real2 (relu (dense x W1 b1)) := real_relu (real_dense hx hW1 hb1)
  have e1 : varK (relu (dense x W1 b1)) = varR (relu (dense x W1 b1)) := var_eq rfl _ hh1
  have hn1 := real_noisy hh1 (real_mean hh1) (varR_nonneg hh1) hg1 hbe1 hs1 hm1
  have hh2 := real_relu (real_dense hn1 hW2 hb2)
  have e2 := var_eq rfl _ hh2
  dsimp only [netK, netR, net]
  rw [e1, e2]

end Cert.Algebra

end
-- ==== Proof.Finite.lean ====
/-
  The precondition says every entry of every input array is finite; read at the ideal values, every entry is a real
  number.

  The precondition is a conjunction of fifteen tests, one per array: the test takes the absolute value of each entry,
  compares it strictly against the single-precision word of +∞, and takes the conjunction of all the comparisons.  On
  the extended reals the absolute value of x is max x (-x) and the word 0x7F800000 denotes ⊤.  Of the three kinds of
  extended real, ⊤ has absolute value ⊤ and so has ⊥; only a real number has an absolute value strictly below ⊤.
-/
import proofs.«142257_j38500086842157_1_alg».proof.Defs
import proofs.«142257_j38500086842157_1_alg».proof.Proof.Spec
import Idealize.ShloMosaic.Lib.ReduceAll

set_option maxRecDepth 16384

noncomputable section

namespace Cert.Finite

open Idealize.ShloMosaic Idealize.ShloMosaic.TcCoe Idealize.SL.Sem Idealize.ShloMosaic.ValueIdx Cert.Spec

/-- A rank-0 array has exactly one index. -/
local instance : Subsingleton Cert.Pre_finite_inputs.S_.Idx := ⟨fun a b => funext fun d => d.elim0⟩

/-- The single-precision word with exponent all ones and significand zero denotes +∞. -/
theorem inf_word : Ideal.ofBits .f32 0x7F800000#32 = (⊤ : EReal) := by
  simp [Ideal.ofBits, Ideal.ieee]

/-- An extended real whose absolute value max x (-x) lies strictly below ⊤ is a real number: for x = ⊤ the maximum is
    ⊤ itself, and for x = ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One test of the precondition, at any shape: if the conjunction over all entries of "|x i| < +∞" is true, then every
    entry of x is a real number.  A conjunction that is true has every member true; the member at i says
    max (x i) (-(x i)) < ⊤. -/
theorem real_of_all {s : Shape} {axes : List (Fin s.rank)} (x : s.Idx → EReal)
    (hb : Cert.Pre_finite_inputs.S_.BroadcastsInDim s (![] : Fin 0 → Fin s.rank))
    (hr : s.ReducesTo axes Cert.Pre_finite_inputs.S_) (h0 : 0 < Cert.Pre_finite_inputs.S_.numel)
    (init : IVec Cert.Pre_finite_inputs.S_ 1)
    (e : Host.reduce IntOp.andi
          (cmpf (F := Ideal) (φ := .f32) .olt (Host.absf (F := Ideal) (φ := .f32) x)
            (broadcastInDim s ![] hb (constant (F := Ideal) Cert.Pre_finite_inputs.S_ .f32 0x7F800000#32)))
          init hr h0 ix0 = 1#1) (i : s.Idx) :
    ∃ r : ℝ, x i = (r : EReal) := by
  have h1 := Host.reduce_andi_all _ init hr h0 ix0 e i
  -- the member at i, spelled out: the truth value of max (x i) (-(x i)) < (the word of +∞), as one bit
  change BitVec.ofBool (decide (max (x i) (-(x i)) < Ideal.ofBits .f32 0x7F800000#32)) = 1#1 at h1
  rw [inf_word] at h1
  apply real_of_abs_lt_top
  by_contra hn
  rw [decide_eq_false hn] at h1
  exact absurd h1 (by decide)

/-- Under the precondition every input array is an array of reals. -/
theorem real_of_pre [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Real2 (m ((c.tc : Thread Cert.KernelIdeal.nD Cert.KernelIdeal.τ).loc Cert.KernelIdeal.main_arg0) : Mat 65536 784) ∧ Real2 (m ((c.tc : Thread Cert.KernelIdeal.nD Cert.KernelIdeal.τ).loc Cert.KernelIdeal.main_arg1) : Mat 300 784)
    ∧ Real1 (m ((c.tc : Thread Cert.KernelIdeal.nD Cert.KernelIdeal.τ).loc Cert.KernelIdeal.main_arg2) : Row 300) ∧ Real1 (m ((c.tc : Thread Cert.KernelIdeal.nD Cert.KernelIdeal.τ).loc Cert.KernelIdeal.main_arg3) : Row 300) ∧ Real1 (m ((c.tc : Thread Cert.KernelIdeal.nD Cert.KernelIdeal.τ).loc Cert.KernelIdeal.main_arg4) : Row 300)
    ∧ Real2 (m ((c.tc : Thread Cert.KernelIdeal.nD Cert.KernelIdeal.τ).loc Cert.KernelIdeal.main_arg5) : Mat 65536 300) ∧ Real2 (m ((c.tc : Thread Cert.KernelIdeal.nD Cert.KernelIdeal.τ).loc Cert.KernelIdeal.main_arg6) : Mat 65536 300)
    ∧ Real2 (m ((c.tc : Thread Cert.KernelIdeal.nD Cert.KernelIdeal.τ).loc Cert.KernelIdeal.main_arg7) : Mat 100 300)
    ∧ Real1 (m ((c.tc : Thread Cert.KernelIdeal.nD Cert.KernelIdeal.τ).loc Cert.KernelIdeal.main_arg8) : Row 100) ∧ Real1 (m ((c.tc : Thread Cert.KernelIdeal.nD Cert.KernelIdeal.τ).loc Cert.KernelIdeal.main_arg9) : Row 100) ∧ Real1 (m ((c.tc : Thread Cert.KernelIdeal.nD Cert.KernelIdeal.τ).loc Cert.KernelIdeal.main_arg10) : Row 100)
    ∧ Real2 (m ((c.tc : Thread Cert.KernelIdeal.nD Cert.KernelIdeal.τ).loc Cert.KernelIdeal.main_arg11) : Mat 65536 100) ∧ Real2 (m ((c.tc : Thread Cert.KernelIdeal.nD Cert.KernelIdeal.τ).loc Cert.KernelIdeal.main_arg12) : Mat 65536 100)
    ∧ Real2 (m ((c.tc : Thread Cert.KernelIdeal.nD Cert.KernelIdeal.τ).loc Cert.KernelIdeal.main_arg13) : Mat 10 100) ∧ Real1 (m ((c.tc : Thread Cert.KernelIdeal.nD Cert.KernelIdeal.τ).loc Cert.KernelIdeal.main_arg14) : Row 10) := by
  -- the precondition at the one index of its rank-0 result, as a conjunction of fifteen tests nested to the left
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩ := h0
  -- each test gives the reality of its own array
  exact ⟨real_of_all _ _ _ _ _ e0, real_of_all _ _ _ _ _ e1, real_of_all _ _ _ _ _ e2, real_of_all _ _ _ _ _ e3,
    real_of_all _ _ _ _ _ e4, real_of_all _ _ _ _ _ e5, real_of_all _ _ _ _ _ e6, real_of_all _ _ _ _ _ e7,
    real_of_all _ _ _ _ _ e8, real_of_all _ _ _ _ _ e9, real_of_all _ _ _ _ _ e10, real_of_all _ _ _ _ _ e11,
    real_of_all _ _ _ _ _ e12, real_of_all _ _ _ _ _ e13, real_of_all _ _ _ _ _ e14⟩

end Cert.Finite

end
-- ==== Proof.RefOps.lean ====
/-
  The reference network's host program, written as one straight line of operations.

  The network is three dense layers (a transpose of the weights, a contraction over the shared axis, the bias broadcast
  along the batch and added).  After each of the first two layers come: the maximum with a broadcast zero; the column
  mean, a sum over the batch axis divided by the batch size; the column variance as the mean of the squared deviations,
  namely the sum over the batch axis of (h - mean) * (h - mean) divided by the batch size minus a zero correction, kept
  where that divisor is positive and replaced by a not-a-number constant elsewhere; the normalisation by the reciprocal
  square root of the variance plus a small constant; the scale, the shift, and the per-entry noise (a product and a sum
  with two further inputs).

  The maximum with zero, the variance, and the selection inside the variance are functions of their own, called from
  the main function.  A call means the callee's operations performed in place on the caller's operands, each value of
  the callee's body written to the buffer that this one call names for it.  Listing every operation in execution order,
  each callee's operations standing where its call stands, gives 113 operations: 63 of the main function itself, 3 for
  each of the two maxima with zero, 19 for each of the two variances and 3 for the selection inside each variance.

  `main_eq` states that the program is exactly this list run in order.
-/
import proofs.«142257_j38500086842157_1_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The 113 operations of the reference program in execution order.  Entries 6 to 8 are the first maximum with zero,
    entries 15 to 33 the first variance and 34 to 36 the selection inside it; entries 60 to 62 are the second maximum
    with zero, entries 69 to 87 the second variance and 88 to 90 its selection.  Every other entry is an operation of the
    main function itself.  An operand that a callee receives from the main function is written as the main function's
    buffer carrying the tensor type the callee declares for that argument. -/
abbrev ops : List (HloOp τ sig (Elt F)) :=
  [ unary main_arg1 main_v0 ((transpose S784x300 [1, 0] · transposes_S300x784_S784x300_1_0) : (⟨S300x784, .f32⟩ : BufTy).Contents (Elt F) → (⟨S784x300, .f32⟩ : BufTy).Contents (Elt F)),
    binary main_arg0 main_v0 main_v1 ((fun l r => Host.dotGeneral dot_S65536x784_S784x300_S65536x300_1_0_0_1_n_n none l r) : (⟨S65536x784, .f32⟩ : BufTy).Contents (Elt F) → (⟨S784x300, .f32⟩ : BufTy).Contents (Elt F) → (⟨S65536x300, .f32⟩ : BufTy).Contents (Elt F)),
    unary main_arg2 main_v2 (broadcastInDim S1x300 ![1] bcast_S300_S1x300_1 : (⟨S300, .f32⟩ : BufTy).Contents (Elt F) → (⟨S1x300, .f32⟩ : BufTy).Contents (Elt F)),
    unary main_v2 main_v3 (broadcastInDim S65536x300 ![0, 1] bcast_S1x300_S65536x300_0_1 : (⟨S1x300, .f32⟩ : BufTy).Contents (Elt F) → (⟨S65536x300, .f32⟩ : BufTy).Contents (Elt F)),
    binary main_v1 main_v3 main_v4 (addf : (⟨S65536x300, .f32⟩ : BufTy).Contents (Elt F) → (⟨S65536x300, .f32⟩ : BufTy).Contents (Elt F) → (⟨S65536x300, .f32⟩ : BufTy).Contents (Elt F)),
    TRef.nullary main_call0.cst (constant S_ .f32 0x00000000#32),
    TRef.unary main_call0.cst main_call0.v0 (broadcastInDim S65536x300 ![] bcast_S_S65536x300),
    TRef.binary (.of main_v4 : TRef sig ⟨S65536x300, .f32⟩) main_call0.v0 main_call0.v1 maximumf,
    nullary main_cst (constant S_ .f32 0x00000000#32),
    binary main_v5 main_cst main_v6 ((fun x v => Host.reduceAdd x v reducesTo_S65536x300_S300_d0 h_S_) : (⟨S65536x300, .f32⟩ : BufTy).Contents (Elt F) → (⟨S_, .f32⟩ : BufTy).Contents (Elt F) → (⟨S300, .f32⟩ : BufTy).Contents (Elt F)),
    nullary main_cst_0 (constant S_ .f32 0x47800000#32),
    unary main_cst_0 main_v7 (broadcastInDim S300 ![] bcast_S_S300 : (⟨S_, .f32⟩ : BufTy).Contents (Elt F) → (⟨S300, .f32⟩ : BufTy).Contents (Elt F)),
    binary main_v6 main_v7 main_v8 (Host.divf : (⟨S300, .f32⟩ : BufTy).Contents (Elt F) → (⟨S300, .f32⟩ : BufTy).Contents (Elt F) → (⟨S300, .f32⟩ : BufTy).Contents (Elt F)),
    nullary main_c (constantI S_ 32 0#32),
    TRef.nullary main_call1.cst (constant S_ .f32 0x00000000#32),
    TRef.binary (.of main_v5 : TRef sig ⟨S65536x300, .f32⟩) main_call1.cst main_call1.v0 (fun x v => Host.reduceAdd x v reducesTo_S65536x300_S300_d0 h_S_),
    TRef.unary main_call1.v0 main_call1.v1 (broadcastInDim S1x300 ![1] bcast_S300_S1x300_1),
    TRef.nullary main_call1.cst_0 (constant S_ .f32 0x47800000#32),
    TRef.unary main_call1.cst_0 main_call1.v2 (broadcastInDim S1x300 ![] bcast_S_S1x300),
    TRef.binary main_call1.v1 main_call1.v2 main_call1.v3 Host.divf,
    TRef.unary main_call1.v3 main_call1.v4 (broadcastInDim S65536x300 ![0, 1] bcast_S1x300_S65536x300_0_1),
    TRef.binary (.of main_v5 : TRef sig ⟨S65536x300, .f32⟩) main_call1.v4 main_call1.v5 subf,
    TRef.binary main_call1.v5 main_call1.v5 main_call1.v6 mulf,
    TRef.unary (.of main_c : TRef sig ⟨S_, .i32⟩) main_call1.v7 (sitofp .f32),
    TRef.nullary main_call1.cst_1 (constant S_ .f32 0x47800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S65536x300_S300_d0 h_S_),
    TRef.unary main_call1.v8 main_call1.v10 (broadcastInDim S300 ![] bcast_S_S300),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S300 ![] bcast_S_S300),
    TRef.ternary main_call1.v12 main_call1.v11 main_call1.call0.v1 main_call1.call0.v2 (fun p a b => select (broadcastInDim S300 ![] bcast_S_S300 p) a b),
    unary main_v8 main_v10 (broadcastInDim S1x300 ![1] bcast_S300_S1x300_1 : (⟨S300, .f32⟩ : BufTy).Contents (Elt F) → (⟨S1x300, .f32⟩ : BufTy).Contents (Elt F)),
    unary main_v10 main_v11 (broadcastInDim S65536x300 ![0, 1] bcast_S1x300_S65536x300_0_1 : (⟨S1x300, .f32⟩ : BufTy).Contents (Elt F) → (⟨S65536x300, .f32⟩ : BufTy).Contents (Elt F)),
    binary main_v5 main_v11 main_v12 (subf : (⟨S65536x300, .f32⟩ : BufTy).Contents (Elt F) → (⟨S65536x300, .f32⟩ : BufTy).Contents (Elt F) → (⟨S65536x300, .f32⟩ : BufTy).Contents (Elt F)),
    unary main_arg3 main_v13 (broadcastInDim S1x300 ![1] bcast_S300_S1x300_1 : (⟨S300, .f32⟩ : BufTy).Contents (Elt F) → (⟨S1x300, .f32⟩ : BufTy).Contents (Elt F)),
    unary main_v13 main_v14 (broadcastInDim S65536x300 ![0, 1] bcast_S1x300_S65536x300_0_1 : (⟨S1x300, .f32⟩ : BufTy).Contents (Elt F) → (⟨S65536x300, .f32⟩ : BufTy).Contents (Elt F)),
    binary main_v14 main_v12 main_v15 (mulf : (⟨S65536x300, .f32⟩ : BufTy).Contents (Elt F) → (⟨S65536x300, .f32⟩ : BufTy).Contents (Elt F) → (⟨S65536x300, .f32⟩ : BufTy).Contents (Elt F)),
    nullary main_cst_1 (constant S_ .f32 0x3727C5AC#32),
    unary main_cst_1 main_v16 (broadcastInDim S300 ![] bcast_S_S300 : (⟨S_, .f32⟩ : BufTy).Contents (Elt F) → (⟨S300, .f32⟩ : BufTy).Contents (Elt F)),
    binary main_v9 main_v16 main_v17 (addf : (⟨S300, .f32⟩ : BufTy).Contents (Elt F) → (⟨S300, .f32⟩ : BufTy).Contents (Elt F) → (⟨S300, .f32⟩ : BufTy).Contents (Elt F)),
    unary main_v17 main_v18 (Host.rsqrt : (⟨S300, .f32⟩ : BufTy).Contents (Elt F) → (⟨S300, .f32⟩ : BufTy).Contents (Elt F)),
    unary main_v18 main_v19 (broadcastInDim S1x300 ![1] bcast_S300_S1x300_1 : (⟨S300, .f32⟩ : BufTy).Contents (Elt F) → (⟨S1x300, .f32⟩ : BufTy).Contents (Elt F)),
    unary main_v19 main_v20 (broadcastInDim S65536x300 ![0, 1] bcast_S1x300_S65536x300_0_1 : (⟨S1x300, .f32⟩ : BufTy).Contents (Elt F) → (⟨S65536x300, .f32⟩ : BufTy).Contents (Elt F)),
    binary main_v15 main_v20 main_v21 (mulf : (⟨S65536x300, .f32⟩ : BufTy).Contents (Elt F) → (⟨S65536x300, .f32⟩ : BufTy).Contents (Elt F) → (⟨S65536x300, .f32⟩ : BufTy).Contents (Elt F)),
    unary main_arg4 main_v22 (broadcastInDim S1x300 ![1] bcast_S300_S1x300_1 : (⟨S300, .f32⟩ : BufTy).Contents (Elt F) → (⟨S1x300, .f32⟩ : BufTy).Contents (Elt F)),
    unary main_v22 main_v23 (broadcastInDim S65536x300 ![0, 1] bcast_S1x300_S65536x300_0_1 : (⟨S1x300, .f32⟩ : BufTy).Contents (Elt F) → (⟨S65536x300, .f32⟩ : BufTy).Contents (Elt F)),
    binary main_v21 main_v23 main_v24 (addf : (⟨S65536x300, .f32⟩ : BufTy).Contents (Elt F) → (⟨S65536x300, .f32⟩ : BufTy).Contents (Elt F) → (⟨S65536x300, .f32⟩ : BufTy).Contents (Elt F)),
    binary main_arg5 main_v24 main_v25 (mulf : (⟨S65536x300, .f32⟩ : BufTy).Contents (Elt F) → (⟨S65536x300, .f32⟩ : BufTy).Contents (Elt F) → (⟨S65536x300, .f32⟩ : BufTy).Contents (Elt F)),
    binary main_v25 main_arg6 main_v26 (addf : (⟨S65536x300, .f32⟩ : BufTy).Contents (Elt F) → (⟨S65536x300, .f32⟩ : BufTy).Contents (Elt F) → (⟨S65536x300, .f32⟩ : BufTy).Contents (Elt F)),
    unary main_arg7 main_v27 ((transpose S300x100 [1, 0] · transposes_S100x300_S300x100_1_0) : (⟨S100x300, .f32⟩ : BufTy).Contents (Elt F) → (⟨S300x100, .f32⟩ : BufTy).Contents (Elt F)),
    binary main_v26 main_v27 main_v28 ((fun l r => Host.dotGeneral dot_S65536x300_S300x100_S65536x100_1_0_0_1_n_n none l r) : (⟨S65536x300, .f32⟩ : BufTy).Contents (Elt F) → (⟨S300x100, .f32⟩ : BufTy).Contents (Elt F) → (⟨S65536x100, .f32⟩ : BufTy).Contents (Elt F)),
    unary main_arg8 main_v29 (broadcastInDim S1x100 ![1] bcast_S100_S1x100_1 : (⟨S100, .f32⟩ : BufTy).Contents (Elt F) → (⟨S1x100, .f32⟩ : BufTy).Contents (Elt F)),
    unary main_v29 main_v30 (broadcastInDim S65536x100 ![0, 1] bcast_S1x100_S65536x100_0_1 : (⟨S1x100, .f32⟩ : BufTy).Contents (Elt F) → (⟨S65536x100, .f32⟩ : BufTy).Contents (Elt F)),
    binary main_v28 main_v30 main_v31 (addf : (⟨S65536x100, .f32⟩ : BufTy).Contents (Elt F) → (⟨S65536x100, .f32⟩ : BufTy).Contents (Elt F) → (⟨S65536x100, .f32⟩ : BufTy).Contents (Elt F)),
    TRef.nullary main_call2.cst (constant S_ .f32 0x00000000#32),
    TRef.unary main_call2.cst main_call2.v0 (broadcastInDim S65536x100 ![] bcast_S_S65536x100),
    TRef.binary (.of main_v31 : TRef sig ⟨S65536x100, .f32⟩) main_call2.v0 main_call2.v1 maximumf,
    nullary main_cst_2 (constant S_ .f32 0x00000000#32),
    binary main_v32 main_cst_2 main_v33 ((fun x v => Host.reduceAdd x v reducesTo_S65536x100_S100_d0 h_S_) : (⟨S65536x100, .f32⟩ : BufTy).Contents (Elt F) → (⟨S_, .f32⟩ : BufTy).Contents (Elt F) → (⟨S100, .f32⟩ : BufTy).Contents (Elt F)),
    nullary main_cst_3 (constant S_ .f32 0x47800000#32),
    unary main_cst_3 main_v34 (broadcastInDim S100 ![] bcast_S_S100 : (⟨S_, .f32⟩ : BufTy).Contents (Elt F) → (⟨S100, .f32⟩ : BufTy).Contents (Elt F)),
    binary main_v33 main_v34 main_v35 (Host.divf : (⟨S100, .f32⟩ : BufTy).Contents (Elt F) → (⟨S100, .f32⟩ : BufTy).Contents (Elt F) → (⟨S100, .f32⟩ : BufTy).Contents (Elt F)),
    nullary main_c_4 (constantI S_ 32 0#32),
    TRef.nullary main_call3.cst (constant S_ .f32 0x00000000#32),
    TRef.binary (.of main_v32 : TRef sig ⟨S65536x100, .f32⟩) main_call3.cst main_call3.v0 (fun x v => Host.reduceAdd x v reducesTo_S65536x100_S100_d0 h_S_),
    TRef.unary main_call3.v0 main_call3.v1 (broadcastInDim S1x100 ![1] bcast_S100_S1x100_1),
    TRef.nullary main_call3.cst_0 (constant S_ .f32 0x47800000#32),
    TRef.unary main_call3.cst_0 main_call3.v2 (broadcastInDim S1x100 ![] bcast_S_S1x100),
    TRef.binary main_call3.v1 main_call3.v2 main_call3.v3 Host.divf,
    TRef.unary main_call3.v3 main_call3.v4 (broadcastInDim S65536x100 ![0, 1] bcast_S1x100_S65536x100_0_1),
    TRef.binary (.of main_v32 : TRef sig ⟨S65536x100, .f32⟩) main_call3.v4 main_call3.v5 subf,
    TRef.binary main_call3.v5 main_call3.v5 main_call3.v6 mulf,
    TRef.unary (.of main_c_4 : TRef sig ⟨S_, .i32⟩) main_call3.v7 (sitofp .f32),
    TRef.nullary main_call3.cst_1 (constant S_ .f32 0x47800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S65536x100_S100_d0 h_S_),
    TRef.unary main_call3.v8 main_call3.v10 (broadcastInDim S100 ![] bcast_S_S100),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S100 ![] bcast_S_S100),
    TRef.ternary main_call3.v12 main_call3.v11 main_call3.call0.v1 main_call3.call0.v2 (fun p a b => select (broadcastInDim S100 ![] bcast_S_S100 p) a b),
    unary main_v35 main_v37 (broadcastInDim S1x100 ![1] bcast_S100_S1x100_1 : (⟨S100, .f32⟩ : BufTy).Contents (Elt F) → (⟨S1x100, .f32⟩ : BufTy).Contents (Elt F)),
    unary main_v37 main_v38 (broadcastInDim S65536x100 ![0, 1] bcast_S1x100_S65536x100_0_1 : (⟨S1x100, .f32⟩ : BufTy).Contents (Elt F) → (⟨S65536x100, .f32⟩ : BufTy).Contents (Elt F)),
    binary main_v32 main_v38 main_v39 (subf : (⟨S65536x100, .f32⟩ : BufTy).Contents (Elt F) → (⟨S65536x100, .f32⟩ : BufTy).Contents (Elt F) → (⟨S65536x100, .f32⟩ : BufTy).Contents (Elt F)),
    unary main_arg9 main_v40 (broadcastInDim S1x100 ![1] bcast_S100_S1x100_1 : (⟨S100, .f32⟩ : BufTy).Contents (Elt F) → (⟨S1x100, .f32⟩ : BufTy).Contents (Elt F)),
    unary main_v40 main_v41 (broadcastInDim S65536x100 ![0, 1] bcast_S1x100_S65536x100_0_1 : (⟨S1x100, .f32⟩ : BufTy).Contents (Elt F) → (⟨S65536x100, .f32⟩ : BufTy).Contents (Elt F)),
    binary main_v41 main_v39 main_v42 (mulf : (⟨S65536x100, .f32⟩ : BufTy).Contents (Elt F) → (⟨S65536x100, .f32⟩ : BufTy).Contents (Elt F) → (⟨S65536x100, .f32⟩ : BufTy).Contents (Elt F)),
    nullary main_cst_5 (constant S_ .f32 0x3727C5AC#32),
    unary main_cst_5 main_v43 (broadcastInDim S100 ![] bcast_S_S100 : (⟨S_, .f32⟩ : BufTy).Contents (Elt F) → (⟨S100, .f32⟩ : BufTy).Contents (Elt F)),
    binary main_v36 main_v43 main_v44 (addf : (⟨S100, .f32⟩ : BufTy).Contents (Elt F) → (⟨S100, .f32⟩ : BufTy).Contents (Elt F) → (⟨S100, .f32⟩ : BufTy).Contents (Elt F)),
    unary main_v44 main_v45 (Host.rsqrt : (⟨S100, .f32⟩ : BufTy).Contents (Elt F) → (⟨S100, .f32⟩ : BufTy).Contents (Elt F)),
    unary main_v45 main_v46 (broadcastInDim S1x100 ![1] bcast_S100_S1x100_1 : (⟨S100, .f32⟩ : BufTy).Contents (Elt F) → (⟨S1x100, .f32⟩ : BufTy).Contents (Elt F)),
    unary main_v46 main_v47 (broadcastInDim S65536x100 ![0, 1] bcast_S1x100_S65536x100_0_1 : (⟨S1x100, .f32⟩ : BufTy).Contents (Elt F) → (⟨S65536x100, .f32⟩ : BufTy).Contents (Elt F)),
    binary main_v42 main_v47 main_v48 (mulf : (⟨S65536x100, .f32⟩ : BufTy).Contents (Elt F) → (⟨S65536x100, .f32⟩ : BufTy).Contents (Elt F) → (⟨S65536x100, .f32⟩ : BufTy).Contents (Elt F)),
    unary main_arg10 main_v49 (broadcastInDim S1x100 ![1] bcast_S100_S1x100_1 : (⟨S100, .f32⟩ : BufTy).Contents (Elt F) → (⟨S1x100, .f32⟩ : BufTy).Contents (Elt F)),
    unary main_v49 main_v50 (broadcastInDim S65536x100 ![0, 1] bcast_S1x100_S65536x100_0_1 : (⟨S1x100, .f32⟩ : BufTy).Contents (Elt F) → (⟨S65536x100, .f32⟩ : BufTy).Contents (Elt F)),
    binary main_v48 main_v50 main_v51 (addf : (⟨S65536x100, .f32⟩ : BufTy).Contents (Elt F) → (⟨S65536x100, .f32⟩ : BufTy).Contents (Elt F) → (⟨S65536x100, .f32⟩ : BufTy).Contents (Elt F)),
    binary main_arg11 main_v51 main_v52 (mulf : (⟨S65536x100, .f32⟩ : BufTy).Contents (Elt F) → (⟨S65536x100, .f32⟩ : BufTy).Contents (Elt F) → (⟨S65536x100, .f32⟩ : BufTy).Contents (Elt F)),
    binary main_v52 main_arg12 main_v53 (addf : (⟨S65536x100, .f32⟩ : BufTy).Contents (Elt F) → (⟨S65536x100, .f32⟩ : BufTy).Contents (Elt F) → (⟨S65536x100, .f32⟩ : BufTy).Contents (Elt F)),
    unary main_arg13 main_v54 ((transpose S100x10 [1, 0] · transposes_S10x100_S100x10_1_0) : (⟨S10x100, .f32⟩ : BufTy).Contents (Elt F) → (⟨S100x10, .f32⟩ : BufTy).Contents (Elt F)),
    binary main_v53 main_v54 main_v55 ((fun l r => Host.dotGeneral dot_S65536x100_S100x10_S65536x10_1_0_0_1_n_n none l r) : (⟨S65536x100, .f32⟩ : BufTy).Contents (Elt F) → (⟨S100x10, .f32⟩ : BufTy).Contents (Elt F) → (⟨S65536x10, .f32⟩ : BufTy).Contents (Elt F)),
    unary main_arg14 main_v56 (broadcastInDim S1x10 ![1] bcast_S10_S1x10_1 : (⟨S10, .f32⟩ : BufTy).Contents (Elt F) → (⟨S1x10, .f32⟩ : BufTy).Contents (Elt F)),
    unary main_v56 main_v57 (broadcastInDim S65536x10 ![0, 1] bcast_S1x10_S65536x10_0_1 : (⟨S1x10, .f32⟩ : BufTy).Contents (Elt F) → (⟨S65536x10, .f32⟩ : BufTy).Contents (Elt F)),
    binary main_v55 main_v57 main_v58 (addf : (⟨S65536x10, .f32⟩ : BufTy).Contents (Elt F) → (⟨S65536x10, .f32⟩ : BufTy).Contents (Elt F) → (⟨S65536x10, .f32⟩ : BufTy).Contents (Elt F)) ]

set_option maxRecDepth 65536 in
set_option maxHeartbeats 2000000 in
/-- The program is the list run in order.  The main function is its two consecutive parts; unfolding the parts and each
    callee's body at its call leaves nested sequencings of single steps, every callee ending in a return of the unit.
    Sequencing grafts its continuation onto the leaves of a finite tree of steps, so a returned unit followed by a
    continuation is that continuation and nested sequencings flatten by computation: both sides evaluate to the same
    chain of 113 steps. -/
theorem main_eq (c : Dev nD) : main (F := F) c = seq ops := rfl

end Cert.ReferenceIdeal.RefRun

end
-- ==== Proof.RefRun.lean ====
/-
  The run of the reference network's host program.

  The program is a straight line of 113 operations, each reading some buffers and writing exactly one.  From any launch
  memory with every counter at zero, every weakly fair execution terminates, and each buffer then holds what folding the
  operations' results, in order, over the launch contents leaves there: an operation replaces the contents of the buffer
  it writes by its function of the contents of the buffers it reads and leaves every other buffer alone.

  No operation writes any of the fifteen inputs: the 113 written buffers are pairwise distinct and are exactly the
  buffers other than the inputs.  So the fold leaves each input as it found it.
-/
import proofs.«142257_j38500086842157_1_alg».proof.Proof.RefOps

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

/-! ## Nothing is scoped, and every operation stays among the core's buffers -/

/-- The signature scopes no buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Each operation reads and writes only buffers of the core: one fact per operation, in the list's order. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., binary_bufs_sub .., binary_bufs_sub ..,
    unary_bufs_sub .., binary_bufs_sub .., unary_bufs_sub .., unary_bufs_sub .., binary_bufs_sub ..⟩

/-- Each operation determines everything it writes: none merely allocates. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

/-! ## The run -/

/-- From any memory with zero counters every weakly fair execution of the program terminates, and every buffer of the
    core ends at the fold of the 113 operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  run_seq scopedRefs_eq scopedSems_eq defs main (fun _ => ops) main_eq (fun _ => ops_sub) m ρ
    (fun _ => List.forall_iff_forall_mem.mp ops_fresh)

/-! ## The inputs are left as launched -/

/-- The buffer each operation writes, in the list's order: 113 distinct buffers, none of them an input. -/
abbrev written : List (Ref sig .tc) :=
  [ main_v0, main_v1, main_v2, main_v3, main_v4, main_call0.cst.ref,
    main_call0.v0.ref, main_call0.v1.ref, main_cst, main_v6, main_cst_0, main_v7,
    main_v8, main_c, main_call1.cst.ref, main_call1.v0.ref, main_call1.v1.ref, main_call1.cst_0.ref,
    main_call1.v2.ref, main_call1.v3.ref, main_call1.v4.ref, main_call1.v5.ref, main_call1.v6.ref, main_call1.v7.ref,
    main_call1.cst_1.ref, main_call1.v8.ref, main_call1.cst_2.ref, main_call1.v9.ref, main_call1.v10.ref, main_call1.v11.ref,
    main_call1.cst_3.ref, main_call1.v12.ref, main_call1.cst_4.ref, main_call1.call0.v0.ref, main_call1.call0.v1.ref, main_call1.call0.v2.ref,
    main_v10, main_v11, main_v12, main_v13, main_v14, main_v15,
    main_cst_1, main_v16, main_v17, main_v18, main_v19, main_v20,
    main_v21, main_v22, main_v23, main_v24, main_v25, main_v26,
    main_v27, main_v28, main_v29, main_v30, main_v31, main_call2.cst.ref,
    main_call2.v0.ref, main_call2.v1.ref, main_cst_2, main_v33, main_cst_3, main_v34,
    main_v35, main_c_4, main_call3.cst.ref, main_call3.v0.ref, main_call3.v1.ref, main_call3.cst_0.ref,
    main_call3.v2.ref, main_call3.v3.ref, main_call3.v4.ref, main_call3.v5.ref, main_call3.v6.ref, main_call3.v7.ref,
    main_call3.cst_1.ref, main_call3.v8.ref, main_call3.cst_2.ref, main_call3.v9.ref, main_call3.v10.ref, main_call3.v11.ref,
    main_call3.cst_3.ref, main_call3.v12.ref, main_call3.cst_4.ref, main_call3.call0.v0.ref, main_call3.call0.v1.ref, main_call3.call0.v2.ref,
    main_v37, main_v38, main_v39, main_v40, main_v41, main_v42,
    main_cst_5, main_v43, main_v44, main_v45, main_v46, main_v47,
    main_v48, main_v49, main_v50, main_v51, main_v52, main_v53,
    main_v54, main_v55, main_v56, main_v57, main_v58 ]

/-- An operation that writes the single buffer `y` writes inside any list that holds `y`. -/
theorem writes_sub_of_mem {W : List (Ref sig .tc)} {y : Ref sig .tc} {op : HloOp τ sig (Elt F)}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- Every operation writes inside `written`. -/
theorem ops_writes : (ops : List (HloOp τ sig (Elt F))).Forall fun op =>
    op.writes ⊆ (written.map (Proc.devRef (τ := τ) .tc)).toFinset :=
  ⟨writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide), writes_sub_of_mem rfl (by decide),
    writes_sub_of_mem rfl (by decide), writes_sub_of_mem rfl (by decide)⟩

theorem arg0_eq (V : Valuation τ sig (Elt F)) :
    StableHlo.after ops V (Proc.devRef .tc main_arg0) = V (Proc.devRef .tc main_arg0) :=
  after_of_writes_sub ops V ops_writes (by decide)
theorem arg1_eq (V : Valuation τ sig (Elt F)) :
    StableHlo.after ops V (Proc.devRef .tc main_arg1) = V (Proc.devRef .tc main_arg1) :=
  after_of_writes_sub ops V ops_writes (by decide)
theorem arg2_eq (V : Valuation τ sig (Elt F)) :
    StableHlo.after ops V (Proc.devRef .tc main_arg2) = V (Proc.devRef .tc main_arg2) :=
  after_of_writes_sub ops V ops_writes (by decide)
theorem arg3_eq (V : Valuation τ sig (Elt F)) :
    StableHlo.after ops V (Proc.devRef .tc main_arg3) = V (Proc.devRef .tc main_arg3) :=
  after_of_writes_sub ops V ops_writes (by decide)
theorem arg4_eq (V : Valuation τ sig (Elt F)) :
    StableHlo.after ops V (Proc.devRef .tc main_arg4) = V (Proc.devRef .tc main_arg4) :=
  after_of_writes_sub ops V ops_writes (by decide)
theorem arg5_eq (V : Valuation τ sig (Elt F)) :
    StableHlo.after ops V (Proc.devRef .tc main_arg5) = V (Proc.devRef .tc main_arg5) :=
  after_of_writes_sub ops V ops_writes (by decide)
theorem arg6_eq (V : Valuation τ sig (Elt F)) :
    StableHlo.after ops V (Proc.devRef .tc main_arg6) = V (Proc.devRef .tc main_arg6) :=
  after_of_writes_sub ops V ops_writes (by decide)
theorem arg7_eq (V : Valuation τ sig (Elt F)) :
    StableHlo.after ops V (Proc.devRef .tc main_arg7) = V (Proc.devRef .tc main_arg7) :=
  after_of_writes_sub ops V ops_writes (by decide)
theorem arg8_eq (V : Valuation τ sig (Elt F)) :
    StableHlo.after ops V (Proc.devRef .tc main_arg8) = V (Proc.devRef .tc main_arg8) :=
  after_of_writes_sub ops V ops_writes (by decide)
theorem arg9_eq (V : Valuation τ sig (Elt F)) :
    StableHlo.after ops V (Proc.devRef .tc main_arg9) = V (Proc.devRef .tc main_arg9) :=
  after_of_writes_sub ops V ops_writes (by decide)
theorem arg10_eq (V : Valuation τ sig (Elt F)) :
    StableHlo.after ops V (Proc.devRef .tc main_arg10) = V (Proc.devRef .tc main_arg10) :=
  after_of_writes_sub ops V ops_writes (by decide)
theorem arg11_eq (V : Valuation τ sig (Elt F)) :
    StableHlo.after ops V (Proc.devRef .tc main_arg11) = V (Proc.devRef .tc main_arg11) :=
  after_of_writes_sub ops V ops_writes (by decide)
theorem arg12_eq (V : Valuation τ sig (Elt F)) :
    StableHlo.after ops V (Proc.devRef .tc main_arg12) = V (Proc.devRef .tc main_arg12) :=
  after_of_writes_sub ops V ops_writes (by decide)
theorem arg13_eq (V : Valuation τ sig (Elt F)) :
    StableHlo.after ops V (Proc.devRef .tc main_arg13) = V (Proc.devRef .tc main_arg13) :=
  after_of_writes_sub ops V ops_writes (by decide)
theorem arg14_eq (V : Valuation τ sig (Elt F)) :
    StableHlo.after ops V (Proc.devRef .tc main_arg14) = V (Proc.devRef .tc main_arg14) :=
  after_of_writes_sub ops V ops_writes (by decide)

end Cert.ReferenceIdeal.RefRun

end
-- ==== Proof.RefStages.lean ====
/-
  The stages of the reference network, each read at an index, at the ideal values (a float an extended real, every
  operation its textbook one).

  A row b of length n laid along the m rows of a matrix reads b(q) at (p, q).  The product of x : [B, K] with the
  transpose of w : [N, K], plus the bias laid along every row, is at (p, q) the sum over k of x(p, k) · w(q, k), plus
  b(q): the dense layer.  The maximum with the zero word is relu.  The sum over the rows started from the zero word is
  the column sum, and divided by the word of 65536 it is the column mean.  The variance is the mean of the squared
  deviations from the column mean; the program divides by 65536 less the integer 0 converted to a float, which is
  65536 again, and keeps the quotient where that count is above zero, which it is.  Normalising, scaling, shifting and
  the per-entry noise give s · (g · (h - μ) · rsqrt (v + ε) + β) + m.

  Each law is stated once for any sizes over the shape relations it needs, and then at the three layers' own sizes.
-/
import proofs.«142257_j38500086842157_1_alg».proof.ReferenceIdeal
import proofs.«142257_j38500086842157_1_alg».proof.Proof.Spec
import proofs.«142257_j38500086842157_1_alg».proof.Proof.Consts
import Idealize.ShloMosaic.Lib.IdealHost
import Idealize.ShloMosaic.Lib.ValueLayout
import Idealize.ShloMosaic.Lib.KernelVsHost
import Idealize.ShloMosaic.PureOps.Ideal.Laws

noncomputable section

open scoped BigOperators

namespace Cert.ReferenceIdeal.RefValue

open Idealize.ShloMosaic Idealize.ShloMosaic.ValueIdx Cert.Spec Cert.ReferenceIdeal

/-! ## Rows laid along a matrix -/

/-- A row laid as a one-row matrix reads the row. -/
theorem bcastRow_apply {n : ℕ} {α : Type} (h : (⟨1, ![n]⟩ : Shape).BroadcastsInDim ⟨2, ![1, n]⟩ ![1])
    (b : (⟨1, ![n]⟩ : Shape).Idx → α) (c : Fin n) :
    broadcastInDim ⟨2, ![1, n]⟩ ![1] h b (ix2 (0 : Fin 1) c) = b (ix1 c) := by
  refine broadcastInDim_apply ![1] h b _ (ix1 c) ?_
  intro a
  match a with
  | ⟨0, _⟩ =>
    show c.val = if n = 1 then 0 else c.val
    split
    · have := c.isLt; omega
    · rfl

/-- A row laid along every row of a matrix reads, at (p, q), the row at q. -/
theorem bcastRows_apply {m n : ℕ} {α : Type} (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (j : (⟨2, ![m, n]⟩ : Shape).Idx) :
    broadcastInDim ⟨2, ![m, n]⟩ ![0, 1] h2 (broadcastInDim ⟨2, ![1, n]⟩ ![1] h1 b) j = b (ix1 (j 1)) := by
  obtain ⟨p, q, rfl⟩ : ∃ (p : Fin m) (q : Fin n), j = ix2 p q := ⟨j 0, j 1, eq_ix2 j⟩
  rw [broadcastInDim_oneRow_apply, bcastRow_apply]
  rfl

/-! ## The dense layer -/

/-- x · wᵀ + b, the product taken against the transposed weights and the bias laid along every row, is the dense
    layer: at (p, q) the sum over k of x(p, k) · w(q, k), plus b(q). Stated for any dimension numbers that send the
    result index (p, q) and the contraction position k to (p, k) on the left and (k, q) on the right. -/
theorem dense_of {B K N : ℕ} (d : DotDims ⟨2, ![B, K]⟩ ⟨2, ![K, N]⟩ ⟨2, ![B, N]⟩)
    (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![B, N]⟩ ![0, 1])
    (x : Mat B K) (w : Mat N K) (b : Row N) :
    (addf (F := Ideal) (φ := .f32) (Host.dotGeneral (F := Ideal) (φ₁ := .f32) (φ₂ := .f32) d none x (transpose ⟨2, ![K, N]⟩ [1, 0] w ht))
      (broadcastInDim ⟨2, ![B, N]⟩ ![0, 1] h2 (broadcastInDim ⟨2, ![1, N]⟩ ![1] h1 b)) : Mat B N) = dense x w b := by
  funext j
  obtain ⟨p, q, rfl⟩ : ∃ (p : Fin B) (q : Fin N), j = ix2 p q := ⟨j 0, j 1, eq_ix2 j⟩
  rw [addf_apply, bcastRows_apply]
  simp only [Host.dotGeneral]
  rw [Ideal.dotGeneral_apply, ← Equiv.sum_comp (contrEquiv1 d K hr hs).symm]
  unfold dense
  refine congrArg₂ (· + ·) (Finset.sum_congr rfl fun k _ => ?_) rfl
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er, transpose_ix2_apply]
  rfl

/-! ## The maximum with zero -/

/-- The maximum with the zero word spread over the array is relu. -/
theorem relu_of {B N : ℕ} (hb : (⟨0, ![]⟩ : Shape).BroadcastsInDim ⟨2, ![B, N]⟩ ![]) (x : Mat B N) :
    (maximumf (F := Ideal) (φ := .f32) x
      (broadcastInDim ⟨2, ![B, N]⟩ ![] hb (constant (F := Ideal) ⟨0, ![]⟩ .f32 0x00000000#32)) : Mat B N) = relu x := by
  funext j
  rw [maximumf_apply, broadcastInDim_scalar_apply, constant_apply, Ideal.ofBits_zero_f32]
  rfl

/-! ## Column sums and means -/

/-- The sum over the rows, started from the zero word, is the column sum. -/
theorem reduce_rows {B N : ℕ} (hR : (⟨2, ![B, N]⟩ : Shape).ReducesTo [0] ⟨1, ![N]⟩)
    (hR' : (⟨2, ![B, N]⟩ : Shape).Reduces [0] ⟨1, ![N]⟩) (hS : 0 < (⟨0, ![]⟩ : Shape).numel) (h : Mat B N)
    (q : Fin N) :
    Host.reduceAdd (F := Ideal) (φ := .f32) h (constant (F := Ideal) ⟨0, ![]⟩ .f32 0x00000000#32) hR hS (ix1 q)
      = ∑ p : Fin B, h (ix2 p q) := by
  rw [hostReduceAdd_apply, Ideal.hostReduceAdd_single hR hR', constant_apply, Ideal.ofBits_zero_f32, zero_add]
  refine Finset.sum_congr rfl fun k _ => congrArg h ?_
  funext a
  match a with
  | ⟨0, _⟩ => rfl
  | ⟨1, _⟩ => rfl

/-- The column sum divided by the batch-size word spread along the row is the column mean. -/
theorem mean_of {B N : ℕ} (hR : (⟨2, ![B, N]⟩ : Shape).ReducesTo [0] ⟨1, ![N]⟩)
    (hR' : (⟨2, ![B, N]⟩ : Shape).Reduces [0] ⟨1, ![N]⟩) (hS : 0 < (⟨0, ![]⟩ : Shape).numel)
    (hb : (⟨0, ![]⟩ : Shape).BroadcastsInDim ⟨1, ![N]⟩ ![]) (h : Mat B N) :
    (Host.divf (F := Ideal) (φ := .f32)
      (Host.reduceAdd (F := Ideal) (φ := .f32) h (constant (F := Ideal) ⟨0, ![]⟩ .f32 0x00000000#32) hR hS)
      (broadcastInDim ⟨1, ![N]⟩ ![] hb (constant (F := Ideal) ⟨0, ![]⟩ .f32 0x47800000#32)) : Row N) = mean h := by
  funext j
  obtain ⟨q, rfl⟩ : ∃ q : Fin N, j = ix1 q := ⟨j 0, eq_ix1 j⟩
  rw [hostDivf_apply, reduce_rows hR hR' hS, broadcastInDim_scalar_apply, constant_apply]
  rfl

/-! ## The variance as the mean of the squared deviations -/

/-- The integer zero converted to a float is the real zero, so the batch-size word less it is the batch-size word. -/
theorem count_eq :
    (subf (F := Ideal) (φ := .f32) (constant (F := Ideal) ⟨0, ![]⟩ .f32 0x47800000#32)
      (sitofp (F := Ideal) .f32 (constantI ⟨0, ![]⟩ 32 0#32)) : (⟨0, ![]⟩ : Shape).Idx → EReal) ix0 = cB := by
  rw [subf_apply, constant_apply, sitofp_apply]
  show Ideal.ofBits .f32 0x47800000#32 - (((0#32 : BitVec 32).toInt : ℝ) : EReal) = cB
  rw [show (0#32 : BitVec 32).toInt = 0 by decide, Int.cast_zero, EReal.coe_zero, sub_zero]
  rfl

/-- The batch-size word is above zero. -/
theorem cB_pos : (0 : EReal) < cB := by
  rw [Cert.Consts.cB_eq]; exact EReal.coe_pos.mpr (by norm_num)

/-- The deviations from the column mean, as the program forms them: the column sum laid as a one-row matrix, divided
    by the batch-size word there, laid along every row, and subtracted. -/
theorem dev_apply {B N : ℕ} (hR : (⟨2, ![B, N]⟩ : Shape).ReducesTo [0] ⟨1, ![N]⟩)
    (hR' : (⟨2, ![B, N]⟩ : Shape).Reduces [0] ⟨1, ![N]⟩) (hS : 0 < (⟨0, ![]⟩ : Shape).numel)
    (h1 : (⟨1, ![N]⟩ : Shape).BroadcastsInDim ⟨2, ![1, N]⟩ ![1])
    (h2 : (⟨2, ![1, N]⟩ : Shape).BroadcastsInDim ⟨2, ![B, N]⟩ ![0, 1])
    (hb1 : (⟨0, ![]⟩ : Shape).BroadcastsInDim ⟨2, ![1, N]⟩ ![]) (h : Mat B N) (p : Fin B) (q : Fin N) :
    (subf (F := Ideal) (φ := .f32) h (broadcastInDim ⟨2, ![B, N]⟩ ![0, 1] h2
      (Host.divf (F := Ideal) (φ := .f32)
        (broadcastInDim ⟨2, ![1, N]⟩ ![1] h1
          (Host.reduceAdd (F := Ideal) (φ := .f32) h (constant (F := Ideal) ⟨0, ![]⟩ .f32 0x00000000#32) hR hS))
        (broadcastInDim ⟨2, ![1, N]⟩ ![] hb1 (constant (F := Ideal) ⟨0, ![]⟩ .f32 0x47800000#32)))) : Mat B N) (ix2 p q)
      = h (ix2 p q) - mean h (ix1 q) := by
  rw [subf_apply, broadcastInDim_oneRow_apply, hostDivf_apply, bcastRow_apply, reduce_rows hR hR' hS,
    broadcastInDim_scalar_apply, constant_apply]
  rfl

/-- The variance as the program computes it: the squared deviations summed over the rows and divided by the count,
    kept where the count is above zero (it is) and the not-a-number word elsewhere. -/
theorem var_of {B N : ℕ} (hR : (⟨2, ![B, N]⟩ : Shape).ReducesTo [0] ⟨1, ![N]⟩)
    (hR' : (⟨2, ![B, N]⟩ : Shape).Reduces [0] ⟨1, ![N]⟩) (hS : 0 < (⟨0, ![]⟩ : Shape).numel)
    (h1 : (⟨1, ![N]⟩ : Shape).BroadcastsInDim ⟨2, ![1, N]⟩ ![1])
    (h2 : (⟨2, ![1, N]⟩ : Shape).BroadcastsInDim ⟨2, ![B, N]⟩ ![0, 1])
    (hb1 : (⟨0, ![]⟩ : Shape).BroadcastsInDim ⟨2, ![1, N]⟩ ![])
    (hb : (⟨0, ![]⟩ : Shape).BroadcastsInDim ⟨1, ![N]⟩ ![]) (h : Mat B N)
    (D : Mat B N)
    (hD : D = subf (F := Ideal) (φ := .f32) h (broadcastInDim ⟨2, ![B, N]⟩ ![0, 1] h2
      (Host.divf (F := Ideal) (φ := .f32)
        (broadcastInDim ⟨2, ![1, N]⟩ ![1] h1
          (Host.reduceAdd (F := Ideal) (φ := .f32) h (constant (F := Ideal) ⟨0, ![]⟩ .f32 0x00000000#32) hR hS))
        (broadcastInDim ⟨2, ![1, N]⟩ ![] hb1 (constant (F := Ideal) ⟨0, ![]⟩ .f32 0x47800000#32)))))
    (cnt : (⟨0, ![]⟩ : Shape).Idx → EReal)
    (hc : cnt = subf (F := Ideal) (φ := .f32) (constant (F := Ideal) ⟨0, ![]⟩ .f32 0x47800000#32)
      (sitofp (F := Ideal) .f32 (constantI ⟨0, ![]⟩ 32 0#32)))
    (nan : (⟨0, ![]⟩ : Shape).Idx → EReal) :
    (select (broadcastInDim ⟨1, ![N]⟩ ![] hb
        (cmpf (F := Ideal) (φ := .f32) .ogt cnt (constant (F := Ideal) ⟨0, ![]⟩ .f32 0x00000000#32)))
      (Host.divf (F := Ideal) (φ := .f32)
        (Host.reduceAdd (F := Ideal) (φ := .f32) (mulf (F := Ideal) (φ := .f32) D D)
          (constant (F := Ideal) ⟨0, ![]⟩ .f32 0x00000000#32) hR hS)
        (broadcastInDim ⟨1, ![N]⟩ ![] hb cnt))
      (broadcastInDim ⟨1, ![N]⟩ ![] hb nan) : Row N) = varR h := by
  funext j
  obtain ⟨q, rfl⟩ : ∃ q : Fin N, j = ix1 q := ⟨j 0, eq_ix1 j⟩
  have hcnt : cnt ix0 = cB := by rw [hc]; exact count_eq
  rw [select_apply, broadcastInDim_scalar_apply, cmpf_apply, Ideal.cmpf_def, hcnt, constant_apply, Ideal.ofBits_zero_f32]
  have hbit : Ideal.cmp .ogt cB 0 = 1#1 := by
    unfold Ideal.cmp
    simp only [cB_pos, decide_true]
    rfl
  rw [hbit, select_one, hostDivf_apply, reduce_rows hR hR' hS, broadcastInDim_scalar_apply, hcnt]
  show Ideal.div _ _
    = Ideal.div (∑ p : Fin B, (h (ix2 p q) - mean h (ix1 q)) * (h (ix2 p q) - mean h (ix1 q))) cB
  congr 1
  refine Finset.sum_congr rfl fun p _ => ?_
  rw [mulf_apply, hD, dev_apply hR hR' hS h1 h2 hb1]

/-! ## Normalising, scaling, shifting and the noise -/

/-- The reciprocal square root of the variance plus the stabiliser word, read at a column. -/
theorem rsqrt_apply {N : ℕ} (hb : (⟨0, ![]⟩ : Shape).BroadcastsInDim ⟨1, ![N]⟩ ![]) (v : Row N) (j : (⟨1, ![N]⟩ : Shape).Idx) :
    Host.rsqrt (F := Ideal) (φ := .f32) (addf (F := Ideal) (φ := .f32) v
      (broadcastInDim ⟨1, ![N]⟩ ![] hb (constant (F := Ideal) ⟨0, ![]⟩ .f32 0x3727C5AC#32))) j
      = Ideal.rsqrt (v j + eps) := by
  show FloatOps.hostUnary .rsqrt _ = _
  rw [Ideal.hostUnary_rsqrt_def, addf_apply, broadcastInDim_scalar_apply, constant_apply]
  rfl

/-- The column mean subtracted, the gain and the reciprocal square root multiplied in, the shift added, then the
    per-entry scale and offset: s · (g · (h - μ) · rsqrt (v + ε) + β) + m. -/
theorem noisy_of {B N : ℕ}
    (h1 : (⟨1, ![N]⟩ : Shape).BroadcastsInDim ⟨2, ![1, N]⟩ ![1])
    (h2 : (⟨2, ![1, N]⟩ : Shape).BroadcastsInDim ⟨2, ![B, N]⟩ ![0, 1])
    (hb : (⟨0, ![]⟩ : Shape).BroadcastsInDim ⟨1, ![N]⟩ ![])
    (h : Mat B N) (μ v g β : Row N) (s m : Mat B N) :
    (addf (F := Ideal) (φ := .f32)
      (mulf (F := Ideal) (φ := .f32) s
        (addf (F := Ideal) (φ := .f32)
          (mulf (F := Ideal) (φ := .f32)
            (mulf (F := Ideal) (φ := .f32)
              (broadcastInDim ⟨2, ![B, N]⟩ ![0, 1] h2 (broadcastInDim ⟨2, ![1, N]⟩ ![1] h1 g))
              (subf (F := Ideal) (φ := .f32) h
                (broadcastInDim ⟨2, ![B, N]⟩ ![0, 1] h2 (broadcastInDim ⟨2, ![1, N]⟩ ![1] h1 μ))))
            (broadcastInDim ⟨2, ![B, N]⟩ ![0, 1] h2 (broadcastInDim ⟨2, ![1, N]⟩ ![1] h1
              (Host.rsqrt (F := Ideal) (φ := .f32) (addf (F := Ideal) (φ := .f32) v
                (broadcastInDim ⟨1, ![N]⟩ ![] hb (constant (F := Ideal) ⟨0, ![]⟩ .f32 0x3727C5AC#32)))))))
          (broadcastInDim ⟨2, ![B, N]⟩ ![0, 1] h2 (broadcastInDim ⟨2, ![1, N]⟩ ![1] h1 β))))
      m : Mat B N) = noisy h μ v g β s m := by
  funext j
  rw [addf_apply, mulf_apply, addf_apply, mulf_apply, mulf_apply, subf_apply, bcastRows_apply, bcastRows_apply,
    bcastRows_apply, bcastRows_apply, rsqrt_apply]
  rfl

/-! ## Where the three products' dimension numbers send the indices -/

section
variable [Facts₀]

theorem d1_rank : (dot_S65536x784_S784x300_S65536x300_1_0_0_1_n_n).contr.rank = 1 := by
  rw [DotDims.rank_contr]; rfl
theorem d1_size : (dot_S65536x784_S784x300_S65536x300_1_0_0_1_n_n).contr.size ⟨0, by rw [d1_rank]; exact Nat.one_pos⟩ = 784 :=
  (dot_S65536x784_S784x300_S65536x300_1_0_0_1_n_n).size_contr 0 Nat.one_pos
theorem d1_lhs_0 (i : S65536x300.Idx) (q : (dot_S65536x784_S784x300_S65536x300_1_0_0_1_n_n).contr.Idx) :
    ((dot_S65536x784_S784x300_S65536x300_1_0_0_1_n_n).lhsIdx i q 0).val = (i 0).val := by
  unfold DotDims.lhsIdx
  rw [dif_neg (show ¬(0 : Fin S65536x784.rank) ∈ (dot_S65536x784_S784x300_S65536x300_1_0_0_1_n_n).lhsBatch from List.not_mem_nil),
    dif_pos (show (0 : Fin S65536x784.rank) ∈ (dot_S65536x784_S784x300_S65536x300_1_0_0_1_n_n).lhsNonContracting from List.mem_singleton.mpr rfl)]
  rfl
theorem d1_lhs_1 (i : S65536x300.Idx) (q : (dot_S65536x784_S784x300_S65536x300_1_0_0_1_n_n).contr.Idx) :
    ((dot_S65536x784_S784x300_S65536x300_1_0_0_1_n_n).lhsIdx i q 1).val = (q ⟨0, by rw [d1_rank]; exact Nat.one_pos⟩).val :=
  (dot_S65536x784_S784x300_S65536x300_1_0_0_1_n_n).lhsIdx_val_of_single (cl := 1) rfl i q
theorem d1_rhs_0 (i : S65536x300.Idx) (q : (dot_S65536x784_S784x300_S65536x300_1_0_0_1_n_n).contr.Idx) :
    ((dot_S65536x784_S784x300_S65536x300_1_0_0_1_n_n).rhsIdx i q 0).val = (q ⟨0, by rw [d1_rank]; exact Nat.one_pos⟩).val :=
  (dot_S65536x784_S784x300_S65536x300_1_0_0_1_n_n).rhsIdx_val_of_single (cr := 0) rfl i q
theorem d1_rhs_1 (i : S65536x300.Idx) (q : (dot_S65536x784_S784x300_S65536x300_1_0_0_1_n_n).contr.Idx) :
    ((dot_S65536x784_S784x300_S65536x300_1_0_0_1_n_n).rhsIdx i q 1).val = (i 1).val := by
  unfold DotDims.rhsIdx
  rw [dif_neg (show ¬(1 : Fin S784x300.rank) ∈ (dot_S65536x784_S784x300_S65536x300_1_0_0_1_n_n).rhsBatch from List.not_mem_nil),
    dif_pos (show (1 : Fin S784x300.rank) ∈ (dot_S65536x784_S784x300_S65536x300_1_0_0_1_n_n).rhsNonContracting from List.mem_singleton.mpr rfl)]
  rfl

theorem d2_rank : (dot_S65536x300_S300x100_S65536x100_1_0_0_1_n_n).contr.rank = 1 := by
  rw [DotDims.rank_contr]; rfl
theorem d2_size : (dot_S65536x300_S300x100_S65536x100_1_0_0_1_n_n).contr.size ⟨0, by rw [d2_rank]; exact Nat.one_pos⟩ = 300 :=
  (dot_S65536x300_S300x100_S65536x100_1_0_0_1_n_n).size_contr 0 Nat.one_pos
theorem d2_lhs_0 (i : S65536x100.Idx) (q : (dot_S65536x300_S300x100_S65536x100_1_0_0_1_n_n).contr.Idx) :
    ((dot_S65536x300_S300x100_S65536x100_1_0_0_1_n_n).lhsIdx i q 0).val = (i 0).val := by
  unfold DotDims.lhsIdx
  rw [dif_neg (show ¬(0 : Fin S65536x300.rank) ∈ (dot_S65536x300_S300x100_S65536x100_1_0_0_1_n_n).lhsBatch from List.not_mem_nil),
    dif_pos (show (0 : Fin S65536x300.rank) ∈ (dot_S65536x300_S300x100_S65536x100_1_0_0_1_n_n).lhsNonContracting from List.mem_singleton.mpr rfl)]
  rfl
theorem d2_lhs_1 (i : S65536x100.Idx) (q : (dot_S65536x300_S300x100_S65536x100_1_0_0_1_n_n).contr.Idx) :
    ((dot_S65536x300_S300x100_S65536x100_1_0_0_1_n_n).lhsIdx i q 1).val = (q ⟨0, by rw [d2_rank]; exact Nat.one_pos⟩).val :=
  (dot_S65536x300_S300x100_S65536x100_1_0_0_1_n_n).lhsIdx_val_of_single (cl := 1) rfl i q
theorem d2_rhs_0 (i : S65536x100.Idx) (q : (dot_S65536x300_S300x100_S65536x100_1_0_0_1_n_n).contr.Idx) :
    ((dot_S65536x300_S300x100_S65536x100_1_0_0_1_n_n).rhsIdx i q 0).val = (q ⟨0, by rw [d2_rank]; exact Nat.one_pos⟩).val :=
  (dot_S65536x300_S300x100_S65536x100_1_0_0_1_n_n).rhsIdx_val_of_single (cr := 0) rfl i q
theorem d2_rhs_1 (i : S65536x100.Idx) (q : (dot_S65536x300_S300x100_S65536x100_1_0_0_1_n_n).contr.Idx) :
    ((dot_S65536x300_S300x100_S65536x100_1_0_0_1_n_n).rhsIdx i q 1).val = (i 1).val := by
  unfold DotDims.rhsIdx
  rw [dif_neg (show ¬(1 : Fin S300x100.rank) ∈ (dot_S65536x300_S300x100_S65536x100_1_0_0_1_n_n).rhsBatch from List.not_mem_nil),
    dif_pos (show (1 : Fin S300x100.rank) ∈ (dot_S65536x300_S300x100_S65536x100_1_0_0_1_n_n).rhsNonContracting from List.mem_singleton.mpr rfl)]
  rfl

theorem d3_rank : (dot_S65536x100_S100x10_S65536x10_1_0_0_1_n_n).contr.rank = 1 := by
  rw [DotDims.rank_contr]; rfl
theorem d3_size : (dot_S65536x100_S100x10_S65536x10_1_0_0_1_n_n).contr.size ⟨0, by rw [d3_rank]; exact Nat.one_pos⟩ = 100 :=
  (dot_S65536x100_S100x10_S65536x10_1_0_0_1_n_n).size_contr 0 Nat.one_pos
theorem d3_lhs_0 (i : S65536x10.Idx) (q : (dot_S65536x100_S100x10_S65536x10_1_0_0_1_n_n).contr.Idx) :
    ((dot_S65536x100_S100x10_S65536x10_1_0_0_1_n_n).lhsIdx i q 0).val = (i 0).val := by
  unfold DotDims.lhsIdx
  rw [dif_neg (show ¬(0 : Fin S65536x100.rank) ∈ (dot_S65536x100_S100x10_S65536x10_1_0_0_1_n_n).lhsBatch from List.not_mem_nil),
    dif_pos (show (0 : Fin S65536x100.rank) ∈ (dot_S65536x100_S100x10_S65536x10_1_0_0_1_n_n).lhsNonContracting from List.mem_singleton.mpr rfl)]
  rfl
theorem d3_lhs_1 (i : S65536x10.Idx) (q : (dot_S65536x100_S100x10_S65536x10_1_0_0_1_n_n).contr.Idx) :
    ((dot_S65536x100_S100x10_S65536x10_1_0_0_1_n_n).lhsIdx i q 1).val = (q ⟨0, by rw [d3_rank]; exact Nat.one_pos⟩).val :=
  (dot_S65536x100_S100x10_S65536x10_1_0_0_1_n_n).lhsIdx_val_of_single (cl := 1) rfl i q
theorem d3_rhs_0 (i : S65536x10.Idx) (q : (dot_S65536x100_S100x10_S65536x10_1_0_0_1_n_n).contr.Idx) :
    ((dot_S65536x100_S100x10_S65536x10_1_0_0_1_n_n).rhsIdx i q 0).val = (q ⟨0, by rw [d3_rank]; exact Nat.one_pos⟩).val :=
  (dot_S65536x100_S100x10_S65536x10_1_0_0_1_n_n).rhsIdx_val_of_single (cr := 0) rfl i q
theorem d3_rhs_1 (i : S65536x10.Idx) (q : (dot_S65536x100_S100x10_S65536x10_1_0_0_1_n_n).contr.Idx) :
    ((dot_S65536x100_S100x10_S65536x10_1_0_0_1_n_n).rhsIdx i q 1).val = (i 1).val := by
  unfold DotDims.rhsIdx
  rw [dif_neg (show ¬(1 : Fin S100x10.rank) ∈ (dot_S65536x100_S100x10_S65536x10_1_0_0_1_n_n).rhsBatch from List.not_mem_nil),
    dif_pos (show (1 : Fin S100x10.rank) ∈ (dot_S65536x100_S100x10_S65536x10_1_0_0_1_n_n).rhsNonContracting from List.mem_singleton.mpr rfl)]
  rfl

end

/-! ## The stages at the three layers' own sizes -/

section
variable [Facts₀]
open Facts₀

/-- The dense layer into 300 columns. -/
theorem dense1 (x : Mat 65536 784) (w : Mat 300 784) (b : Row 300) :
    (addf (F := Ideal) (φ := .f32)
      (Host.dotGeneral (F := Ideal) (φ₁ := .f32) (φ₂ := .f32) dot_S65536x784_S784x300_S65536x300_1_0_0_1_n_n none x
        (transpose S784x300 [1, 0] w transposes_S300x784_S784x300_1_0))
      (broadcastInDim S65536x300 ![0, 1] bcast_S1x300_S65536x300_0_1 (broadcastInDim S1x300 ![1] bcast_S300_S1x300_1 b)) :
      Mat 65536 300) = dense x w b :=
  dense_of dot_S65536x784_S784x300_S65536x300_1_0_0_1_n_n d1_rank d1_size d1_lhs_0 d1_lhs_1 d1_rhs_0 d1_rhs_1 _ _ _ x w b

/-- The dense layer into 100 columns. -/
theorem dense2 (x : Mat 65536 300) (w : Mat 100 300) (b : Row 100) :
    (addf (F := Ideal) (φ := .f32)
      (Host.dotGeneral (F := Ideal) (φ₁ := .f32) (φ₂ := .f32) dot_S65536x300_S300x100_S65536x100_1_0_0_1_n_n none x
        (transpose S300x100 [1, 0] w transposes_S100x300_S300x100_1_0))
      (broadcastInDim S65536x100 ![0, 1] bcast_S1x100_S65536x100_0_1 (broadcastInDim S1x100 ![1] bcast_S100_S1x100_1 b)) :
      Mat 65536 100) = dense x w b :=
  dense_of dot_S65536x300_S300x100_S65536x100_1_0_0_1_n_n d2_rank d2_size d2_lhs_0 d2_lhs_1 d2_rhs_0 d2_rhs_1 _ _ _ x w b

/-- The dense layer into 10 columns. -/
theorem dense3 (x : Mat 65536 100) (w : Mat 10 100) (b : Row 10) :
    (addf (F := Ideal) (φ := .f32)
      (Host.dotGeneral (F := Ideal) (φ₁ := .f32) (φ₂ := .f32) dot_S65536x100_S100x10_S65536x10_1_0_0_1_n_n none x
        (transpose S100x10 [1, 0] w transposes_S10x100_S100x10_1_0))
      (broadcastInDim S65536x10 ![0, 1] bcast_S1x10_S65536x10_0_1 (broadcastInDim S1x10 ![1] bcast_S10_S1x10_1 b)) :
      Mat 65536 10) = dense x w b :=
  dense_of dot_S65536x100_S100x10_S65536x10_1_0_0_1_n_n d3_rank d3_size d3_lhs_0 d3_lhs_1 d3_rhs_0 d3_rhs_1 _ _ _ x w b

/-- relu on 300 columns. -/
theorem relu300 (x : Mat 65536 300) :
    (maximumf (F := Ideal) (φ := .f32) x
      (broadcastInDim S65536x300 ![] bcast_S_S65536x300 (constant (F := Ideal) S_ .f32 0x00000000#32)) : Mat 65536 300) = relu x :=
  relu_of _ x

/-- The column mean on 300 columns. -/
theorem mean300 (h : Mat 65536 300) :
    (Host.divf (F := Ideal) (φ := .f32)
      (Host.reduceAdd (F := Ideal) (φ := .f32) h (constant (F := Ideal) S_ .f32 0x00000000#32) reducesTo_S65536x300_S300_d0 h_S_)
      (broadcastInDim S300 ![] bcast_S_S300 (constant (F := Ideal) S_ .f32 0x47800000#32)) : Row 300) = mean h :=
  mean_of _ (by decide) _ _ h

/-- The variance on 300 columns. -/
theorem var300 (h : Mat 65536 300) (nan : S_.Idx → EReal) :
    (select (broadcastInDim S300 ![] bcast_S_S300
        (cmpf (F := Ideal) (φ := .f32) .ogt
          (subf (F := Ideal) (φ := .f32) (constant (F := Ideal) S_ .f32 0x47800000#32)
            (sitofp (F := Ideal) .f32 (constantI S_ 32 0#32)))
          (constant (F := Ideal) S_ .f32 0x00000000#32)))
      (Host.divf (F := Ideal) (φ := .f32)
        (Host.reduceAdd (F := Ideal) (φ := .f32)
          (mulf (F := Ideal) (φ := .f32)
            (subf (F := Ideal) (φ := .f32) h (broadcastInDim S65536x300 ![0, 1] bcast_S1x300_S65536x300_0_1
              (Host.divf (F := Ideal) (φ := .f32)
                (broadcastInDim S1x300 ![1] bcast_S300_S1x300_1
                  (Host.reduceAdd (F := Ideal) (φ := .f32) h (constant (F := Ideal) S_ .f32 0x00000000#32) reducesTo_S65536x300_S300_d0 h_S_))
                (broadcastInDim S1x300 ![] bcast_S_S1x300 (constant (F := Ideal) S_ .f32 0x47800000#32)))))
            (subf (F := Ideal) (φ := .f32) h (broadcastInDim S65536x300 ![0, 1] bcast_S1x300_S65536x300_0_1
              (Host.divf (F := Ideal) (φ := .f32)
                (broadcastInDim S1x300 ![1] bcast_S300_S1x300_1
                  (Host.reduceAdd (F := Ideal) (φ := .f32) h (constant (F := Ideal) S_ .f32 0x00000000#32) reducesTo_S65536x300_S300_d0 h_S_))
                (broadcastInDim S1x300 ![] bcast_S_S1x300 (constant (F := Ideal) S_ .f32 0x47800000#32))))))
          (constant (F := Ideal) S_ .f32 0x00000000#32) reducesTo_S65536x300_S300_d0 h_S_)
        (broadcastInDim S300 ![] bcast_S_S300
          (subf (F := Ideal) (φ := .f32) (constant (F := Ideal) S_ .f32 0x47800000#32)
            (sitofp (F := Ideal) .f32 (constantI S_ 32 0#32)))))
      (broadcastInDim S300 ![] bcast_S_S300 nan) : Row 300) = varR h :=
  var_of _ (by decide) _ _ _ _ _ h _ rfl _ rfl nan

/-- Normalising and the noise on 300 columns. -/
theorem noisy300 (h : Mat 65536 300) (μ v g β : Row 300) (s m : Mat 65536 300) :
    (addf (F := Ideal) (φ := .f32)
      (mulf (F := Ideal) (φ := .f32) s
        (addf (F := Ideal) (φ := .f32)
          (mulf (F := Ideal) (φ := .f32)
            (mulf (F := Ideal) (φ := .f32)
              (broadcastInDim S65536x300 ![0, 1] bcast_S1x300_S65536x300_0_1 (broadcastInDim S1x300 ![1] bcast_S300_S1x300_1 g))
              (subf (F := Ideal) (φ := .f32) h
                (broadcastInDim S65536x300 ![0, 1] bcast_S1x300_S65536x300_0_1 (broadcastInDim S1x300 ![1] bcast_S300_S1x300_1 μ))))
            (broadcastInDim S65536x300 ![0, 1] bcast_S1x300_S65536x300_0_1 (broadcastInDim S1x300 ![1] bcast_S300_S1x300_1
              (Host.rsqrt (F := Ideal) (φ := .f32) (addf (F := Ideal) (φ := .f32) v
                (broadcastInDim S300 ![] bcast_S_S300 (constant (F := Ideal) S_ .f32 0x3727C5AC#32)))))))
          (broadcastInDim S65536x300 ![0, 1] bcast_S1x300_S65536x300_0_1 (broadcastInDim S1x300 ![1] bcast_S300_S1x300_1 β))))
      m : Mat 65536 300) = noisy h μ v g β s m :=
  noisy_of _ _ _ h μ v g β s m

/-- relu on 100 columns. -/
theorem relu100 (x : Mat 65536 100) :
    (maximumf (F := Ideal) (φ := .f32) x
      (broadcastInDim S65536x100 ![] bcast_S_S65536x100 (constant (F := Ideal) S_ .f32 0x00000000#32)) : Mat 65536 100) = relu x :=
  relu_of _ x

/-- The column mean on 100 columns. -/
theorem mean100 (h : Mat 65536 100) :
    (Host.divf (F := Ideal) (φ := .f32)
      (Host.reduceAdd (F := Ideal) (φ := .f32) h (constant (F := Ideal) S_ .f32 0x00000000#32) reducesTo_S65536x100_S100_d0 h_S_)
      (broadcastInDim S100 ![] bcast_S_S100 (constant (F := Ideal) S_ .f32 0x47800000#32)) : Row 100) = mean h :=
  mean_of _ (by decide) _ _ h

/-- The variance on 100 columns. -/
theorem var100 (h : Mat 65536 100) (nan : S_.Idx → EReal) :
    (select (broadcastInDim S100 ![] bcast_S_S100
        (cmpf (F := Ideal) (φ := .f32) .ogt
          (subf (F := Ideal) (φ := .f32) (constant (F := Ideal) S_ .f32 0x47800000#32)
            (sitofp (F := Ideal) .f32 (constantI S_ 32 0#32)))
          (constant (F := Ideal) S_ .f32 0x00000000#32)))
      (Host.divf (F := Ideal) (φ := .f32)
        (Host.reduceAdd (F := Ideal) (φ := .f32)
          (mulf (F := Ideal) (φ := .f32)
            (subf (F := Ideal) (φ := .f32) h (broadcastInDim S65536x100 ![0, 1] bcast_S1x100_S65536x100_0_1
              (Host.divf (F := Ideal) (φ := .f32)
                (broadcastInDim S1x100 ![1] bcast_S100_S1x100_1
                  (Host.reduceAdd (F := Ideal) (φ := .f32) h (constant (F := Ideal) S_ .f32 0x00000000#32) reducesTo_S65536x100_S100_d0 h_S_))
                (broadcastInDim S1x100 ![] bcast_S_S1x100 (constant (F := Ideal) S_ .f32 0x47800000#32)))))
            (subf (F := Ideal) (φ := .f32) h (broadcastInDim S65536x100 ![0, 1] bcast_S1x100_S65536x100_0_1
              (Host.divf (F := Ideal) (φ := .f32)
                (broadcastInDim S1x100 ![1] bcast_S100_S1x100_1
                  (Host.reduceAdd (F := Ideal) (φ := .f32) h (constant (F := Ideal) S_ .f32 0x00000000#32) reducesTo_S65536x100_S100_d0 h_S_))
                (broadcastInDim S1x100 ![] bcast_S_S1x100 (constant (F := Ideal) S_ .f32 0x47800000#32))))))
          (constant (F := Ideal) S_ .f32 0x00000000#32) reducesTo_S65536x100_S100_d0 h_S_)
        (broadcastInDim S100 ![] bcast_S_S100
          (subf (F := Ideal) (φ := .f32) (constant (F := Ideal) S_ .f32 0x47800000#32)
            (sitofp (F := Ideal) .f32 (constantI S_ 32 0#32)))))
      (broadcastInDim S100 ![] bcast_S_S100 nan) : Row 100) = varR h :=
  var_of _ (by decide) _ _ _ _ _ h _ rfl _ rfl nan

/-- Normalising and the noise on 100 columns. -/
theorem noisy100 (h : Mat 65536 100) (μ v g β : Row 100) (s m : Mat 65536 100) :
    (addf (F := Ideal) (φ := .f32)
      (mulf (F := Ideal) (φ := .f32) s
        (addf (F := Ideal) (φ := .f32)
          (mulf (F := Ideal) (φ := .f32)
            (mulf (F := Ideal) (φ := .f32)
              (broadcastInDim S65536x100 ![0, 1] bcast_S1x100_S65536x100_0_1 (broadcastInDim S1x100 ![1] bcast_S100_S1x100_1 g))
              (subf (F := Ideal) (φ := .f32) h
                (broadcastInDim S65536x100 ![0, 1] bcast_S1x100_S65536x100_0_1 (broadcastInDim S1x100 ![1] bcast_S100_S1x100_1 μ))))
            (broadcastInDim S65536x100 ![0, 1] bcast_S1x100_S65536x100_0_1 (broadcastInDim S1x100 ![1] bcast_S100_S1x100_1
              (Host.rsqrt (F := Ideal) (φ := .f32) (addf (F := Ideal) (φ := .f32) v
                (broadcastInDim S100 ![] bcast_S_S100 (constant (F := Ideal) S_ .f32 0x3727C5AC#32)))))))
          (broadcastInDim S65536x100 ![0, 1] bcast_S1x100_S65536x100_0_1 (broadcastInDim S1x100 ![1] bcast_S100_S1x100_1 β))))
      m : Mat 65536 100) = noisy h μ v g β s m :=
  noisy_of _ _ _ h μ v g β s m

end

end Cert.ReferenceIdeal.RefValue

end
-- ==== Proof.RefValue.lean ====
/-
  The value of the reference program at the ideal values.

  The program is a straight line of 113 host operations.  Read at the result buffer, the line composes to: a dense
  layer of the input; the maximum with zero; that array's column means and its column variances as means of squared
  deviations; the normalisation with gain, shift and per-entry noise; the same four steps again on a second dense
  layer; and a last dense layer.  Each step is the corresponding function of the shared mathematics, so the whole is
  the network with the variance read as the mean of the squared deviations.
-/
import proofs.«142257_j38500086842157_1_alg».proof.Proof.RefOps
import proofs.«142257_j38500086842157_1_alg».proof.Proof.RefStages
import proofs.«142257_j38500086842157_1_alg».proof.Proof.Gen.ReferenceIdeal

noncomputable section

namespace Cert.ReferenceIdeal.RefValue

open Idealize.ShloMosaic Idealize.ShloMosaic.TcCoe Idealize.SL.Sem Cert.ReferenceIdeal

set_option maxHeartbeats 40000000 in
set_option maxRecDepth 65536 in
/-- The result buffer after the 113 operations holds the network of the fifteen argument arrays. -/
theorem out_eq (V : Valuation τ sig (Elt Ideal)) :
    (StableHlo.after (RefRun.ops (F := Ideal)) V (Proc.devRef .tc main_v58) : Cert.Spec.Mat 65536 10)
      = Cert.Spec.netR (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14)) := by
  -- the fold of the line at the result buffer, as one composed term over the argument arrays
  dsimp only [RefRun.ops]
  open Idealize.ShloMosaic.StableHlo in after_results_simp
  -- a callee's value sits in its buffer at the buffer's own type: the transports are identities
  simp only [StableHlo.TRef.toBuf, StableHlo.TRef.ofBuf, cast_eq, id_eq]
  -- the first layer, innermost stage first, then the second, then the last dense layer
  rw [relu300, dense1, mean300, var300, noisy300]
  rw [relu100, dense2, mean100, var100, noisy100]
  rw [dense3]
  rfl

end Cert.ReferenceIdeal.RefValue

end
-- ==== Proof.lean ====
/-
  The certificate's claims, assembled.

  The two kernel frames are the generated ones.  The reference's frame is its run as one list of host operations, none
  of which writes an argument.  The ideal pass rewrote nothing.  At the ideal values the kernel's result array is the
  three-layer network of its arguments with each column variance read as the mean of the squares minus the square of
  the mean (the kernel accumulates column sums and column sums of squares over the batch tiles), the reference's is the
  same network with the variance as the mean of the squared deviations; under the precondition every input entry is a
  real number, every intermediate array is then an array of reals, and the two readings agree.
-/
import proofs.«142257_j38500086842157_1_alg».proof.Defs
import proofs.«142257_j38500086842157_1_alg».proof.Proof.Gen.Kernel
import proofs.«142257_j38500086842157_1_alg».proof.Proof.Gen.Kernel.Frame
import proofs.«142257_j38500086842157_1_alg».proof.Proof.Gen.KernelIdeal
import proofs.«142257_j38500086842157_1_alg».proof.Proof.Gen.KernelIdeal.Frame
import proofs.«142257_j38500086842157_1_alg».proof.Proof.Gen.ReferenceIdeal
import proofs.«142257_j38500086842157_1_alg».proof.Proof.Gen.Pre_finite_inputs
import proofs.«142257_j38500086842157_1_alg».proof.Proof.Spec
import proofs.«142257_j38500086842157_1_alg».proof.Proof.KRun
import proofs.«142257_j38500086842157_1_alg».proof.Proof.KValue
import proofs.«142257_j38500086842157_1_alg».proof.Proof.Algebra
import proofs.«142257_j38500086842157_1_alg».proof.Proof.Finite
import proofs.«142257_j38500086842157_1_alg».proof.Proof.RefRun
import proofs.«142257_j38500086842157_1_alg».proof.Proof.RefValue
import Idealize.ShloMosaic.Lib.StableHlo.Run
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run as one list of host operations, none of which writes an
    argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _),
     (h c Cert.ReferenceIdeal.main_arg11).trans (Cert.ReferenceIdeal.RefRun.arg11_eq _),
     (h c Cert.ReferenceIdeal.main_arg12).trans (Cert.ReferenceIdeal.RefRun.arg12_eq _),
     (h c Cert.ReferenceIdeal.main_arg13).trans (Cert.ReferenceIdeal.RefRun.arg13_eq _),
     (h c Cert.ReferenceIdeal.main_arg14).trans (Cert.ReferenceIdeal.RefRun.arg14_eq _)⟩)
    (Cert.ReferenceIdeal.RefRun.run_main (F := Ideal) m ρ)

/-- The ideal pass rewrote nothing. -/
theorem preserves : Cert.preserves_Kernel_KernelIdeal := trivial

/-- Both idealized programs end at the network of the argument arrays: the kernel with the variance as the mean of
    the squares minus the square of the mean, the reference with it as the mean of the squared deviations; the inputs
    being finite, these agree. -/
theorem algebraic : Cert.algebraic_KernelIdeal_ReferenceIdeal := by
  intro m ρ m' ρ' hpre hagree
  refine ⟨fun c => Cert.Spec.netK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.KValue.result_eq m ρ c), (h c).2⟩)
      (Cert.KernelIdeal.KRun.run (F := Ideal) m ρ)
  · refine (θ_run Cert.ReferenceIdeal.defs _ _).mono (fun r h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _),
      (h c Cert.ReferenceIdeal.main_arg14).trans (Cert.ReferenceIdeal.RefRun.arg14_eq _)⟩)
      (Cert.ReferenceIdeal.RefRun.run_main (F := Ideal) m' ρ')
    obtain ⟨a0, a1, a2, a3, a4, a5, a6, a7, a8, a9, a10, a11, a12, a13, a14⟩ := hagree c
    obtain ⟨f0, f1, f2, f3, f4, f5, f6, f7, f8, f9, f10, f11, f12, f13, f14⟩ := Cert.Finite.real_of_pre m hpre c
    refine ((h c Cert.ReferenceIdeal.main_v58).trans (Cert.ReferenceIdeal.RefValue.out_eq _)).trans ?_
    show Cert.Spec.netR (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14)) = _
    rw [a0, a1, a2, a3, a4, a5, a6, a7, a8, a9, a10, a11, a12, a13, a14]
    exact (Cert.Algebra.netK_eq_netR _ _ _ _ _ _ _ _ _ _ _ _ _ _ _ f0 f1 f2 f3 f4 f5 f6 f7 f8 f9 f10 f11 f12 f13 f14).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
